-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S640000 : S_.BroadcastsInDim S640000 (![] : Fin 0 → Fin S640000.rank)
  reducesTo_S640000_S_d0 : S640000.ReducesTo [0] S_

variable [Facts]

def fn_part7 {F : FTy → Type} [FloatOps F] (main_arg3 : IVec S640000 32) (main_v116 : IVec S_ 1) (main_v118 : IVec S640000 1) : IVec S_ 1 :=
  let main_c_47 : IVec S_ 1 := constantI S_ 1 1#1
  let main_v119 : IVec S_ 1 := (fun x v => Host.reduce IntOp.andi x v reducesTo_S640000_S_d0 h_S_) main_v118 main_c_47
  let main_v120 : IVec S_ 1 := andi main_v116 main_v119
  let main_c_48 : IVec S_ 32 := constantI S_ 32 40000#32
  let main_v121 : IVec S640000 32 := broadcastInDim S640000 ![] bcast_S_S640000 main_c_48
  let main_v122 : IVec S640000 1 := cmpi .slt main_arg3 main_v121
  let main_c_49 : IVec S_ 1 := constantI S_ 1 1#1
  let main_v123 : IVec S_ 1 := (fun x v => Host.reduce IntOp.andi x v reducesTo_S640000_S_d0 h_S_) main_v122 main_c_49
  let main_v124 : IVec S_ 1 := andi main_v120 main_v123
  main_v124

def fn_part6 {F : FTy → Type} [FloatOps F] (main_arg2 : IVec S640000 32) (main_arg3 : IVec S640000 32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S640000 32 := broadcastInDim S640000 ![] bcast_S_S640000 main_c_42
  let main_v110 : IVec S640000 1 := cmpi .sge main_arg2 main_v109
  let main_c_43 : IVec S_ 1 := constantI S_ 1 1#1
  let main_v111 : IVec S_ 1 := (fun x v => Host.reduce IntOp.andi x v reducesTo_S640000_S_d0 h_S_) main_v110 main_c_43
  let main_v112 : IVec S_ 1 := andi main_v108 main_v111
  let main_c_44 : IVec S_ 32 := constantI S_ 32 40000#32
  let main_v113 : IVec S640000 32 := broadcastInDim S640000 ![] bcast_S_S640000 main_c_44
  let main_v114 : IVec S640000 1 := cmpi .slt main_arg2 main_v113
  let main_c_45 : IVec S_ 1 := constantI S_ 1 1#1
  let main_v115 : IVec S_ 1 := (fun x v => Host.reduce IntOp.andi x v reducesTo_S640000_S_d0 h_S_) main_v114 main_c_45
  let main_v116 : IVec S_ 1 := andi main_v112 main_v115
  let main_c_46 : IVec S_ 32 := constantI S_ 32 0#32
  let main_v117 : IVec S640000 32 := broadcastInDim S640000 ![] bcast_S_S640000 main_c_46
  let main_v118 : IVec S640000 1 := cmpi .sge main_arg3 main_v117
  fn_part7 (F := F) main_arg3 main_v116 main_v118

def fn_part5 {F : FTy → Type} [FloatOps F] (main_arg2 : IVec S640000 32) (main_arg3 : IVec S640000 32) (main_arg20 : FVec F S128 .f32) (main_arg21 : FVec F S128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg2 main_arg3 main_arg23 main_v98 main_v101 main_c_39

def fn_part4 {F : FTy → Type} [FloatOps F] (main_arg2 : IVec S640000 32) (main_arg3 : IVec S640000 32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S384x128 .f32 := Host.absf main_arg16
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_arg20 main_arg21 main_arg22 main_arg23 main_v83 main_v84 main_cst_32

def fn_part3 {F : FTy → Type} [FloatOps F] (main_arg2 : IVec S640000 32) (main_arg3 : IVec S640000 32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_arg19 main_arg20 main_arg21 main_arg22 main_arg23 main_v63 main_v67

def fn_part2 {F : FTy → Type} [FloatOps F] (main_arg2 : IVec S640000 32) (main_arg3 : IVec S640000 32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg2 main_arg3 main_arg13 main_arg14 main_arg15 main_arg16 main_arg17 main_arg18 main_arg19 main_arg20 main_arg21 main_arg22 main_arg23 main_v48 main_v49 main_v50

def fn_part1 {F : FTy → Type} [FloatOps F] (main_arg2 : IVec S640000 32) (main_arg3 : IVec S640000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S40000x128 .f32) (main_arg1 : FVec F S640000x128 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S128x384 : Shape := ⟨2, ![128, 384]⟩
abbrev S384 : Shape := ⟨1, ![384]⟩
abbrev S5000x128 : Shape := ⟨2, ![5000, 128]⟩
abbrev S5000x384 : Shape := ⟨2, ![5000, 384]⟩
abbrev S1x384 : Shape := ⟨2, ![1, 384]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S5000 : Shape := ⟨1, ![5000]⟩
abbrev S5000x1 : Shape := ⟨2, ![5000, 1]⟩
abbrev S5000x256 : Shape := ⟨2, ![5000, 256]⟩

abbrev nBuf : Space → Nat
  | .hbm => 128
  | .vmem => 44
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S384x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128x384, .f32⟩
  | .hbm, ⟨25, _⟩ => ⟨S384, .f32⟩
  | .hbm, ⟨26, _⟩ => ⟨S40000x128, .f32⟩
  | .hbm, ⟨27, _⟩ => ⟨S40000x128, .f32⟩
  | .hbm, ⟨28, _⟩ => ⟨S40000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S1, .i32⟩
  | .hbm, ⟨38, _⟩ => ⟨S_, .i32⟩
  | .hbm, ⟨39, _⟩ => ⟨S640000x1, .i32⟩
  | .hbm, ⟨40, _⟩ => ⟨S640000x1, .i1⟩
  | .hbm, ⟨41, _⟩ => ⟨S1x1, .i32⟩
  | .hbm, ⟨42, _⟩ => ⟨S640000x1, .i32⟩
  | .hbm, ⟨43, _⟩ => ⟨S640000x1, .i1⟩
  | .hbm, ⟨44, _⟩ => ⟨S640000x1, .i1⟩
  | .hbm, ⟨45, _⟩ => ⟨S_, .i1⟩
  | .hbm, ⟨46, _⟩ => ⟨S640000, .i1⟩
  | .hbm, ⟨47, _⟩ => ⟨S640000x128, .f32⟩
  | .hbm, ⟨48, _⟩ => ⟨S640000x128, .i1⟩
  | .hbm, ⟨49, _⟩ => ⟨S_, .f32⟩
  | .hbm, ⟨50, _⟩ => ⟨S640000x128, .f32⟩
  | .hbm, ⟨51, _⟩ => ⟨S640000x128, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S1, .i32⟩
  | .hbm, ⟨61, _⟩ => ⟨S_, .i32⟩
  | .hbm, ⟨62, _⟩ => ⟨S640000x1, .i32⟩
  | .hbm, ⟨63, _⟩ => ⟨S640000x1, .i1⟩
  | .hbm, ⟨64, _⟩ => ⟨S1x1, .i32⟩
  | .hbm, ⟨65, _⟩ => ⟨S640000x1, .i32⟩
  | .hbm, ⟨66, _⟩ => ⟨S640000x1, .i1⟩
  | .hbm, ⟨67, _⟩ => ⟨S640000x1, .i1⟩
  | .hbm, ⟨68, _⟩ => ⟨S_, .i1⟩
  | .hbm, ⟨69, _⟩ => ⟨S640000, .i1⟩
  | .hbm, ⟨70, _⟩ => ⟨S640000x128, .f32⟩
  | .hbm, ⟨71, _⟩ => ⟨S640000x128, .i1⟩
  | .hbm, ⟨72, _⟩ => ⟨S_, .f32⟩
  | .hbm, ⟨73, _⟩ => ⟨S640000x128, .f32⟩
  | .hbm, ⟨74, _⟩ => ⟨S640000x128, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S1, .i32⟩
  | .hbm, ⟨84, _⟩ => ⟨S_, .i32⟩
  | .hbm, ⟨85, _⟩ => ⟨S640000x1, .i32⟩
  | .hbm, ⟨86, _⟩ => ⟨S640000x1, .i1⟩
  | .hbm, ⟨87, _⟩ => ⟨S1x1, .i32⟩
  | .hbm, ⟨88, _⟩ => ⟨S640000x1, .i32⟩
  | .hbm, ⟨89, _⟩ => ⟨S640000x1, .i1⟩
  | .hbm, ⟨90, _⟩ => ⟨S640000x1, .i1⟩
  | .hbm, ⟨91, _⟩ => ⟨S_, .i1⟩
  | .hbm, ⟨92, _⟩ => ⟨S640000, .i1⟩
  | .hbm, ⟨93, _⟩ => ⟨S640000x128, .f32⟩
  | .hbm, ⟨94, _⟩ => ⟨S640000x128, .i1⟩
  | .hbm, ⟨95, _⟩ => ⟨S_, .f32⟩
  | .hbm, ⟨96, _⟩ => ⟨S640000x128, .f32⟩
  | .hbm, ⟨97, _⟩ => ⟨S640000x128, .f32⟩
  | .hbm, ⟨98, _⟩ => ⟨S_, .i32⟩
  | .hbm, ⟨99, _⟩ => ⟨S640000, .i32⟩
  | .hbm, ⟨100, _⟩ => ⟨S640000, .i1⟩
  | .hbm, ⟨101, _⟩ => ⟨S_, .i32⟩
  | .hbm, ⟨102, _⟩ => ⟨S640000, .i32⟩
  | .hbm, ⟨103, _⟩ => ⟨S640000, .i32⟩
  | .hbm, ⟨104, _⟩ => ⟨S640000, .i32⟩
  | .hbm, ⟨105, _⟩ => ⟨S640000x1, .i32⟩
  | .hbm, ⟨106, _⟩ => ⟨S1, .i32⟩
  | .hbm, ⟨107, _⟩ => ⟨S_, .i32⟩
  | .hbm, ⟨108, _⟩ => ⟨S640000x1, .i32⟩
  | .hbm, ⟨109, _⟩ => ⟨S640000x1, .i1⟩
  | .hbm, ⟨110, _⟩ => ⟨S1x1, .i32⟩
  | .hbm, ⟨111, _⟩ => ⟨S640000x1, .i32⟩
  | .hbm, ⟨112, _⟩ => ⟨S640000x1, .i1⟩
  | .hbm, ⟨113, _⟩ => ⟨S640000x1, .i1⟩
  | .hbm, ⟨114, _⟩ => ⟨S_, .i1⟩
  | .hbm, ⟨115, _⟩ => ⟨S640000, .i1⟩
  | .hbm, ⟨116, _⟩ => ⟨S640000x128, .f32⟩
  | .hbm, ⟨117, _⟩ => ⟨S640000x128, .i1⟩
  | .hbm, ⟨118, _⟩ => ⟨S_, .f32⟩
  | .hbm, ⟨119, _⟩ => ⟨S640000x128, .f32⟩
  | .hbm, ⟨120, _⟩ => ⟨S640000x128, .f32⟩
  | .hbm, ⟨121, _⟩ => ⟨S640000x128, .f32⟩
  | .hbm, ⟨122, _⟩ => ⟨S640000x128, .f32⟩
  | .hbm, ⟨123, _⟩ => ⟨S_, .f32⟩
  | .hbm, ⟨124, _⟩ => ⟨S40000x128, .f32⟩
  | .hbm, ⟨125, _⟩ => ⟨S640000x1, .i32⟩
  | .hbm, ⟨126, _⟩ => ⟨S40000x128, .f32⟩
  | .hbm, ⟨127, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S384, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S384x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S256x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S5000x128, .f32⟩
  | .local _ .vmem, ⟨43, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2_0 : Ref sig .tc := ⟨.hbm, 26, rfl⟩
abbrev main_v2_1 : Ref sig .tc := ⟨.hbm, 27, rfl⟩
abbrev main_v2_2 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v3 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v4 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v5 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_call3_cst : Ref sig .tc := ⟨.hbm, 118, rfl⟩
abbrev main_call3_v15 : Ref sig .tc := ⟨.hbm, 119, rfl⟩
abbrev main_v6 : Ref sig .tc := ⟨.hbm, 120, rfl⟩
abbrev main_v7_0 : Ref sig .tc := ⟨.hbm, 121, rfl⟩
abbrev main_v7_1 : Ref sig .tc := ⟨.hbm, 122, rfl⟩
abbrev main_cst : Ref sig .tc := ⟨.hbm, 123, rfl⟩
abbrev main_v8 : Ref sig .tc := ⟨.hbm, 124, rfl⟩
abbrev main_v9 : Ref sig .tc := ⟨.hbm, 125, rfl⟩
abbrev main_v10 : Ref sig .tc := ⟨.hbm, 126, rfl⟩
abbrev main_v11 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg13_1 : Ref sig .tc := ⟨.vmem, 29, rfl⟩
abbrev cc1_stg14_0 : Ref sig .tc := ⟨.vmem, 30, rfl⟩
abbrev cc1_stg14_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg8_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem13_1 : DmaSem sig := 29
abbrev cc1_sem14_0 : DmaSem sig := 30
abbrev cc1_sem14_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem8_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S5000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  concatenates_S5000x128_S5000x128_S5000x128_S5000x384_d1 : Shape.Concatenates [S5000x128, S5000x128, S5000x128] S5000x384 1
  inb_S384x128_S384x128_0_0 : ∀ a, (![0, 0] : Fin 2 → Nat) a + S384x128.size a ≤ S384x128.size a
  h_S384x128 : 0 < S384x128.numel
  reduces_S5000x128_S5000 : S5000x128.Reduces [1] S5000
  shapeCasts_S5000_S5000x1 : S5000.ShapeCasts S5000x1
  broadcasts_S5000x1_S5000x128 : S5000x1.Broadcasts S5000x128
  bcast_S_S40000x128 : S_.BroadcastsInDim S40000x128 (![] : Fin 0 → Fin S40000x128.rank)
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  dot_S5000x128_S128x384_S5000x384_1_0_0_1_n_n_wf : DotDims.WF S5000x128 S128x384 S5000x384 [1] [0] [0] [1] [] []
  gather_S40000x128_S640000x1_S640000x128_1_0_n_n_0_1_1128_wf : GatherDims.WF S40000x128 S640000x1 S640000x128 [1] [0] [] [0] [] 1 ![1, 128]
  dot_S5000x128_S128x128_S5000x128_1_0_0_1_n_n_wf : DotDims.WF S5000x128 S128x128 S5000x128 [1] [0] [0] [1] [] []
  dot_S5000x384_S384x128_S5000x128_1_0_0_1_n_n_wf : DotDims.WF S5000x384 S384x128 S5000x128 [1] [0] [0] [1] [] []
  scatter_S40000x128_S640000x1_S640000x128_1_0_0_1_wf : ScatterDims.WF S40000x128 S640000x1 S640000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S40000x128.size a
  hwx0_4 : ∀ i : grid0.Coords, EltTy.bits .f32 = 32 ∨ (Rect.block (s := S40000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S640000x128.size a
  hwx1_2 : ∀ i : grid1.Coords, EltTy.bits .f32 = 32 ∨ (Rect.block (s := S640000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S640000x128.size a
  hwx1_3 : ∀ i : grid1.Coords, EltTy.bits .f32 = 32 ∨ (Rect.block (s := S640000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S640000x128.size a
  hwx1_4 : ∀ i : grid1.Coords, EltTy.bits .f32 = 32 ∨ (Rect.block (s := S640000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S384x128.size a ≤ S384x128.size a
  hwx1_7 : ∀ i : grid1.Coords, EltTy.bits .f32 = 32 ∨ (Rect.block (s := S384x128) S384x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x128.size a ≤ S640000x128.size a
  hwx1_13 : ∀ i : grid1.Coords, EltTy.bits .f32 = 32 ∨ (Rect.block (s := S640000x128) S5000x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x128.size a ≤ S640000x128.size a
  hwx1_14 : ∀ i : grid1.Coords, EltTy.bits .f32 = 32 ∨ (Rect.block (s := S640000x128) S5000x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S40000x128.size a
  hwx2_8 : ∀ i : grid2.Coords, EltTy.bits .f32 = 32 ∨ (Rect.block (s := S40000x128) S5000x128.size (cc2_transform_8 i) (hinb2_8 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S384x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg19) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg22) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg23) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v7_0) S5000x128.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v7_1) S5000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S1x128 : Shape := ⟨2, ![1, 128]⟩
abbrev S_ : Shape := ⟨0, ![]⟩
abbrev S640000x1 : Shape := ⟨2, ![640000, 1]⟩
abbrev S40000x256 : Shape := ⟨2, ![40000, 256]⟩
abbrev S40000 : Shape := ⟨1, ![40000]⟩
abbrev S40000x1 : Shape := ⟨2, ![40000, 1]⟩
abbrev S640000x384 : Shape := ⟨2, ![640000, 384]⟩

abbrev nBuf : Space → Nat
  | .hbm => 187
  | .vmem => 0
  | .smem => 0
  | _ => 0

abbrev hbmTy0_0 (i : Nat) : BufTy := match i % 128 with
  | 0 => ⟨S40000x128, .f32⟩
  | 1 => ⟨S640000x128, .f32⟩
  | 2 => ⟨S640000, .i32⟩
  | 3 => ⟨S640000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S384x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S40000x128, .f32⟩
  | 25 => ⟨S1x128, .f32⟩
  | 26 => ⟨S40000x128, .f32⟩
  | 27 => ⟨S40000x128, .f32⟩
  | 28 => ⟨S40000x128, .f32⟩
  | 29 => ⟨S1x128, .f32⟩
  | 30 => ⟨S40000x128, .f32⟩
  | 31 => ⟨S40000x128, .f32⟩
  | 32 => ⟨S40000x128, .f32⟩
  | 33 => ⟨S1x128, .f32⟩
  | 34 => ⟨S40000x128, .f32⟩
  | 35 => ⟨S40000x128, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S640000x128, .f32⟩
  | 55 => ⟨S640000x128, .f32⟩
  | 56 => ⟨S1x128, .f32⟩
  | 57 => ⟨S640000x128, .f32⟩
  | 58 => ⟨S640000x128, .f32⟩
  | 59 => ⟨S640000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S640000x128, .f32⟩
  | 70 => ⟨S640000x128, .f32⟩
  | 71 => ⟨S_, .f32⟩
  | 72 => ⟨S640000x128, .f32⟩
  | 73 => ⟨S640000x128, .f32⟩
  | 74 => ⟨S_, .f32⟩
  | 75 => ⟨S640000x128, .f32⟩
  | 76 => ⟨S640000x128, .f32⟩
  | 77 => ⟨S640000x128, .f32⟩
  | 78 => ⟨S_, .f32⟩
  | 79 => ⟨S40000x128, .f32⟩
  | 80 => ⟨S640000x1, .i32⟩
  | 81 => ⟨S40000x128, .f32⟩
  | 82 => ⟨S40000x256, .f32⟩
  | 83 => ⟨S40000x128, .f32⟩
  | 84 => ⟨S1x128, .f32⟩
  | 85 => ⟨S40000x128, .f32⟩
  | 86 => ⟨S40000x128, .f32⟩
  | 87 => ⟨S40000x128, .f32⟩
  | 88 => ⟨S40000x128, .f32⟩
  | 89 => ⟨S_, .f32⟩
  | 90 => ⟨S40000x128, .f32⟩
  | 91 => ⟨S40000x128, .f32⟩
  | 92 => ⟨S_, .f32⟩
  | 93 => ⟨S40000x128, .f32⟩
  | 94 => ⟨S40000x128, .f32⟩
  | 95 => ⟨S40000x128, .f32⟩
  | 96 => ⟨S40000x128, .f32⟩
  | 97 => ⟨S1x128, .f32⟩
  | 98 => ⟨S40000x128, .f32⟩
  | 99 => ⟨S40000x128, .f32⟩
  | 100 => ⟨S40000x128, .f32⟩
  | 101 => ⟨S_, .f32⟩
  | 102 => ⟨S40000, .f32⟩
  | 103 => ⟨S40000x1, .f32⟩
  | 104 => ⟨S_, .f32⟩
  | 105 => ⟨S40000x1, .f32⟩
  | 106 => ⟨S40000x1, .f32⟩
  | 107 => ⟨S40000x128, .f32⟩
  | 108 => ⟨S40000x128, .f32⟩
  | 109 => ⟨S40000x128, .f32⟩
  | 110 => ⟨S_, .f32⟩
  | 111 => ⟨S40000, .f32⟩
  | 112 => ⟨S40000x1, .f32⟩
  | 113 => ⟨S_, .f32⟩
  | 114 => ⟨S40000x1, .f32⟩
  | 115 => ⟨S40000x1, .f32⟩
  | 116 => ⟨S40000x128, .f32⟩
  | 117 => ⟨S40000x128, .f32⟩
  | 118 => ⟨S_, .f32⟩
  | 119 => ⟨S40000x1, .f32⟩
  | 120 => ⟨S40000x1, .f32⟩
  | 121 => ⟨S40000x1, .f32⟩
  | 122 => ⟨S40000x128, .f32⟩
  | 123 => ⟨S40000x128, .f32⟩
  | 124 => ⟨S1x128, .f32⟩
  | 125 => ⟨S40000x128, .f32⟩
  | 126 => ⟨S40000x128, .f32⟩
  | 127 => ⟨S1x128, .f32⟩
  | _ => ⟨S40000x128, .f32⟩

abbrev hbmTy0_1 (i : Nat) : BufTy := match i % 128 with
  | 0 => ⟨S40000x128, .f32⟩
  | 1 => ⟨S40000x128, .f32⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000x128, .f32⟩
  | 11 => ⟨S640000x384, .f32⟩
  | 12 => ⟨S640000x128, .f32⟩
  | 13 => ⟨S1x128, .f32⟩
  | 14 => ⟨S640000x128, .f32⟩
  | 15 => ⟨S640000x128, .f32⟩
  | 16 => ⟨S640000x128, .f32⟩
  | 17 => ⟨S640000x128, .f32⟩
  | 18 => ⟨S_, .f32⟩
  | 19 => ⟨S640000x128, .f32⟩
  | 20 => ⟨S640000x128, .f32⟩
  | 21 => ⟨S_, .f32⟩
  | 22 => ⟨S640000x128, .f32⟩
  | 23 => ⟨S640000x128, .f32⟩
  | 24 => ⟨S640000x128, .f32⟩
  | 25 => ⟨S640000x128, .f32⟩
  | 26 => ⟨S1x128, .f32⟩
  | 27 => ⟨S640000x128, .f32⟩
  | 28 => ⟨S640000x128, .f32⟩
  | 29 => ⟨S640000x128, .f32⟩
  | 30 => ⟨S_, .f32⟩
  | 31 => ⟨S640000, .f32⟩
  | 32 => ⟨S640000x1, .f32⟩
  | 33 => ⟨S_, .f32⟩
  | 34 => ⟨S640000x1, .f32⟩
  | 35 => ⟨S640000x1, .f32⟩
  | 36 => ⟨S640000x128, .f32⟩
  | 37 => ⟨S640000x128, .f32⟩
  | 38 => ⟨S640000x128, .f32⟩
  | 39 => ⟨S_, .f32⟩
  | 40 => ⟨S640000, .f32⟩
  | 41 => ⟨S640000x1, .f32⟩
  | 42 => ⟨S_, .f32⟩
  | 43 => ⟨S640000x1, .f32⟩
  | 44 => ⟨S640000x1, .f32⟩
  | 45 => ⟨S640000x128, .f32⟩
  | 46 => ⟨S640000x128, .f32⟩
  | 47 => ⟨S_, .f32⟩
  | 48 => ⟨S640000x1, .f32⟩
  | 49 => ⟨S640000x1, .f32⟩
  | 50 => ⟨S640000x1, .f32⟩
  | 51 => ⟨S640000x128, .f32⟩
  | 52 => ⟨S640000x128, .f32⟩
  | 53 => ⟨S1x128, .f32⟩
  | 54 => ⟨S640000x128, .f32⟩
  | 55 => ⟨S640000x128, .f32⟩
  | 56 => ⟨S1x128, .f32⟩
  | 57 => ⟨S640000x128, .f32⟩
  | 58 => ⟨S640000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_7 : Ref sig .tc := ⟨.hbm, 101, rfl⟩
abbrev main_v60 : Ref sig .tc := ⟨.hbm, 102, rfl⟩
abbrev main_v61 : Ref sig .tc := ⟨.hbm, 103, rfl⟩
abbrev main_cst_8 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_9 : Ref sig .tc := ⟨.hbm, 110, rfl⟩
abbrev main_v67 : Ref sig .tc := ⟨.hbm, 111, rfl⟩
abbrev main_v68 : Ref sig .tc := ⟨.hbm, 112, rfl⟩
abbrev main_cst_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_11 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_12 : Ref sig .tc := ⟨.hbm, 130, rfl⟩
abbrev main_v84 : Ref sig .tc := ⟨.hbm, 131, rfl⟩
abbrev main_v85 : Ref sig .tc := ⟨.hbm, 132, rfl⟩
abbrev main_c_13 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_14 : Ref sig .tc := ⟨.hbm, 158, rfl⟩
abbrev main_v102 : Ref sig .tc := ⟨.hbm, 159, rfl⟩
abbrev main_v103 : Ref sig .tc := ⟨.hbm, 160, rfl⟩
abbrev main_cst_15 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_16 : Ref sig .tc := ⟨.hbm, 167, rfl⟩
abbrev main_v109 : Ref sig .tc := ⟨.hbm, 168, rfl⟩
abbrev main_v110 : Ref sig .tc := ⟨.hbm, 169, rfl⟩
abbrev main_cst_17 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_18 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  concatenates_S640000x128_S640000x128_S640000x128_S640000x384_d1 : Shape.Concatenates [S640000x128, S640000x128, S640000x128] S640000x384 1
  reducesTo_S640000x128_S640000_d1 : S640000x128.ReducesTo [1] S640000
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []
  dot_S640000x384_S384x128_S640000x128_1_0_0_1_n_n_wf : DotDims.WF S640000x384 S384x128 S640000x128 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf

class Facts : Prop extends Facts₀ where

variable [Facts]
-- ==== Proof.K.Reg0.lean ====
/- The frame half of REGION 0 of @main (custom_call 0, the node projection kernel `cc0__node_proj_kernel`,
   pipeline 0, six windows), at a PARAMETER `V` — the TensorCore's buffer contents when the region is entered —,
   at any `F`. Windows 0, 1, 2 are inputs (a [5000,128] block of the node features; the whole [128,384] weight; the
   whole [384] bias), windows 3, 4, 5 outputs (three [5000,128] blocks). The body loads the three inputs whole,
   forms one [5000,384] product plus bias and stores its three column thirds, each store covering its buffer.
   Stated here: each window's block at a point (`iblk0`), what the body leaves in each output buffer as a closed
   function of the input blocks (`out0_3`, `out0_4`, `out0_5`), the body's triple (`sound_kernel0`), the
   pipeline's proof data (`dat0`) and the body obligation at every point (`body_obligation0`). -/
import proofs.«415799_j31490700214962_3_alg».proof.Proof.Gen.Kernel.Launch
import proofs.«415799_j31490700214962_3_alg».proof.Proof.Gen.Kernel.Skeleton
import proofs.«415799_j31490700214962_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__node_proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [5000,128] buffer (every load of window 0 and every output store). -/
abbrev r0_0 : Rect S5000x128 := Rect.unit (s := S5000x128) ![0, 0] S5000x128.size inb_S5000x128_S5000x128_0_0
/-- The whole [128,384] buffer (the weight's load). -/
abbrev r0_1 : Rect S128x384 := Rect.unit (s := S128x384) ![0, 0] S128x384.size inb_S128x384_S128x384_0_0
/-- The whole [384] buffer (the bias's load). -/
abbrev r0_2 : Rect S384 := Rect.unit (s := S384) ![0] S384.size inb_S384_S384_0

/-! ## What the body leaves in each output window's buffer -/

/-- Window 3's staging buffer after the body, from the input windows' blocks: its one store as a piece
    (columns 0..128 of the product plus bias). -/
def out0_3 (x0 : Vec F S5000x128 .f32) (x1 : Vec F S128x384 .f32) (x2 : Vec F S384 .f32) : Vec F S5000x128 .f32 :=
  View.canon [⟨r0_0, k0_pay2 (View.ld x0 r0_0) (View.ld x1 r0_1) (View.ld x2 r0_2)⟩]
/-- Window 4's (columns 128..256). -/
def out0_4 (x0 : Vec F S5000x128 .f32) (x1 : Vec F S128x384 .f32) (x2 : Vec F S384 .f32) : Vec F S5000x128 .f32 :=
  View.canon [⟨r0_0, k0_pay3 (View.ld x0 r0_0) (View.ld x1 r0_1) (View.ld x2 r0_2)⟩]
/-- Window 5's (columns 256..384). -/
def out0_5 (x0 : Vec F S5000x128 .f32) (x1 : Vec F S128x384 .f32) (x2 : Vec F S384 .f32) : Vec F S5000x128 .f32 :=
  View.canon [⟨r0_0, k0_pay4 (View.ld x0 r0_0) (View.ld x1 r0_1) (View.ld x2 r0_2)⟩]

/-- The one whole-buffer store tiles the [5000,128] buffer (checked by evaluation), so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y
theorem cover0_4 (p0 : Vec F S5000x128 .f32) (y : S5000x128.Idx) :
    ∃ pc ∈ ([⟨r0_0, p0⟩] : List (View.Piece (Elt F) S5000x128 .f32)), y ∈ pc.1.set := cover0_3 p0 y
theorem cover0_5 (p0 : Vec F S5000x128 .f32) (y : S5000x128.Idx) :
    ∃ pc ∈ ([⟨r0_0, p0⟩] : List (View.Piece (Elt F) S5000x128 .f32)), y ∈ pc.1.set := cover0_3 p0 y

/-! ## The body's triple -/

set_option maxHeartbeats 1000000 in
/-- The kernel body on whole staging memrefs, the inputs' at read contents `x0 x1 x2` and the outputs' at anything,
    runs to the continuation holding the inputs' as they were and each output's at `out0_w` of the inputs'. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S384 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_w` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.K.Reg1.lean ====
/- The frame half of region 1 of @main: the edge kernel `cc1__edge_kernel` (pipeline 1, fifteen windows), at a
   PARAMETER `V` — the TensorCore's buffer contents when the region is entered —, generic in the float type.
   Thirteen input windows: the edge features `e`, the gathered source and destination gate projections and the
   gathered source and destination message projections (five blocks of 5000 rows by 128 lanes, one per grid
   point), then the gate weight and bias, the two edge-MLP weights and biases, and the layer-norm scale and shift
   (whole arrays, fetched at the first point only). Two output windows: the new edge features (window 13) and the
   gated message (window 14), one block of 5000 rows per point.
   Here: each window's block at a point read off `V` (`iblk1`); what the body leaves in each output buffer as a
   function of the input blocks (`out1_13`, `out1_14`: the one whole-block store of each, over the skeleton's
   payloads); the body's triple on whole staging memrefs (`sound_kernel1`); the pipeline's proof data (`dat1`) and
   its projections; and the body obligation at every point (`body_obligation1`). -/
import proofs.«415799_j31490700214962_3_alg».proof.Proof.Gen.Kernel.Launch
import proofs.«415799_j31490700214962_3_alg».proof.Proof.Gen.Kernel.Skeleton
import proofs.«415799_j31490700214962_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for ANY proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for ANY proof
    data whose array is `V`'s (`hA`) and whose body leaves the block in place (`hafter`): unfetched, the block index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for ANY proof
    data whose array is `V`'s (`hA`) and whose body leaves the block in place (`hafter`): unfetched, the block index
    has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for ANY proof
    data whose array is `V`'s (`hA`) and whose body leaves the block in place (`hafter`): unfetched, the block index
    has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for ANY proof
    data whose array is `V`'s (`hA`) and whose body leaves the block in place (`hafter`): unfetched, the block index
    has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for ANY proof
    data whose array is `V`'s (`hA`) and whose body leaves the block in place (`hafter`): unfetched, the block index
    has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not, for ANY proof
    data whose array is `V`'s (`hA`) and whose body leaves the block in place (`hafter`): unfetched, the block index
    has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_edge : Rect S5000x128 := Rect.unit (s := S5000x128) ![0, 0] S5000x128.size inb_S5000x128_S5000x128_0_0
abbrev r1_sq : Rect S128x128 := Rect.unit (s := S128x128) ![0, 0] S128x128.size inb_S128x128_S128x128_0_0
abbrev r1_vec : Rect S128 := Rect.unit (s := S128) ![0] S128.size inb_S128_S128_0
abbrev r1_tall : Rect S384x128 := Rect.unit (s := S384x128) ![0, 0] S384x128.size inb_S384x128_S384x128_0_0

/-! ## What the body leaves in each output window's buffer -/

/-- Window 14's staging buffer (the gated message) after the body, from the blocks of the edge features, the two
    gathered gate projections, the gathered source message projection, and the gate weight and bias: its one store
    as a piece over the skeleton's payload. -/
def out1_14 (x0 : Vec F S5000x128 .f32) (x1 : Vec F S5000x128 .f32) (x2 : Vec F S5000x128 .f32) (x3 : Vec F S5000x128 .f32)
    (x5 : Vec F S128x128 .f32) (x6 : Vec F S128 .f32) : Vec F S5000x128 .f32 :=
  View.canon [⟨r1_edge, k1_pay3 (View.ld x0 r1_edge) (View.ld x1 r1_edge) (View.ld x2 r1_edge) (View.ld x3 r1_edge) (View.ld x5 r1_sq) (View.ld x6 r1_vec)⟩]

/-- Window 13's staging buffer (the new edge features) after the body, from the blocks of the edge features, the
    two gathered message projections, the edge-MLP weights and biases, and the layer-norm scale and shift: its one
    store as a piece over the skeleton's payloads. -/
def out1_13 (x0 : Vec F S5000x128 .f32) (x3 : Vec F S5000x128 .f32) (x4 : Vec F S5000x128 .f32) (x7 : Vec F S384x128 .f32)
    (x8 : Vec F S128 .f32) (x9 : Vec F S128x128 .f32) (x10 : Vec F S128 .f32) (x11 : Vec F S128 .f32) (x12 : Vec F S128 .f32) :
    Vec F S5000x128 .f32 :=
  View.canon [⟨r1_edge, k1_pay1 (View.ld x0 r1_edge)
    (k1_pay4 (View.ld x0 r1_edge) (View.ld x3 r1_edge) (View.ld x4 r1_edge) (View.ld x7 r1_tall) (View.ld x8 r1_vec) (View.ld x9 r1_sq))
    (k1_pay5 (View.ld x10 r1_vec)) (View.ld x11 r1_vec) (View.ld x12 r1_vec)⟩]

/-- A whole-block store tiles the 5000-by-128 buffer (checked by evaluation), so it covers it: every output
    window's one store. -/
theorem cover1_edge (p0 : Vec F S5000x128 .f32) (y : S5000x128.Idx) :
    ∃ pc ∈ ([⟨r1_edge, p0⟩] : List (View.Piece (Elt F) S5000x128 .f32)), y ∈ pc.1.set :=
  View.cover_of_tiled [⟨r1_edge, p0⟩] S5000x128.size (by rfl) y
theorem cover1_13 (p0 : Vec F S5000x128 .f32) (y : S5000x128.Idx) :
    ∃ pc ∈ ([⟨r1_edge, p0⟩] : List (View.Piece (Elt F) S5000x128 .f32)), y ∈ pc.1.set := cover1_edge p0 y
theorem cover1_14 (p0 : Vec F S5000x128 .f32) (y : S5000x128.Idx) :
    ∃ pc ∈ ([⟨r1_edge, p0⟩] : List (View.Piece (Elt F) S5000x128 .f32)), y ∈ pc.1.set := cover1_edge p0 y

/-! ## The body's triple -/

set_option maxHeartbeats 4000000 in
/-- The kernel body on whole staging memrefs, the inputs' at read contents `xW` and the outputs' at anything, runs to
    the continuation holding the inputs' as they were and each output's at `out1_W` of the inputs': the printed
    function and its one part are their skeletons, run a memory operation at a time. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S384x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S5000x128 .f32) (harg14 : arg14.IsWhole) (arg15 : Memref sig .tc .vmem S5000x128 .f32) (harg15 : arg15.IsWhole)
    (x0 : Vec F S5000x128 .f32) (x1 : Vec F S5000x128 .f32) (x2 : Vec F S5000x128 .f32) (x3 : Vec F S5000x128 .f32) (x4 : Vec F S5000x128 .f32) (x5 : Vec F S128x128 .f32) (x6 : Vec F S128 .f32) (x7 : Vec F S384x128 .f32) (x8 : Vec F S128 .f32) (x9 : Vec F S128x128 .f32) (x10 : Vec F S128 .f32) (x11 : Vec F S128 .f32) (x12 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare (out1_13 x0 x3 x4 x7 x8 x9 x10 x11 x12)
          ∗ owns (c : Thread nD τ) arg15 fullShare (out1_14 x0 x1 x2 x3 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover1_13 _)
  iexists _; isplitr
  swap; · iexact H14
  ipureintro
  exact View.read_writes_eq_canon _ _ _ (cover1_14 _)

/-! ## The pipeline's proof data -/

/-- The proof data of pipeline 1 on core `c`: the arrays as the region finds them (`V`); after the body at
    point `t` each input's buffer at its block and each output's at `out1_W` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 3 t) (iblk1 V c 4 t) (iblk1 V c 7 t) (iblk1 V c 8 t) (iblk1 V c 9 t) (iblk1 V c 10 t) (iblk1 V c 11 t) (iblk1 V c 12 t)
    | ⟨14, _⟩ => out1_14 (iblk1 V c 0 t) (iblk1 V c 1 t) (iblk1 V c 2 t) (iblk1 V c 3 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 3 t) (iblk1 V c 4 t) (iblk1 V c 7 t) (iblk1 V c 8 t) (iblk1 V c 9 t) (iblk1 V c 10 t) (iblk1 V c 11 t) (iblk1 V c 12 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.K.Reg2.lean ====
/- The frame half of region 2 of @main: custom_call 2, `cc2__node_update_kernel` (pipeline 2), at a parameter `V` —
   the TensorCore's buffer contents when the region is entered — and at any `F`. Each window's block at a point
   (`iblk2`), what the body leaves in the output window's buffer from the input windows' blocks (`out2_8`), the
   body's triple (`sound_kernel2`), the pipeline's proof data (`dat2`) and the body obligation at every point
   (`body_obligation2`). The windows: 0 (the node features' block, 5000x128), 1 (the aggregated messages' block,
   5000x128), 2 (first weight, 256x128), 3 (first bias, 128), 4 (second weight, 128x128), 5 (second bias, 128),
   6 (normalisation scale, 128), 7 (normalisation shift, 128) are inputs; 8 (the new node features' block,
   5000x128) is the output. Windows 2–7 have a constant index map: fetched at the first point only, they hold
   their block at every point all the same (`Dat.before_in_eq_fetched`). -/
import proofs.«415799_j31490700214962_3_alg».proof.Proof.Gen.Kernel.Launch
import proofs.«415799_j31490700214962_3_alg».proof.Proof.Gen.Kernel.Skeleton
import proofs.«415799_j31490700214962_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__node_update_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S256x128 := Rect.unit (s := S256x128) ![0, 0] S256x128.size inb_S256x128_S256x128_0_0
abbrev r2_2 : Rect S128 := Rect.unit (s := S128) ![0] S128.size inb_S128_S128_0
abbrev r2_3 : Rect S128x128 := Rect.unit (s := S128x128) ![0, 0] S128x128.size inb_S128x128_S128x128_0_0

/-! ## What the body leaves in the output window's buffer -/

/-- Window 8's staging buffer after the body, from the input windows' blocks: its one store as a piece, the payload
    the skeleton's (the layer-normalised residual update, scaled, then shifted). -/
def out2_8 (x0 : Vec F S5000x128 .f32) (x1 : Vec F S5000x128 .f32) (x2 : Vec F S256x128 .f32) (x3 : Vec F S128 .f32)
    (x4 : Vec F S128x128 .f32) (x5 : Vec F S128 .f32) (x6 : Vec F S128 .f32) (x7 : Vec F S128 .f32) : Vec F S5000x128 .f32 :=
  View.canon [⟨r2_0, k2_pay1 (k2_pay2 (View.ld x0 r2_0) (View.ld x1 r2_0) (View.ld x2 r2_1) (View.ld x3 r2_2) (View.ld x4 r2_3)
    (View.ld x5 r2_2) (View.ld x6 r2_2)) (View.ld x7 r2_2)⟩]

/-- Its store tiles the buffer, so it covers it. -/
theorem cover2_8 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The kernel body on whole staging memrefs, the inputs' at read contents `xW` and the output's at anything, runs to
    the continuation holding the inputs' as they were and the output's at `out2_8` of the inputs'. -/
theorem sound_kernel2 (c : Dev nD) (E : Set ℕ) (i : grid2.Coords)
    (arg0 : Memref sig .tc .vmem S5000x128 .f32) (harg0 : arg0.IsWhole)
    (arg1 : Memref sig .tc .vmem S5000x128 .f32) (harg1 : arg1.IsWhole)
    (arg2 : Memref sig .tc .vmem S256x128 .f32) (harg2 : arg2.IsWhole)
    (arg3 : Memref sig .tc .vmem S128 .f32) (harg3 : arg3.IsWhole)
    (arg4 : Memref sig .tc .vmem S128x128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S128 .f32) (harg7 : arg7.IsWhole)
    (arg8 : Memref sig .tc .vmem S5000x128 .f32) (harg8 : arg8.IsWhole)
    (x0 : Vec F S5000x128 .f32) (x1 : Vec F S5000x128 .f32) (x2 : Vec F S256x128 .f32) (x3 : Vec F S128 .f32) (x4 : Vec F S128x128 .f32) (x5 : Vec F S128 .f32) (x6 : Vec F S128 .f32) (x7 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out2_8 x0 x1 x2 x3 x4 x5 x6 x7)) -∗ K ⟨⟩))
      ⊢ wp frame (wpE (defs₀ (F := F)) Variants.none c none) E
          (cc2__node_update_kernel i arg0 harg0 arg1 harg1 arg2 harg2 arg3 harg3 arg4 harg4 arg5 harg5 arg6 harg6 arg7 harg7 arg8 harg8) K := by
  simp only [cc2__node_update_kernel_eq_skeleton]; unfold cc2__node_update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point `t`
    each input's buffer at its block and the output's at `out2_8` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/- THE RUN of @main of the word-level kernel program, from the launch to the return, at any float type.
   @main is nine segments in order: a stretch of host operations (two concatenations), REGION 0 (the node
   projection), four stretches of host operations (one gather each), REGION 1 (the edge kernel), a stretch of host
   operations (zeros, an index broadcast, a scatter-add), REGION 2 (the node update). The buffer contents at each
   segment boundary are a fold from the launch memory: a stretch's `StableHlo.after`; a region's arrays at what its
   write-backs leave (`Dat.arrAt … N`) and every other buffer as the region found it (`Pipeline.withArrays`).
   Each region is a `Pipeline.RegionSeg` over the thread state "every unscoped buffer at the boundary's contents, the
   generator register at some state, nothing owed"; each stretch a `Pipeline.HostSeg.ofOps`. The run theorem
   `run_all`: every weakly fair execution of @main from memory `m` with zero counters terminates and the final memory
   holds, at every unscoped buffer of every core, the last boundary's contents `W9`. Read back through the fold:
   every argument array holds its launch contents (`W9_arg`), the first result what region 2's write-backs leave
   in its output window (`W9_out0`), the second what region 1's leave in its first output window (`W9_out1`). -/
import proofs.«415799_j31490700214962_3_alg».proof.Proof.Gen.Kernel.Regions
import proofs.«415799_j31490700214962_3_alg».proof.Proof.K.Reg0
import proofs.«415799_j31490700214962_3_alg».proof.Proof.K.Reg1
import proofs.«415799_j31490700214962_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Tactic

-- decided memberships among the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev Ve1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev Ve2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- A buffer that is no output window's array of region 0 leaves the region as it entered: no window's array
    (`W2_of_ne`), or an input window's, which no write-back touches (`Dat.arrAt_in`). -/
theorem W2_keep (c : Dev nD) (b : Ref sig .tc) (hb : ∀ w : Fin 6, Pipeline.arrRef spec0 w = b → (cfg0.win w).isOut = false) :
    W2 m ρ c (Proc.devRef .tc b) = W1 m ρ c (Proc.devRef .tc b) := by
  by_cases h : ∃ w : Fin 6, Pipeline.arrRef spec0 w = b
  · obtain ⟨w, rfl⟩ := h
    exact (W2_arr m ρ c w).trans (((dat0 (Ve1 m ρ) c).arrAt_in w (hb w rfl) _).trans (A_eq0 (Ve1 m ρ) c w))
  · exact W2_of_ne m ρ c b fun w e => h ⟨w, e⟩
/-- After `hostOps1`. -/
abbrev W3 : Dev nD → Valuation τ sig (Elt F) := fun c => StableHlo.after hostOps1 (W2 m ρ c)
/-- The same read at the TensorCore's references. -/
abbrev Ve3 : (c : Dev nD) → (b : Ref sig .tc) → Buf (Elt F) ((c : Thread nD τ).loc b) := fun c b => W3 m ρ c b
/-- After `hostOps1_1`. -/
abbrev W4 : Dev nD → Valuation τ sig (Elt F) := fun c => StableHlo.after hostOps1_1 (W3 m ρ c)
/-- The same read at the TensorCore's references. -/
abbrev Ve4 : (c : Dev nD) → (b : Ref sig .tc) → Buf (Elt F) ((c : Thread nD τ).loc b) := fun c b => W4 m ρ c b
/-- After `hostOps1_2`. -/
abbrev W5 : Dev nD → Valuation τ sig (Elt F) := fun c => StableHlo.after hostOps1_2 (W4 m ρ c)
/-- The same read at the TensorCore's references. -/
abbrev Ve5 : (c : Dev nD) → (b : Ref sig .tc) → Buf (Elt F) ((c : Thread nD τ).loc b) := fun c b => W5 m ρ c b
/-- After `hostOps1_3`. -/
abbrev W6 : Dev nD → Valuation τ sig (Elt F) := fun c => StableHlo.after hostOps1_3 (W5 m ρ c)
/-- The same read at the TensorCore's references. -/
abbrev Ve6 : (c : Dev nD) → (b : Ref sig .tc) → Buf (Elt F) ((c : Thread nD τ).loc b) := fun c b => W6 m ρ c b
/-- At region 1's exit: its arrays at what the pipeline leaves (the inputs as entered, each output's write-backs
    folded: `Dat.arrAt … N`), every other buffer as entered. -/
def W7 (c : Dev nD) : Valuation τ sig (Elt F) :=
  Pipeline.withArrays spec1 c (W6 m ρ c) fun w => (dat1 (Ve6 m ρ) c).arrAt w cfg1.N
theorem W7_arr (c : Dev nD) (w : Fin cfg1.W) :
    W7 m ρ c (Proc.devRef .tc (Pipeline.arrRef spec1 w)) = (dat1 (Ve6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev Ve7 : (c : Dev nD) → (b : Ref sig .tc) → Buf (Elt F) ((c : Thread nD τ).loc b) := fun c b => W7 m ρ c b
/-- At region 1's exit each of its arrays holds what the pipeline leaves (`hF1`) and every other buffer what it
    held at entry (`hrest1`). -/
theorem hF1 (c : Dev nD) (w : Fin cfg1.W) : (dat1 (Ve6 m ρ) c).arrAt w cfg1.N = Ve7 m ρ c (Pipeline.arrRef spec1 w) :=
  (W7_arr m ρ c w).symm
theorem hrest1 (c : Dev nD) : ∀ b, b ∉ Finset.univ.image (Pipeline.arrRef spec1) → Ve7 m ρ c b = Ve6 m ρ c b :=
  fun b hb => W7_of_ne m ρ c b fun w e => hb (Finset.mem_image.mpr ⟨w, Finset.mem_univ _, e⟩)
/-- A buffer that is no output window's array of region 1 leaves the region as it entered: no window's array
    (`W7_of_ne`), or an input window's, which no write-back touches (`Dat.arrAt_in`). -/
theorem W7_keep (c : Dev nD) (b : Ref sig .tc) (hb : ∀ w : Fin 15, Pipeline.arrRef spec1 w = b → (cfg1.win w).isOut = false) :
    W7 m ρ c (Proc.devRef .tc b) = W6 m ρ c (Proc.devRef .tc b) := by
  by_cases h : ∃ w : Fin 15, Pipeline.arrRef spec1 w = b
  · obtain ⟨w, rfl⟩ := h
    exact (W7_arr m ρ c w).trans (((dat1 (Ve6 m ρ) c).arrAt_in w (hb w rfl) _).trans (A_eq1 (Ve6 m ρ) c w))
  · exact W7_of_ne m ρ c b fun w e => h ⟨w, e⟩
/-- After `hostOps2`. -/
abbrev W8 : Dev nD → Valuation τ sig (Elt F) := fun c => StableHlo.after hostOps2 (W7 m ρ c)
/-- The same read at the TensorCore's references. -/
abbrev Ve8 : (c : Dev nD) → (b : Ref sig .tc) → Buf (Elt F) ((c : Thread nD τ).loc b) := fun c b => W8 m ρ c b
/-- At region 2's exit: its arrays at what the pipeline leaves (the inputs as entered, each output's write-backs
    folded: `Dat.arrAt … N`), every other buffer as entered. -/
def W9 (c : Dev nD) : Valuation τ sig (Elt F) :=
  Pipeline.withArrays spec2 c (W8 m ρ c) fun w => (dat2 (Ve8 m ρ) c).arrAt w cfg2.N
theorem W9_arr (c : Dev nD) (w : Fin cfg2.W) :
    W9 m ρ c (Proc.devRef .tc (Pipeline.arrRef spec2 w)) = (dat2 (Ve8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references (region 2's exit contents). -/
abbrev Ve9 : (c : Dev nD) → (b : Ref sig .tc) → Buf (Elt F) ((c : Thread nD τ).loc b) := fun c b => W9 m ρ c b
/-- At region 2's exit each of its arrays holds what the pipeline leaves (`hF2`) and every other buffer what it
    held at entry (`hrest2`). -/
theorem hF2 (c : Dev nD) (w : Fin cfg2.W) : (dat2 (Ve8 m ρ) c).arrAt w cfg2.N = Ve9 m ρ c (Pipeline.arrRef spec2 w) :=
  (W9_arr m ρ c w).symm
theorem hrest2 (c : Dev nD) : ∀ b, b ∉ Finset.univ.image (Pipeline.arrRef spec2) → Ve9 m ρ c b = Ve8 m ρ c b :=
  fun b hb => W9_of_ne m ρ c b fun w e => hb (Finset.mem_image.mpr ⟨w, Finset.mem_univ _, e⟩)
/-- A buffer that is no output window's array of region 2 leaves the region as it entered: no window's array
    (`W9_of_ne`), or an input window's, which no write-back touches (`Dat.arrAt_in`). -/
theorem W9_keep (c : Dev nD) (b : Ref sig .tc) (hb : ∀ w : Fin 9, Pipeline.arrRef spec2 w = b → (cfg2.win w).isOut = false) :
    W9 m ρ c (Proc.devRef .tc b) = W8 m ρ c (Proc.devRef .tc b) := by
  by_cases h : ∃ w : Fin 9, Pipeline.arrRef spec2 w = b
  · obtain ⟨w, rfl⟩ := h
    exact (W9_arr m ρ c w).trans (((dat2 (Ve8 m ρ) c).arrAt_in w (hb w rfl) _).trans (A_eq2 (Ve8 m ρ) c w))
  · exact W9_of_ne m ρ c b fun w e => h ⟨w, e⟩

/-! ## Reading the fold back

No host operation and no region's write-back touches an argument (a region reads it through an input window or
bypasses it), so the fold at an argument's buffer walks back to the launch memory. -/

/-- A buffer no stretch writes and no region's output window covers ends as launched. -/
theorem W9_launch (c : Dev nD) (b : Ref sig .tc)
    (h0 : b ∉ hostOps0_W) (h1 : b ∉ hostOps1_W) (h1_1 : b ∉ hostOps1_1_W) (h1_2 : b ∉ hostOps1_2_W)
    (h1_3 : b ∉ hostOps1_3_W) (h2 : b ∉ hostOps2_W)
    (k0 : ∀ w : Fin 6, Pipeline.arrRef spec0 w = b → (cfg0.win w).isOut = false)
    (k1 : ∀ w : Fin 15, Pipeline.arrRef spec1 w = b → (cfg1.win w).isOut = false)
    (k2 : ∀ w : Fin 9, Pipeline.arrRef spec2 w = b → (cfg2.win w).isOut = false) :
    W9 m ρ c (Proc.devRef .tc b) = m ((c : Thread nD τ).loc b) :=
  calc W9 m ρ c (Proc.devRef .tc b)
    _ = W8 m ρ c (Proc.devRef .tc b) := W9_keep m ρ c b k2
    _ = W7 m ρ c (Proc.devRef .tc b) := StableHlo.after_of_writes_sub hostOps2 _ hostOps2_writes h2
    _ = W6 m ρ c (Proc.devRef .tc b) := W7_keep m ρ c b k1
    _ = W5 m ρ c (Proc.devRef .tc b) := StableHlo.after_of_writes_sub hostOps1_3 _ hostOps1_3_writes h1_3
    _ = W4 m ρ c (Proc.devRef .tc b) := StableHlo.after_of_writes_sub hostOps1_2 _ hostOps1_2_writes h1_2
    _ = W3 m ρ c (Proc.devRef .tc b) := StableHlo.after_of_writes_sub hostOps1_1 _ hostOps1_1_writes h1_1
    _ = W2 m ρ c (Proc.devRef .tc b) := StableHlo.after_of_writes_sub hostOps1 _ hostOps1_writes h1
    _ = W1 m ρ c (Proc.devRef .tc b) := W2_keep m ρ c b k0
    _ = W0 m ρ c (Proc.devRef .tc b) := StableHlo.after_of_writes_sub hostOps0 _ hostOps0_writes h0
    _ = m ((c : Thread nD τ).loc b) := rfl

/-- Every argument array ends holding its launch contents. -/
theorem W9_arg (c : Dev nD) (a : Ref sig .tc)
    (ha : a ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23] : List (Ref sig .tc))) :
    W9 m ρ c (Proc.devRef .tc a) = m ((c : Thread nD τ).loc a) := by
  simp only [List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals exact W9_launch m ρ c _ (by decide) (by decide) (by decide) (by decide) (by decide) (by decide) (by decide) (by decide) (by decide)

/-- The first result, `main_v11`, ends at what region 2's write-backs leave in its output window. -/
theorem W9_out0 (c : Dev nD) : W9 m ρ c (Proc.devRef .tc main_v11) = (dat2 (Ve8 m ρ) c).arrAt 8 cfg2.N :=
  W9_arr m ρ c 8

/-- The second result, `main_v7_0`, ends at what region 1's write-backs leave in its first output window: the last
    stretch does not write it and region 2 has no window on it. -/
theorem W9_out1 (c : Dev nD) : W9 m ρ c (Proc.devRef .tc main_v7_0) = (dat1 (Ve6 m ρ) c).arrAt 13 cfg1.N :=
  calc W9 m ρ c (Proc.devRef .tc main_v7_0)
    _ = W8 m ρ c (Proc.devRef .tc main_v7_0) := W9_of_ne m ρ c main_v7_0 (by decide)
    _ = W7 m ρ c (Proc.devRef .tc main_v7_0) := StableHlo.after_of_writes_sub hostOps2 _ hostOps2_writes (by decide)
    _ = (dat1 (Ve6 m ρ) c).arrAt 13 cfg1.N := W7_arr m ρ c 13

/-! # The proof data family and the thread state -/

/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve6 m ρ) c
  | ⟨2, _⟩ => fun c => dat2 (Ve8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the regions'
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! # The regions as segments -/

-- a library lemma stated over `pin pcs a p` unifies with the pinned configuration only when unification may unfold
-- plain definitions in a metavariable's type
set_option backward.isDefEq.respectTransparency.types false in
/-- REGION 0 (the node projection) over the thread state: entered from every unscoped buffer at `W1`, left at `W2`. Its
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) (A_eq0 (Ve1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the edge kernel) over the thread state: entered from every unscoped buffer at `W6`, left at `W7`. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve6 m ρ c) (A_eq1 (Ve6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve6 m ρ c) (Ve7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (the node update) over the thread state: entered from every unscoped buffer at `W8`, left at `W9`. Its
    arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve8 m ρ c) (A_eq2 (Ve8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve8 m ρ c) (Ve9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 9 segments in order: a host segment per stretch from its boundary's contents, a region per kernel call. -/
abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ) ]
/-- @main IS the run of the segments: @main is the chain of its items (`main_chain`), and the segments' run is the
    chain of their fragments (`Seg.run_eq_chain`), which are those items. -/
theorem main_run (c : Dev nD) : main (F := F) c = Pipeline.Seg.run (hsegs m ρ) := by
  rw [main_chain c, Pipeline.Seg.run_eq_chain,
    show (hsegs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      Prog.lift (.customCall (Pipeline.entry 1) ()),
      StableHlo.seq hostOps2,
      Prog.lift (.customCall (Pipeline.entry 2) ()) ] from rfl]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

end Cert.Kernel.Hand

end
-- ==== Proof.KI.Reg0.lean ====
/- The frame half of REGION 0 of @main (custom_call 0, the node projection kernel `cc0__node_proj_kernel`,
   pipeline 0, six windows), at a PARAMETER `V` — the TensorCore's buffer contents when the region is entered —,
   at any `F`. Windows 0, 1, 2 are inputs (a [5000,128] block of the node features; the whole [128,384] weight; the
   whole [384] bias), windows 3, 4, 5 outputs (three [5000,128] blocks). The body loads the three inputs whole,
   forms one [5000,384] product plus bias and stores its three column thirds, each store covering its buffer.
   Stated here: each window's block at a point (`iblk0`), what the body leaves in each output buffer as a closed
   function of the input blocks (`out0_3`, `out0_4`, `out0_5`), the body's triple (`sound_kernel0`), the
   pipeline's proof data (`dat0`) and the body obligation at every point (`body_obligation0`). -/
import proofs.«415799_j31490700214962_3_alg».proof.Proof.Gen.KernelIdeal.Launch
import proofs.«415799_j31490700214962_3_alg».proof.Proof.Gen.KernelIdeal.Skeleton
import proofs.«415799_j31490700214962_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__node_proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [5000,128] buffer (every load of window 0 and every output store). -/
abbrev r0_0 : Rect S5000x128 := Rect.unit (s := S5000x128) ![0, 0] S5000x128.size inb_S5000x128_S5000x128_0_0
/-- The whole [128,384] buffer (the weight's load). -/
abbrev r0_1 : Rect S128x384 := Rect.unit (s := S128x384) ![0, 0] S128x384.size inb_S128x384_S128x384_0_0
/-- The whole [384] buffer (the bias's load). -/
abbrev r0_2 : Rect S384 := Rect.unit (s := S384) ![0] S384.size inb_S384_S384_0

/-! ## What the body leaves in each output window's buffer -/

/-- Window 3's staging buffer after the body, from the input windows' blocks: its one store as a piece
    (columns 0..128 of the product plus bias). -/
def out0_3 (x0 : Vec F S5000x128 .f32) (x1 : Vec F S128x384 .f32) (x2 : Vec F S384 .f32) : Vec F S5000x128 .f32 :=
  View.canon [⟨r0_0, k0_pay2 (View.ld x0 r0_0) (View.ld x1 r0_1) (View.ld x2 r0_2)⟩]
/-- Window 4's (columns 128..256). -/
def out0_4 (x0 : Vec F S5000x128 .f32) (x1 : Vec F S128x384 .f32) (x2 : Vec F S384 .f32) : Vec F S5000x128 .f32 :=
  View.canon [⟨r0_0, k0_pay3 (View.ld x0 r0_0) (View.ld x1 r0_1) (View.ld x2 r0_2)⟩]
/-- Window 5's (columns 256..384). -/
def out0_5 (x0 : Vec F S5000x128 .f32) (x1 : Vec F S128x384 .f32) (x2 : Vec F S384 .f32) : Vec F S5000x128 .f32 :=
  View.canon [⟨r0_0, k0_pay4 (View.ld x0 r0_0) (View.ld x1 r0_1) (View.ld x2 r0_2)⟩]

/-- The one whole-buffer store tiles the [5000,128] buffer (checked by evaluation), so it covers it. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y
theorem cover0_4 (p0 : Vec F S5000x128 .f32) (y : S5000x128.Idx) :
    ∃ pc ∈ ([⟨r0_0, p0⟩] : List (View.Piece (Elt F) S5000x128 .f32)), y ∈ pc.1.set := cover0_3 p0 y
theorem cover0_5 (p0 : Vec F S5000x128 .f32) (y : S5000x128.Idx) :
    ∃ pc ∈ ([⟨r0_0, p0⟩] : List (View.Piece (Elt F) S5000x128 .f32)), y ∈ pc.1.set := cover0_3 p0 y

/-! ## The body's triple -/

set_option maxHeartbeats 1000000 in
/-- The kernel body on whole staging memrefs, the inputs' at read contents `x0 x1 x2` and the outputs' at anything,
    runs to the continuation holding the inputs' as they were and each output's at `out0_w` of the inputs'. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S384 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_w` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_w`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.KI.Reg1.lean ====
/- The frame half of region 1 of @main: the edge kernel `cc1__edge_kernel` (pipeline 1, fifteen windows), at a
   PARAMETER `V` — the TensorCore's buffer contents when the region is entered —, generic in the float type.
   Thirteen input windows: the edge features `e`, the gathered source and destination gate projections and the
   gathered source and destination message projections (five blocks of 5000 rows by 128 lanes, one per grid
   point), then the gate weight and bias, the two edge-MLP weights and biases, and the layer-norm scale and shift
   (whole arrays, fetched at the first point only). Two output windows: the new edge features (window 13) and the
   gated message (window 14), one block of 5000 rows per point.
   Here: each window's block at a point read off `V` (`iblk1`); what the body leaves in each output buffer as a
   function of the input blocks (`out1_13`, `out1_14`: the one whole-block store of each, over the skeleton's
   payloads); the body's triple on whole staging memrefs (`sound_kernel1`); the pipeline's proof data (`dat1`) and
   its projections; and the body obligation at every point (`body_obligation1`). -/
import proofs.«415799_j31490700214962_3_alg».proof.Proof.Gen.KernelIdeal.Launch
import proofs.«415799_j31490700214962_3_alg».proof.Proof.Gen.KernelIdeal.Skeleton
import proofs.«415799_j31490700214962_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for ANY proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for ANY proof
    data whose array is `V`'s (`hA`) and whose body leaves the block in place (`hafter`): unfetched, the block index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for ANY proof
    data whose array is `V`'s (`hA`) and whose body leaves the block in place (`hafter`): unfetched, the block index
    has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for ANY proof
    data whose array is `V`'s (`hA`) and whose body leaves the block in place (`hafter`): unfetched, the block index
    has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for ANY proof
    data whose array is `V`'s (`hA`) and whose body leaves the block in place (`hafter`): unfetched, the block index
    has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for ANY proof
    data whose array is `V`'s (`hA`) and whose body leaves the block in place (`hafter`): unfetched, the block index
    has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current staging buffer holds its block at every point, fetched there or not, for ANY proof
    data whose array is `V`'s (`hA`) and whose body leaves the block in place (`hafter`): unfetched, the block index
    has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_edge : Rect S5000x128 := Rect.unit (s := S5000x128) ![0, 0] S5000x128.size inb_S5000x128_S5000x128_0_0
abbrev r1_sq : Rect S128x128 := Rect.unit (s := S128x128) ![0, 0] S128x128.size inb_S128x128_S128x128_0_0
abbrev r1_vec : Rect S128 := Rect.unit (s := S128) ![0] S128.size inb_S128_S128_0
abbrev r1_tall : Rect S384x128 := Rect.unit (s := S384x128) ![0, 0] S384x128.size inb_S384x128_S384x128_0_0

/-! ## What the body leaves in each output window's buffer -/

/-- Window 14's staging buffer (the gated message) after the body, from the blocks of the edge features, the two
    gathered gate projections, the gathered source message projection, and the gate weight and bias: its one store
    as a piece over the skeleton's payload. -/
def out1_14 (x0 : Vec F S5000x128 .f32) (x1 : Vec F S5000x128 .f32) (x2 : Vec F S5000x128 .f32) (x3 : Vec F S5000x128 .f32)
    (x5 : Vec F S128x128 .f32) (x6 : Vec F S128 .f32) : Vec F S5000x128 .f32 :=
  View.canon [⟨r1_edge, k1_pay3 (View.ld x0 r1_edge) (View.ld x1 r1_edge) (View.ld x2 r1_edge) (View.ld x3 r1_edge) (View.ld x5 r1_sq) (View.ld x6 r1_vec)⟩]

/-- Window 13's staging buffer (the new edge features) after the body, from the blocks of the edge features, the
    two gathered message projections, the edge-MLP weights and biases, and the layer-norm scale and shift: its one
    store as a piece over the skeleton's payloads. -/
def out1_13 (x0 : Vec F S5000x128 .f32) (x3 : Vec F S5000x128 .f32) (x4 : Vec F S5000x128 .f32) (x7 : Vec F S384x128 .f32)
    (x8 : Vec F S128 .f32) (x9 : Vec F S128x128 .f32) (x10 : Vec F S128 .f32) (x11 : Vec F S128 .f32) (x12 : Vec F S128 .f32) :
    Vec F S5000x128 .f32 :=
  View.canon [⟨r1_edge, k1_pay1 (View.ld x0 r1_edge)
    (k1_pay4 (View.ld x0 r1_edge) (View.ld x3 r1_edge) (View.ld x4 r1_edge) (View.ld x7 r1_tall) (View.ld x8 r1_vec) (View.ld x9 r1_sq))
    (k1_pay5 (View.ld x10 r1_vec)) (View.ld x11 r1_vec) (View.ld x12 r1_vec)⟩]

/-- A whole-block store tiles the 5000-by-128 buffer (checked by evaluation), so it covers it: every output
    window's one store. -/
theorem cover1_edge (p0 : Vec F S5000x128 .f32) (y : S5000x128.Idx) :
    ∃ pc ∈ ([⟨r1_edge, p0⟩] : List (View.Piece (Elt F) S5000x128 .f32)), y ∈ pc.1.set :=
  View.cover_of_tiled [⟨r1_edge, p0⟩] S5000x128.size (by rfl) y
theorem cover1_13 (p0 : Vec F S5000x128 .f32) (y : S5000x128.Idx) :
    ∃ pc ∈ ([⟨r1_edge, p0⟩] : List (View.Piece (Elt F) S5000x128 .f32)), y ∈ pc.1.set := cover1_edge p0 y
theorem cover1_14 (p0 : Vec F S5000x128 .f32) (y : S5000x128.Idx) :
    ∃ pc ∈ ([⟨r1_edge, p0⟩] : List (View.Piece (Elt F) S5000x128 .f32)), y ∈ pc.1.set := cover1_edge p0 y

/-! ## The body's triple -/

set_option maxHeartbeats 4000000 in
/-- The kernel body on whole staging memrefs, the inputs' at read contents `xW` and the outputs' at anything, runs to
    the continuation holding the inputs' as they were and each output's at `out1_W` of the inputs': the printed
    function and its one part are their skeletons, run a memory operation at a time. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S384x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S5000x128 .f32) (harg14 : arg14.IsWhole) (arg15 : Memref sig .tc .vmem S5000x128 .f32) (harg15 : arg15.IsWhole)
    (x0 : Vec F S5000x128 .f32) (x1 : Vec F S5000x128 .f32) (x2 : Vec F S5000x128 .f32) (x3 : Vec F S5000x128 .f32) (x4 : Vec F S5000x128 .f32) (x5 : Vec F S128x128 .f32) (x6 : Vec F S128 .f32) (x7 : Vec F S384x128 .f32) (x8 : Vec F S128 .f32) (x9 : Vec F S128x128 .f32) (x10 : Vec F S128 .f32) (x11 : Vec F S128 .f32) (x12 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare (out1_13 x0 x3 x4 x7 x8 x9 x10 x11 x12)
          ∗ owns (c : Thread nD τ) arg15 fullShare (out1_14 x0 x1 x2 x3 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover1_13 _)
  iexists _; isplitr
  swap; · iexact H14
  ipureintro
  exact View.read_writes_eq_canon _ _ _ (cover1_14 _)

/-! ## The pipeline's proof data -/

/-- The proof data of pipeline 1 on core `c`: the arrays as the region finds them (`V`); after the body at
    point `t` each input's buffer at its block and each output's at `out1_W` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 3 t) (iblk1 V c 4 t) (iblk1 V c 7 t) (iblk1 V c 8 t) (iblk1 V c 9 t) (iblk1 V c 10 t) (iblk1 V c 11 t) (iblk1 V c 12 t)
    | ⟨14, _⟩ => out1_14 (iblk1 V c 0 t) (iblk1 V c 1 t) (iblk1 V c 2 t) (iblk1 V c 3 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 3 t) (iblk1 V c 4 t) (iblk1 V c 7 t) (iblk1 V c 8 t) (iblk1 V c 9 t) (iblk1 V c 10 t) (iblk1 V c 11 t) (iblk1 V c 12 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KI.Reg2.lean ====
/- The frame half of region 2 of @main: custom_call 2, `cc2__node_update_kernel` (pipeline 2), at a parameter `V` —
   the TensorCore's buffer contents when the region is entered — and at any `F`. Each window's block at a point
   (`iblk2`), what the body leaves in the output window's buffer from the input windows' blocks (`out2_8`), the
   body's triple (`sound_kernel2`), the pipeline's proof data (`dat2`) and the body obligation at every point
   (`body_obligation2`). The windows: 0 (the node features' block, 5000x128), 1 (the aggregated messages' block,
   5000x128), 2 (first weight, 256x128), 3 (first bias, 128), 4 (second weight, 128x128), 5 (second bias, 128),
   6 (normalisation scale, 128), 7 (normalisation shift, 128) are inputs; 8 (the new node features' block,
   5000x128) is the output. Windows 2–7 have a constant index map: fetched at the first point only, they hold
   their block at every point all the same (`Dat.before_in_eq_fetched`). -/
import proofs.«415799_j31490700214962_3_alg».proof.Proof.Gen.KernelIdeal.Launch
import proofs.«415799_j31490700214962_3_alg».proof.Proof.Gen.KernelIdeal.Skeleton
import proofs.«415799_j31490700214962_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__node_update_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S256x128 := Rect.unit (s := S256x128) ![0, 0] S256x128.size inb_S256x128_S256x128_0_0
abbrev r2_2 : Rect S128 := Rect.unit (s := S128) ![0] S128.size inb_S128_S128_0
abbrev r2_3 : Rect S128x128 := Rect.unit (s := S128x128) ![0, 0] S128x128.size inb_S128x128_S128x128_0_0

/-! ## What the body leaves in the output window's buffer -/

/-- Window 8's staging buffer after the body, from the input windows' blocks: its one store as a piece, the payload
    the skeleton's (the layer-normalised residual update, scaled, then shifted). -/
def out2_8 (x0 : Vec F S5000x128 .f32) (x1 : Vec F S5000x128 .f32) (x2 : Vec F S256x128 .f32) (x3 : Vec F S128 .f32)
    (x4 : Vec F S128x128 .f32) (x5 : Vec F S128 .f32) (x6 : Vec F S128 .f32) (x7 : Vec F S128 .f32) : Vec F S5000x128 .f32 :=
  View.canon [⟨r2_0, k2_pay1 (k2_pay2 (View.ld x0 r2_0) (View.ld x1 r2_0) (View.ld x2 r2_1) (View.ld x3 r2_2) (View.ld x4 r2_3)
    (View.ld x5 r2_2) (View.ld x6 r2_2)) (View.ld x7 r2_2)⟩]

/-- Its store tiles the buffer, so it covers it. -/
theorem cover2_8 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The kernel body on whole staging memrefs, the inputs' at read contents `xW` and the output's at anything, runs to
    the continuation holding the inputs' as they were and the output's at `out2_8` of the inputs'. -/
theorem sound_kernel2 (c : Dev nD) (E : Set ℕ) (i : grid2.Coords)
    (arg0 : Memref sig .tc .vmem S5000x128 .f32) (harg0 : arg0.IsWhole)
    (arg1 : Memref sig .tc .vmem S5000x128 .f32) (harg1 : arg1.IsWhole)
    (arg2 : Memref sig .tc .vmem S256x128 .f32) (harg2 : arg2.IsWhole)
    (arg3 : Memref sig .tc .vmem S128 .f32) (harg3 : arg3.IsWhole)
    (arg4 : Memref sig .tc .vmem S128x128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S128 .f32) (harg7 : arg7.IsWhole)
    (arg8 : Memref sig .tc .vmem S5000x128 .f32) (harg8 : arg8.IsWhole)
    (x0 : Vec F S5000x128 .f32) (x1 : Vec F S5000x128 .f32) (x2 : Vec F S256x128 .f32) (x3 : Vec F S128 .f32) (x4 : Vec F S128x128 .f32) (x5 : Vec F S128 .f32) (x6 : Vec F S128 .f32) (x7 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out2_8 x0 x1 x2 x3 x4 x5 x6 x7)) -∗ K ⟨⟩))
      ⊢ wp frame (wpE (defs₀ (F := F)) Variants.none c none) E
          (cc2__node_update_kernel i arg0 harg0 arg1 harg1 arg2 harg2 arg3 harg3 arg4 harg4 arg5 harg5 arg6 harg6 arg7 harg7 arg8 harg8) K := by
  simp only [cc2__node_update_kernel_eq_skeleton]; unfold cc2__node_update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point `t`
    each input's buffer at its block and the output's at `out2_8` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- THE RUN of @main of the idealized kernel program, from the launch to the return, at any float type.
   @main is nine segments in order: a stretch of host operations (two concatenations), REGION 0 (the node
   projection), four stretches of host operations (one gather each), REGION 1 (the edge kernel), a stretch of host
   operations (zeros, an index broadcast, a scatter-add), REGION 2 (the node update). The buffer contents at each
   segment boundary are a fold from the launch memory: a stretch's `StableHlo.after`; a region's arrays at what its
   write-backs leave (`Dat.arrAt … N`) and every other buffer as the region found it (`Pipeline.withArrays`).
   Each region is a `Pipeline.RegionSeg` over the thread state "every unscoped buffer at the boundary's contents, the
   generator register at some state, nothing owed"; each stretch a `Pipeline.HostSeg.ofOps`. The run theorem
   `run_all`: every weakly fair execution of @main from memory `m` with zero counters terminates and the final memory
   holds, at every unscoped buffer of every core, the last boundary's contents `W9`. Read back through the fold:
   every argument array holds its launch contents (`W9_arg`), the first result what region 2's write-backs leave
   in its output window (`W9_out0`), the second what region 1's leave in its first output window (`W9_out1`). -/
import proofs.«415799_j31490700214962_3_alg».proof.Proof.Gen.KernelIdeal.Regions
import proofs.«415799_j31490700214962_3_alg».proof.Proof.KI.Reg0
import proofs.«415799_j31490700214962_3_alg».proof.Proof.KI.Reg1
import proofs.«415799_j31490700214962_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Tactic

-- decided memberships among the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev Ve1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev Ve2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- A buffer that is no output window's array of region 0 leaves the region as it entered: no window's array
    (`W2_of_ne`), or an input window's, which no write-back touches (`Dat.arrAt_in`). -/
theorem W2_keep (c : Dev nD) (b : Ref sig .tc) (hb : ∀ w : Fin 6, Pipeline.arrRef spec0 w = b → (cfg0.win w).isOut = false) :
    W2 m ρ c (Proc.devRef .tc b) = W1 m ρ c (Proc.devRef .tc b) := by
  by_cases h : ∃ w : Fin 6, Pipeline.arrRef spec0 w = b
  · obtain ⟨w, rfl⟩ := h
    exact (W2_arr m ρ c w).trans (((dat0 (Ve1 m ρ) c).arrAt_in w (hb w rfl) _).trans (A_eq0 (Ve1 m ρ) c w))
  · exact W2_of_ne m ρ c b fun w e => h ⟨w, e⟩
/-- After `hostOps1`. -/
abbrev W3 : Dev nD → Valuation τ sig (Elt F) := fun c => StableHlo.after hostOps1 (W2 m ρ c)
/-- The same read at the TensorCore's references. -/
abbrev Ve3 : (c : Dev nD) → (b : Ref sig .tc) → Buf (Elt F) ((c : Thread nD τ).loc b) := fun c b => W3 m ρ c b
/-- After `hostOps1_1`. -/
abbrev W4 : Dev nD → Valuation τ sig (Elt F) := fun c => StableHlo.after hostOps1_1 (W3 m ρ c)
/-- The same read at the TensorCore's references. -/
abbrev Ve4 : (c : Dev nD) → (b : Ref sig .tc) → Buf (Elt F) ((c : Thread nD τ).loc b) := fun c b => W4 m ρ c b
/-- After `hostOps1_2`. -/
abbrev W5 : Dev nD → Valuation τ sig (Elt F) := fun c => StableHlo.after hostOps1_2 (W4 m ρ c)
/-- The same read at the TensorCore's references. -/
abbrev Ve5 : (c : Dev nD) → (b : Ref sig .tc) → Buf (Elt F) ((c : Thread nD τ).loc b) := fun c b => W5 m ρ c b
/-- After `hostOps1_3`. -/
abbrev W6 : Dev nD → Valuation τ sig (Elt F) := fun c => StableHlo.after hostOps1_3 (W5 m ρ c)
/-- The same read at the TensorCore's references. -/
abbrev Ve6 : (c : Dev nD) → (b : Ref sig .tc) → Buf (Elt F) ((c : Thread nD τ).loc b) := fun c b => W6 m ρ c b
/-- At region 1's exit: its arrays at what the pipeline leaves (the inputs as entered, each output's write-backs
    folded: `Dat.arrAt … N`), every other buffer as entered. -/
def W7 (c : Dev nD) : Valuation τ sig (Elt F) :=
  Pipeline.withArrays spec1 c (W6 m ρ c) fun w => (dat1 (Ve6 m ρ) c).arrAt w cfg1.N
theorem W7_arr (c : Dev nD) (w : Fin cfg1.W) :
    W7 m ρ c (Proc.devRef .tc (Pipeline.arrRef spec1 w)) = (dat1 (Ve6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev Ve7 : (c : Dev nD) → (b : Ref sig .tc) → Buf (Elt F) ((c : Thread nD τ).loc b) := fun c b => W7 m ρ c b
/-- At region 1's exit each of its arrays holds what the pipeline leaves (`hF1`) and every other buffer what it
    held at entry (`hrest1`). -/
theorem hF1 (c : Dev nD) (w : Fin cfg1.W) : (dat1 (Ve6 m ρ) c).arrAt w cfg1.N = Ve7 m ρ c (Pipeline.arrRef spec1 w) :=
  (W7_arr m ρ c w).symm
theorem hrest1 (c : Dev nD) : ∀ b, b ∉ Finset.univ.image (Pipeline.arrRef spec1) → Ve7 m ρ c b = Ve6 m ρ c b :=
  fun b hb => W7_of_ne m ρ c b fun w e => hb (Finset.mem_image.mpr ⟨w, Finset.mem_univ _, e⟩)
/-- A buffer that is no output window's array of region 1 leaves the region as it entered: no window's array
    (`W7_of_ne`), or an input window's, which no write-back touches (`Dat.arrAt_in`). -/
theorem W7_keep (c : Dev nD) (b : Ref sig .tc) (hb : ∀ w : Fin 15, Pipeline.arrRef spec1 w = b → (cfg1.win w).isOut = false) :
    W7 m ρ c (Proc.devRef .tc b) = W6 m ρ c (Proc.devRef .tc b) := by
  by_cases h : ∃ w : Fin 15, Pipeline.arrRef spec1 w = b
  · obtain ⟨w, rfl⟩ := h
    exact (W7_arr m ρ c w).trans (((dat1 (Ve6 m ρ) c).arrAt_in w (hb w rfl) _).trans (A_eq1 (Ve6 m ρ) c w))
  · exact W7_of_ne m ρ c b fun w e => h ⟨w, e⟩
/-- After `hostOps2`. -/
abbrev W8 : Dev nD → Valuation τ sig (Elt F) := fun c => StableHlo.after hostOps2 (W7 m ρ c)
/-- The same read at the TensorCore's references. -/
abbrev Ve8 : (c : Dev nD) → (b : Ref sig .tc) → Buf (Elt F) ((c : Thread nD τ).loc b) := fun c b => W8 m ρ c b
/-- At region 2's exit: its arrays at what the pipeline leaves (the inputs as entered, each output's write-backs
    folded: `Dat.arrAt … N`), every other buffer as entered. -/
def W9 (c : Dev nD) : Valuation τ sig (Elt F) :=
  Pipeline.withArrays spec2 c (W8 m ρ c) fun w => (dat2 (Ve8 m ρ) c).arrAt w cfg2.N
theorem W9_arr (c : Dev nD) (w : Fin cfg2.W) :
    W9 m ρ c (Proc.devRef .tc (Pipeline.arrRef spec2 w)) = (dat2 (Ve8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references (region 2's exit contents). -/
abbrev Ve9 : (c : Dev nD) → (b : Ref sig .tc) → Buf (Elt F) ((c : Thread nD τ).loc b) := fun c b => W9 m ρ c b
/-- At region 2's exit each of its arrays holds what the pipeline leaves (`hF2`) and every other buffer what it
    held at entry (`hrest2`). -/
theorem hF2 (c : Dev nD) (w : Fin cfg2.W) : (dat2 (Ve8 m ρ) c).arrAt w cfg2.N = Ve9 m ρ c (Pipeline.arrRef spec2 w) :=
  (W9_arr m ρ c w).symm
theorem hrest2 (c : Dev nD) : ∀ b, b ∉ Finset.univ.image (Pipeline.arrRef spec2) → Ve9 m ρ c b = Ve8 m ρ c b :=
  fun b hb => W9_of_ne m ρ c b fun w e => hb (Finset.mem_image.mpr ⟨w, Finset.mem_univ _, e⟩)
/-- A buffer that is no output window's array of region 2 leaves the region as it entered: no window's array
    (`W9_of_ne`), or an input window's, which no write-back touches (`Dat.arrAt_in`). -/
theorem W9_keep (c : Dev nD) (b : Ref sig .tc) (hb : ∀ w : Fin 9, Pipeline.arrRef spec2 w = b → (cfg2.win w).isOut = false) :
    W9 m ρ c (Proc.devRef .tc b) = W8 m ρ c (Proc.devRef .tc b) := by
  by_cases h : ∃ w : Fin 9, Pipeline.arrRef spec2 w = b
  · obtain ⟨w, rfl⟩ := h
    exact (W9_arr m ρ c w).trans (((dat2 (Ve8 m ρ) c).arrAt_in w (hb w rfl) _).trans (A_eq2 (Ve8 m ρ) c w))
  · exact W9_of_ne m ρ c b fun w e => h ⟨w, e⟩

/-! ## Reading the fold back

No host operation and no region's write-back touches an argument (a region reads it through an input window or
bypasses it), so the fold at an argument's buffer walks back to the launch memory. -/

/-- A buffer no stretch writes and no region's output window covers ends as launched. -/
theorem W9_launch (c : Dev nD) (b : Ref sig .tc)
    (h0 : b ∉ hostOps0_W) (h1 : b ∉ hostOps1_W) (h1_1 : b ∉ hostOps1_1_W) (h1_2 : b ∉ hostOps1_2_W)
    (h1_3 : b ∉ hostOps1_3_W) (h2 : b ∉ hostOps2_W)
    (k0 : ∀ w : Fin 6, Pipeline.arrRef spec0 w = b → (cfg0.win w).isOut = false)
    (k1 : ∀ w : Fin 15, Pipeline.arrRef spec1 w = b → (cfg1.win w).isOut = false)
    (k2 : ∀ w : Fin 9, Pipeline.arrRef spec2 w = b → (cfg2.win w).isOut = false) :
    W9 m ρ c (Proc.devRef .tc b) = m ((c : Thread nD τ).loc b) :=
  calc W9 m ρ c (Proc.devRef .tc b)
    _ = W8 m ρ c (Proc.devRef .tc b) := W9_keep m ρ c b k2
    _ = W7 m ρ c (Proc.devRef .tc b) := StableHlo.after_of_writes_sub hostOps2 _ hostOps2_writes h2
    _ = W6 m ρ c (Proc.devRef .tc b) := W7_keep m ρ c b k1
    _ = W5 m ρ c (Proc.devRef .tc b) := StableHlo.after_of_writes_sub hostOps1_3 _ hostOps1_3_writes h1_3
    _ = W4 m ρ c (Proc.devRef .tc b) := StableHlo.after_of_writes_sub hostOps1_2 _ hostOps1_2_writes h1_2
    _ = W3 m ρ c (Proc.devRef .tc b) := StableHlo.after_of_writes_sub hostOps1_1 _ hostOps1_1_writes h1_1
    _ = W2 m ρ c (Proc.devRef .tc b) := StableHlo.after_of_writes_sub hostOps1 _ hostOps1_writes h1
    _ = W1 m ρ c (Proc.devRef .tc b) := W2_keep m ρ c b k0
    _ = W0 m ρ c (Proc.devRef .tc b) := StableHlo.after_of_writes_sub hostOps0 _ hostOps0_writes h0
    _ = m ((c : Thread nD τ).loc b) := rfl

/-- Every argument array ends holding its launch contents. -/
theorem W9_arg (c : Dev nD) (a : Ref sig .tc)
    (ha : a ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23] : List (Ref sig .tc))) :
    W9 m ρ c (Proc.devRef .tc a) = m ((c : Thread nD τ).loc a) := by
  simp only [List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals exact W9_launch m ρ c _ (by decide) (by decide) (by decide) (by decide) (by decide) (by decide) (by decide) (by decide) (by decide)

/-- The first result, `main_v11`, ends at what region 2's write-backs leave in its output window. -/
theorem W9_out0 (c : Dev nD) : W9 m ρ c (Proc.devRef .tc main_v11) = (dat2 (Ve8 m ρ) c).arrAt 8 cfg2.N :=
  W9_arr m ρ c 8

/-- The second result, `main_v7_0`, ends at what region 1's write-backs leave in its first output window: the last
    stretch does not write it and region 2 has no window on it. -/
theorem W9_out1 (c : Dev nD) : W9 m ρ c (Proc.devRef .tc main_v7_0) = (dat1 (Ve6 m ρ) c).arrAt 13 cfg1.N :=
  calc W9 m ρ c (Proc.devRef .tc main_v7_0)
    _ = W8 m ρ c (Proc.devRef .tc main_v7_0) := W9_of_ne m ρ c main_v7_0 (by decide)
    _ = W7 m ρ c (Proc.devRef .tc main_v7_0) := StableHlo.after_of_writes_sub hostOps2 _ hostOps2_writes (by decide)
    _ = (dat1 (Ve6 m ρ) c).arrAt 13 cfg1.N := W7_arr m ρ c 13

/-! # The proof data family and the thread state -/

/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (Ve1 m ρ) c
  | ⟨1, _⟩ => fun c => dat1 (Ve6 m ρ) c
  | ⟨2, _⟩ => fun c => dat2 (Ve8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the regions'
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! # The regions as segments -/

-- a library lemma stated over `pin pcs a p` unifies with the pinned configuration only when unification may unfold
-- plain definitions in a metavariable's type
set_option backward.isDefEq.respectTransparency.types false in
/-- REGION 0 (the node projection) over the thread state: entered from every unscoped buffer at `W1`, left at `W2`. Its
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve1 m ρ c) (A_eq0 (Ve1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve1 m ρ c) (Ve2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the edge kernel) over the thread state: entered from every unscoped buffer at `W6`, left at `W7`. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve6 m ρ c) (A_eq1 (Ve6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve6 m ρ c) (Ve7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (the node update) over the thread state: entered from every unscoped buffer at `W8`, left at `W9`. Its
    arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve8 m ρ c) (A_eq2 (Ve8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve8 m ρ c) (Ve9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's 9 segments in order: a host segment per stretch from its boundary's contents, a region per kernel call. -/
abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ) ]
/-- @main IS the run of the segments: @main is the chain of its items (`main_chain`), and the segments' run is the
    chain of their fragments (`Seg.run_eq_chain`), which are those items. -/
theorem main_run (c : Dev nD) : main (F := F) c = Pipeline.Seg.run (hsegs m ρ) := by
  rw [main_chain c, Pipeline.Seg.run_eq_chain,
    show (hsegs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      Prog.lift (.customCall (Pipeline.entry 1) ()),
      StableHlo.seq hostOps2,
      Prog.lift (.customCall (Pipeline.entry 2) ()) ] from rfl]

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer of every core at the
    last boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

end Cert.KernelIdeal.Hand

end
-- ==== Proof.KI.Take.lean ====
/-
  Reading a row table at a vector of node indices.

  The kernel's program reads `table[idx]` the guarded way: a negative index is first moved up by the table's 40000 rows,
  the moved index is tested against `0 … 39999`, the row is fetched, and a row whose index failed the test is replaced
  by a fill pattern. The reference fetches the row of the moved index and nothing else. When every index lies in
  `0 … 39999` the test succeeds on every row, so the guarded read IS the plain fetch: that is all this file proves.
  The fetch itself (`Host.gather`) is never opened.
-/
import proofs.«415799_j31490700214962_3_alg».proof.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Hand

open Idealize.ShloMosaic Idealize.ShloMosaic.ValueIdx Cert.KernelIdeal

variable {F : FTy → Type} [FloatOps F] [Cert.KernelIdeal.Facts]
open Cert.KernelIdeal.Facts₀ Cert.KernelIdeal.Facts

/-- The index after the move of the negatives, as a column of start indices. -/
def takeIdx (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- The range test of the moved indices, one bit per row. -/
def takeOk (idx : IVec S640000 32) : IVec S640000 1 :=
  Host.reduce IntOp.andi
    (andi (cmpi .sge (takeIdx idx) (broadcastInDim S640000x1 ![] bcast_S_S640000x1 (constantI S_ 32 0#32)))
      (cmpi .sle (takeIdx idx) (broadcastInDim S640000x1 ![0, 1] bcast_S1x1_S640000x1_0_1
        (broadcastInDim S1x1 ![1] bcast_S1_S1x1_1 (constantI S1 32 39999#32)))))
    (constantI S_ 1 1#1) reducesTo_S640000x1_S640000_d1 h_S_

/-- The guarded read of a 40000-row table at 640000 indices. -/
def takeFn (x : FVec F S40000x128 .f32) (idx : IVec S640000 32) : FVec F S640000x128 .f32 :=
  select (broadcastInDim S640000x128 ![0] bcast_S640000_S640000x128_0 (takeOk idx))
    (Host.gather gather_S40000x128_S640000x1_S640000x128_1_0_n_n_0_1_1128 x (takeIdx idx))
    (broadcastInDim S640000x128 ![] bcast_S_S640000x128 (constant S_ .f32 0x7FC00000#32))

/-- An `and`-fold from 1 over bits that are all 1 is 1. -/
theorem foldl_andi_one {ι : Type} (l : List ι) (f : ι → BitVec 1) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

/-- A reduction by `and` from the constant 1 of an array of ones is 1 at every index. -/
theorem reduce_andi_of_all {s t : Shape} {axes : List (Fin s.rank)} (x : s.Idx → BitVec 1)
    (h : s.ReducesTo axes t) (hu : 0 < S_.numel) (hx : ∀ i, x i = 1#1) (j : t.Idx) :
    Host.reduce IntOp.andi x (constantI S_ 1 1#1) h hu j = 1#1 := by
  unfold Host.reduce
  exact foldl_andi_one _ _ fun n _ => hx _

/-- An index in `0 … 39999` is not moved, and passes the range test. -/
theorem word_ok {w : BitVec 32} (h0 : IntOp.cmpi .sge w 0#32 = 1#1) (h1 : IntOp.cmpi .slt w 40000#32 = 1#1) :
    Scalar.select (IntOp.cmpi .slt w 0#32) (IntOp.addi w 40000#32) w = w
      ∧ IntOp.cmpi .sle w 39999#32 = 1#1 := by
  have h0' := IntOp.cmpi_sge.mp h0
  have h1' := IntOp.cmpi_slt.mp h1
  have e0 : (0#32 : BitVec 32).toInt = 0 := by decide
  have e1 : (40000#32 : BitVec 32).toInt = 40000 := by decide
  have e2 : (39999#32 : BitVec 32).toInt = 39999 := by decide
  rw [e0] at h0'; rw [e1] at h1'
  refine ⟨?_, IntOp.cmpi_sle.mpr (by rw [e2]; omega)⟩
  have hn : IntOp.cmpi .slt w 0#32 = 0#1 :=
    eq_zero_of_ne_one fun h => absurd (IntOp.cmpi_slt.mp h) (by rw [e0]; omega)
  rw [hn, select_zero]

/-- With every index in range, the moved index is the index, row by row. -/
theorem takeIdx_apply (idx : IVec S640000 32)
    (hidx : ∀ k : S640000.Idx, IntOp.cmpi .sge (idx k) 0#32 = 1#1 ∧ IntOp.cmpi .slt (idx k) 40000#32 = 1#1)
    (i : S640000x1.Idx) : takeIdx idx i = idx (ix1 (n := 640000) (i 0)) := by
  unfold takeIdx
  rw [broadcastInDim_apply _ _ _ i (ix1 (n := 640000) (i 0)) (fun a => by match a with | ⟨0, _⟩ => rfl)]
  show Scalar.select (IntOp.cmpi .slt (idx _) 0#32) (IntOp.addi (idx _) 40000#32) (idx _) = idx _
  exact (word_ok (hidx _).1 (hidx _).2).1

/-- With every index in range, every row passes the range test. -/
theorem takeOk_all (idx : IVec S640000 32)
    (hidx : ∀ k : S640000.Idx, IntOp.cmpi .sge (idx k) 0#32 = 1#1 ∧ IntOp.cmpi .slt (idx k) 40000#32 = 1#1)
    (j : S640000.Idx) : takeOk idx j = 1#1 := by
  unfold takeOk
  refine reduce_andi_of_all _ _ _ (fun i => ?_) j
  show IntOp.andi (IntOp.cmpi .sge (takeIdx idx i) 0#32) (IntOp.cmpi .sle (takeIdx idx i) 39999#32) = 1#1
  rw [takeIdx_apply idx hidx i, (hidx _).1, (word_ok (hidx _).1 (hidx _).2).2]
  rfl

/-- With every index in range the guarded read is the plain fetch at the moved indices. -/
theorem takeFn_eq_gather (x : FVec F S40000x128 .f32) (idx : IVec S640000 32)
    (hidx : ∀ k : S640000.Idx, IntOp.cmpi .sge (idx k) 0#32 = 1#1 ∧ IntOp.cmpi .slt (idx k) 40000#32 = 1#1) :
    takeFn x idx = Host.gather gather_S40000x128_S640000x1_S640000x128_1_0_n_n_0_1_1128 x (takeIdx idx) := by
  funext j
  unfold takeFn
  show Scalar.select (broadcastInDim S640000x128 ![0] bcast_S640000_S640000x128_0 (takeOk idx) j) _ _ = _
  rw [show broadcastInDim S640000x128 ![0] bcast_S640000_S640000x128_0 (takeOk idx) j = 1#1 from by
    unfold broadcastInDim; exact takeOk_all idx hidx _]
  exact select_one _ _

end Cert.KernelIdeal.Hand

end
-- ==== Proof.KI.HostVal.lean ====
/-
  What the host lines between the three kernel calls leave in their result buffers, as functions of what they read:
  the two concatenated weight arrays before the first call; the four guarded row reads before the second; the zero
  array, the index column and the summed messages before the third. Each is read off the line of host operations
  over an arbitrary valuation `W` of the buffers, so the same statement serves wherever the line runs. (The
  operations of a guarded read carry their values to each buffer's own type and back; that round trip is the identity.)
-/
import proofs.«415799_j31490700214962_3_alg».proof.Proof.Gen.KernelIdeal.Launch
import proofs.«415799_j31490700214962_3_alg».proof.Proof.KI.Take
import Idealize.ShloMosaic.Lib.StableHlo.Run

set_option maxRecDepth 16384
set_option maxHeartbeats 1000000

noncomputable section

namespace Cert.KernelIdeal.Hand

open Idealize.ShloMosaic Idealize.ShloMosaic.TcCoe Idealize.ShloMosaic.StableHlo Idealize.SL.Sem Cert.KernelIdeal Cert.KernelIdeal.Gen

variable {F : FTy → Type} [FloatOps F]

/-- Contents carried to a buffer's own type and back are the contents. -/
theorem ofBuf_toBuf {T : BufTy} (x : StableHlo.TRef sig T) (v : T.Contents (Elt F)) : x.ofBuf (x.toBuf v) = v := by
  obtain ⟨r, h, h1, h2⟩ := x
  subst h
  rfl

/-- The three projection weights side by side. -/
theorem after0_v0 (W : Valuation τ sig (Elt F)) :
    StableHlo.after hostOps0 W (Proc.devRef .tc main_v0)
      = concatenate S128x384 1 [⟨S128x128, W (Proc.devRef .tc main_arg4)⟩, ⟨S128x128, W (Proc.devRef .tc main_arg6)⟩, ⟨S128x128, W (Proc.devRef .tc main_arg10)⟩]
          concatenates_S128x128_S128x128_S128x128_S128x384_d1 := by
  after_results_simp <;> rfl

/-- The three projection biases end to end. -/
theorem after0_v1 (W : Valuation τ sig (Elt F)) :
    StableHlo.after hostOps0 W (Proc.devRef .tc main_v1)
      = concatenate S384 0 [⟨S128, W (Proc.devRef .tc main_arg5)⟩, ⟨S128, W (Proc.devRef .tc main_arg7)⟩, ⟨S128, W (Proc.devRef .tc main_arg11)⟩]
          concatenates_S128_S128_S128_S384_d0 := by
  after_results_simp <;> rfl

/-- The first guarded read: the source projection's rows at the source indices. -/
theorem after1_v3 (W : Valuation τ sig (Elt F)) :
    StableHlo.after hostOps1 W (Proc.devRef .tc main_v3) = takeFn (W (Proc.devRef .tc main_v2_0)) (W (Proc.devRef .tc main_arg2)) := by
  after_results_simp
  simp only [ofBuf_toBuf]
  simp only [StableHlo.TRef.toBuf, StableHlo.TRef.ofBuf, cast_eq]
  unfold takeFn takeOk takeIdx
  rfl

/-- The second guarded read: the destination projection's rows at the destination indices. -/
theorem after1_1_v4 (W : Valuation τ sig (Elt F)) :
    StableHlo.after hostOps1_1 W (Proc.devRef .tc main_v4) = takeFn (W (Proc.devRef .tc main_v2_1)) (W (Proc.devRef .tc main_arg3)) := by
  after_results_simp
  simp only [ofBuf_toBuf]
  simp only [StableHlo.TRef.toBuf, StableHlo.TRef.ofBuf, cast_eq]
  unfold takeFn takeOk takeIdx
  rfl

/-- The third guarded read: the message rows at the source indices. -/
theorem after1_2_v5 (W : Valuation τ sig (Elt F)) :
    StableHlo.after hostOps1_2 W (Proc.devRef .tc main_v5) = takeFn (W (Proc.devRef .tc main_v2_2)) (W (Proc.devRef .tc main_arg2)) := by
  after_results_simp
  simp only [ofBuf_toBuf]
  simp only [StableHlo.TRef.toBuf, StableHlo.TRef.ofBuf, cast_eq]
  unfold takeFn takeOk takeIdx
  rfl

/-- The fourth guarded read: the message rows at the destination indices. -/
theorem after1_3_v6 (W : Valuation τ sig (Elt F)) :
    StableHlo.after hostOps1_3 W (Proc.devRef .tc main_v6) = takeFn (W (Proc.devRef .tc main_v2_2)) (W (Proc.devRef .tc main_arg3)) := by
  after_results_simp
  simp only [ofBuf_toBuf]
  simp only [StableHlo.TRef.toBuf, StableHlo.TRef.ofBuf, cast_eq]
  unfold takeFn takeOk takeIdx
  rfl

/-- The messages summed into their destination nodes, from the zero array. -/
theorem after2_v10 (W : Valuation τ sig (Elt F)) :
    StableHlo.after hostOps2 W (Proc.devRef .tc main_v10)
      = Host.scatterAdd scatter_S40000x128_S640000x1_S640000x128_1_0_0_1
          (broadcastInDim S40000x128 ![] bcast_S_S40000x128 (constant S_ .f32 0x00000000#32))
          (broadcastInDim S640000x1 ![0] bcast_S640000_S640000x1_0 (W (Proc.devRef .tc main_arg3)))
          (W (Proc.devRef .tc main_v7_1)) := by
  after_results_simp <;> rfl

end Cert.KernelIdeal.Hand

end
-- ==== Proof.KI.Chain.lean ====
/- THE PLUMBING from the fold of buffer contents through @main to what each kernel region finds on entry.
   Every statement is over a launch memory `m`, generator registers `ρ` and a core `c`.
   * An argument array is written by no stretch of host operations and by no region's write-back, so at every
     region's entry it holds the launch memory's contents (`Ve1_arg`, `Ve6_arg`, `Ve8_arg`).
   * Region 0 finds in `main_v0`, `main_v1` the two concatenations of the launch memory's weight arrays.
   * Region 0 leaves in `main_v2_0`, `main_v2_1`, `main_v2_2` what its write-backs fold into its output windows.
   * Region 1 finds in `main_v3` … `main_v6` the four guarded row reads of region 0's results at the launch
     memory's index arrays: each read's result is written by its own stretch and by no later one, and the later
     stretches write neither region 0's results nor an argument.
   * Region 1 leaves in `main_v7_1` what its write-backs fold into its second output window; region 2 finds in
     `main_v10` those rows summed, from the zero array, into the rows the launch memory's destination indices name. -/
import proofs.«415799_j31490700214962_3_alg».proof.Proof.KI.Run
import proofs.«415799_j31490700214962_3_alg».proof.Proof.KI.HostVal

-- decided memberships among the program's references recurse past the default depth
set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ) (ρ : Dev nD → PrngReg)

/-! # What a stretch of host operations leaves alone -/

/-- A buffer a stretch does not write is after the stretch as before it. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
theorem W4_of (c : Dev nD) (b : Ref sig .tc) (h : b ∉ hostOps1_1_W) :
    W4 m ρ c (Proc.devRef .tc b) = W3 m ρ c (Proc.devRef .tc b) :=
  StableHlo.after_of_writes_sub hostOps1_1 _ hostOps1_1_writes h
theorem W5_of (c : Dev nD) (b : Ref sig .tc) (h : b ∉ hostOps1_2_W) :
    W5 m ρ c (Proc.devRef .tc b) = W4 m ρ c (Proc.devRef .tc b) :=
  StableHlo.after_of_writes_sub hostOps1_2 _ hostOps1_2_writes h
theorem W6_of (c : Dev nD) (b : Ref sig .tc) (h : b ∉ hostOps1_3_W) :
    W6 m ρ c (Proc.devRef .tc b) = W5 m ρ c (Proc.devRef .tc b) :=
  StableHlo.after_of_writes_sub hostOps1_3 _ hostOps1_3_writes h
theorem W8_of (c : Dev nD) (b : Ref sig .tc) (h : b ∉ hostOps2_W) :
    W8 m ρ c (Proc.devRef .tc b) = W7 m ρ c (Proc.devRef .tc b) :=
  StableHlo.after_of_writes_sub hostOps2 _ hostOps2_writes h

/-! # The arguments at every boundary -/

/-- @main's arguments. -/
abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-- No stretch writes an argument, and a region's window on an argument is an input window. -/
theorem mainArgs_kept (a : Ref sig .tc) (ha : a ∈ mainArgs) :
    a ∉ hostOps0_W ∧ a ∉ hostOps1_W ∧ a ∉ hostOps1_1_W ∧ a ∉ hostOps1_2_W ∧ a ∉ hostOps1_3_W ∧ a ∉ hostOps2_W
      ∧ (∀ w : Fin 6, Pipeline.arrRef spec0 w = a → (cfg0.win w).isOut = false)
      ∧ (∀ w : Fin 15, Pipeline.arrRef spec1 w = a → (cfg1.win w).isOut = false)
      ∧ (∀ w : Fin 9, Pipeline.arrRef spec2 w = a → (cfg2.win w).isOut = false) := by
  simp only [mainArgs, List.mem_cons, List.not_mem_nil, or_false] at ha
  rcases ha with rfl | rfl | rfl | rfl | rfl | rfl | rfl | rfl | rfl | rfl | rfl | rfl | rfl | rfl | rfl | rfl | rfl | rfl | rfl | rfl | rfl | rfl | rfl | rfl
  all_goals exact ⟨by decide, by decide, by decide, by decide, by decide, by decide, by decide, by decide, by decide⟩

theorem W1_arg (c : Dev nD) (a : Ref sig .tc) (ha : a ∈ mainArgs) : W1 m ρ c (Proc.devRef .tc a) = m ((c : Thread nD τ).loc a) :=
  (W1_of m ρ c a (mainArgs_kept a ha).1).trans rfl
theorem W2_arg (c : Dev nD) (a : Ref sig .tc) (ha : a ∈ mainArgs) : W2 m ρ c (Proc.devRef .tc a) = m ((c : Thread nD τ).loc a) :=
  (W2_keep m ρ c a (mainArgs_kept a ha).2.2.2.2.2.2.1).trans (W1_arg m ρ c a ha)
theorem W3_arg (c : Dev nD) (a : Ref sig .tc) (ha : a ∈ mainArgs) : W3 m ρ c (Proc.devRef .tc a) = m ((c : Thread nD τ).loc a) :=
  (W3_of m ρ c a (mainArgs_kept a ha).2.1).trans (W2_arg m ρ c a ha)
theorem W4_arg (c : Dev nD) (a : Ref sig .tc) (ha : a ∈ mainArgs) : W4 m ρ c (Proc.devRef .tc a) = m ((c : Thread nD τ).loc a) :=
  (W4_of m ρ c a (mainArgs_kept a ha).2.2.1).trans (W3_arg m ρ c a ha)
theorem W5_arg (c : Dev nD) (a : Ref sig .tc) (ha : a ∈ mainArgs) : W5 m ρ c (Proc.devRef .tc a) = m ((c : Thread nD τ).loc a) :=
  (W5_of m ρ c a (mainArgs_kept a ha).2.2.2.1).trans (W4_arg m ρ c a ha)
theorem W6_arg (c : Dev nD) (a : Ref sig .tc) (ha : a ∈ mainArgs) : W6 m ρ c (Proc.devRef .tc a) = m ((c : Thread nD τ).loc a) :=
  (W6_of m ρ c a (mainArgs_kept a ha).2.2.2.2.1).trans (W5_arg m ρ c a ha)
theorem W7_arg (c : Dev nD) (a : Ref sig .tc) (ha : a ∈ mainArgs) : W7 m ρ c (Proc.devRef .tc a) = m ((c : Thread nD τ).loc a) :=
  (W7_keep m ρ c a (mainArgs_kept a ha).2.2.2.2.2.2.2.1).trans (W6_arg m ρ c a ha)
theorem W8_arg (c : Dev nD) (a : Ref sig .tc) (ha : a ∈ mainArgs) : W8 m ρ c (Proc.devRef .tc a) = m ((c : Thread nD τ).loc a) :=
  (W8_of m ρ c a (mainArgs_kept a ha).2.2.2.2.2.1).trans (W7_arg m ρ c a ha)

/-- Region 0 finds every argument as launched. -/
theorem Ve1_arg (c : Dev nD) (a : Ref sig .tc) (ha : a ∈ mainArgs) : Ve1 m ρ c a = m ((c : Thread nD τ).loc a) := W1_arg m ρ c a ha
/-- Region 1 finds every argument as launched. -/
theorem Ve6_arg (c : Dev nD) (a : Ref sig .tc) (ha : a ∈ mainArgs) : Ve6 m ρ c a = m ((c : Thread nD τ).loc a) := W6_arg m ρ c a ha
/-- Region 2 finds every argument as launched. -/
theorem Ve8_arg (c : Dev nD) (a : Ref sig .tc) (ha : a ∈ mainArgs) : Ve8 m ρ c a = m ((c : Thread nD τ).loc a) := W8_arg m ρ c a ha

/-! # Region 0's entry: the concatenated weights -/

/-- Region 0 finds in `main_v0` the three projection weights of the launch memory side by side. -/
theorem Ve1_v0 (c : Dev nD) : Ve1 m ρ c main_v0
    = concatenate S128x384 1 [⟨S128x128, m ((c : Thread nD τ).loc main_arg4)⟩, ⟨S128x128, m ((c : Thread nD τ).loc main_arg6)⟩, ⟨S128x128, m ((c : Thread nD τ).loc main_arg10)⟩]
        concatenates_S128x128_S128x128_S128x128_S128x384_d1 :=
  after0_v0 (W0 m ρ c)
/-- Region 0 finds in `main_v1` the three projection biases of the launch memory end to end. -/
theorem Ve1_v1 (c : Dev nD) : Ve1 m ρ c main_v1
    = concatenate S384 0 [⟨S128, m ((c : Thread nD τ).loc main_arg5)⟩, ⟨S128, m ((c : Thread nD τ).loc main_arg7)⟩, ⟨S128, m ((c : Thread nD τ).loc main_arg11)⟩]
        concatenates_S128_S128_S128_S384_d0 :=
  after0_v1 (W0 m ρ c)

/-! # Region 0's exit: its three results -/

theorem W2_v2_0 (c : Dev nD) : W2 m ρ c (Proc.devRef .tc main_v2_0) = (dat0 (Ve1 m ρ) c).arrAt 3 cfg0.N := W2_arr m ρ c 3
theorem W2_v2_1 (c : Dev nD) : W2 m ρ c (Proc.devRef .tc main_v2_1) = (dat0 (Ve1 m ρ) c).arrAt 4 cfg0.N := W2_arr m ρ c 4
theorem W2_v2_2 (c : Dev nD) : W2 m ρ c (Proc.devRef .tc main_v2_2) = (dat0 (Ve1 m ρ) c).arrAt 5 cfg0.N := W2_arr m ρ c 5

/-! # Region 1's entry: the four guarded row reads -/

/-- Region 1 finds in `main_v3` the rows of region 0's first result at the launch memory's source indices. -/
theorem Ve6_v3 (c : Dev nD) : Ve6 m ρ c main_v3 = takeFn (W2 m ρ c (Proc.devRef .tc main_v2_0)) (m ((c : Thread nD τ).loc main_arg2)) :=
  calc W6 m ρ c (Proc.devRef .tc main_v3)
    _ = W5 m ρ c (Proc.devRef .tc main_v3) := W6_of m ρ c main_v3 (by decide)
    _ = W4 m ρ c (Proc.devRef .tc main_v3) := W5_of m ρ c main_v3 (by decide)
    _ = W3 m ρ c (Proc.devRef .tc main_v3) := W4_of m ρ c main_v3 (by decide)
    _ = takeFn (W2 m ρ c (Proc.devRef .tc main_v2_0)) (W2 m ρ c (Proc.devRef .tc main_arg2)) := after1_v3 (W2 m ρ c)
    _ = takeFn (W2 m ρ c (Proc.devRef .tc main_v2_0)) (m ((c : Thread nD τ).loc main_arg2)) := by
      rw [W2_arg m ρ c main_arg2 (by decide)]
/-- Region 1 finds in `main_v4` the rows of region 0's second result at the launch memory's destination indices. -/
theorem Ve6_v4 (c : Dev nD) : Ve6 m ρ c main_v4 = takeFn (W2 m ρ c (Proc.devRef .tc main_v2_1)) (m ((c : Thread nD τ).loc main_arg3)) :=
  calc W6 m ρ c (Proc.devRef .tc main_v4)
    _ = W5 m ρ c (Proc.devRef .tc main_v4) := W6_of m ρ c main_v4 (by decide)
    _ = W4 m ρ c (Proc.devRef .tc main_v4) := W5_of m ρ c main_v4 (by decide)
    _ = takeFn (W3 m ρ c (Proc.devRef .tc main_v2_1)) (W3 m ρ c (Proc.devRef .tc main_arg3)) := after1_1_v4 (W3 m ρ c)
    _ = takeFn (W2 m ρ c (Proc.devRef .tc main_v2_1)) (m ((c : Thread nD τ).loc main_arg3)) := by
      rw [W3_of m ρ c main_v2_1 (by decide), W3_arg m ρ c main_arg3 (by decide)]
/-- Region 1 finds in `main_v5` the rows of region 0's third result at the launch memory's source indices. -/
theorem Ve6_v5 (c : Dev nD) : Ve6 m ρ c main_v5 = takeFn (W2 m ρ c (Proc.devRef .tc main_v2_2)) (m ((c : Thread nD τ).loc main_arg2)) :=
  calc W6 m ρ c (Proc.devRef .tc main_v5)
    _ = W5 m ρ c (Proc.devRef .tc main_v5) := W6_of m ρ c main_v5 (by decide)
    _ = takeFn (W4 m ρ c (Proc.devRef .tc main_v2_2)) (W4 m ρ c (Proc.devRef .tc main_arg2)) := after1_2_v5 (W4 m ρ c)
    _ = takeFn (W2 m ρ c (Proc.devRef .tc main_v2_2)) (m ((c : Thread nD τ).loc main_arg2)) := by
      rw [W4_of m ρ c main_v2_2 (by decide), W3_of m ρ c main_v2_2 (by decide), W4_arg m ρ c main_arg2 (by decide)]
/-- Region 1 finds in `main_v6` the rows of region 0's third result at the launch memory's destination indices. -/
theorem Ve6_v6 (c : Dev nD) : Ve6 m ρ c main_v6 = takeFn (W2 m ρ c (Proc.devRef .tc main_v2_2)) (m ((c : Thread nD τ).loc main_arg3)) :=
  calc W6 m ρ c (Proc.devRef .tc main_v6)
    _ = takeFn (W5 m ρ c (Proc.devRef .tc main_v2_2)) (W5 m ρ c (Proc.devRef .tc main_arg3)) := after1_3_v6 (W5 m ρ c)
    _ = takeFn (W2 m ρ c (Proc.devRef .tc main_v2_2)) (m ((c : Thread nD τ).loc main_arg3)) := by
      rw [W5_of m ρ c main_v2_2 (by decide), W4_of m ρ c main_v2_2 (by decide), W3_of m ρ c main_v2_2 (by decide),
        W5_arg m ρ c main_arg3 (by decide)]

/-! # Region 1's exit and region 2's entry: the summed messages -/

theorem W7_v7_1 (c : Dev nD) : W7 m ρ c (Proc.devRef .tc main_v7_1) = (dat1 (Ve6 m ρ) c).arrAt 14 cfg1.N := W7_arr m ρ c 14

/-- Region 2 finds in `main_v10` region 1's second result summed, from the zero array, into the rows the launch
    memory's destination indices name. -/
theorem Ve8_v10 (c : Dev nD) : Ve8 m ρ c main_v10
    = Host.scatterAdd scatter_S40000x128_S640000x1_S640000x128_1_0_0_1
        (broadcastInDim S40000x128 ![] bcast_S_S40000x128 (constant S_ .f32 0x00000000#32))
        (broadcastInDim S640000x1 ![0] bcast_S640000_S640000x1_0 (m ((c : Thread nD τ).loc main_arg3)))
        (W7 m ρ c (Proc.devRef .tc main_v7_1)) :=
  calc W8 m ρ c (Proc.devRef .tc main_v10)
    _ = Host.scatterAdd scatter_S40000x128_S640000x1_S640000x128_1_0_0_1
        (broadcastInDim S40000x128 ![] bcast_S_S40000x128 (constant S_ .f32 0x00000000#32))
        (broadcastInDim S640000x1 ![0] bcast_S640000_S640000x1_0 (W7 m ρ c (Proc.devRef .tc main_arg3)))
        (W7 m ρ c (Proc.devRef .tc main_v7_1)) := after2_v10 (W7 m ρ c)
    _ = _ := by rw [W7_arg m ρ c main_arg3 (by decide)]

end Cert.KernelIdeal.Hand

end
-- ==== Proof.Spec.lean ====
/-
  The mathematics both programs compute, one row at a time, on the extended reals.

  An edge-gated graph convolution layer: every node feature row `h n` goes through three affine maps (source,
  destination and message projections); on every edge `k` with end points `src k`, `dst k` the gate is the logistic
  function of `hs (src k) + hd (dst k) + (e k · W + b)`, the message is the gate times the source's message row, and
  the messages are summed into their destination nodes. A node row is then updated by a two-layer perceptron with the
  `x · logistic x` nonlinearity on `[h n, agg n]`, added to `h n` and normalised over its 128 entries (mean and
  variance over the row, `rsqrt (var + ε)`, a gain and a shift); an edge row likewise from `[e k, msg (src k), msg (dst k)]`.
  Everything here is a function of ONE row and of the weights: nothing mentions a block, a grid or a program.
-/
import Idealize.ShloMosaic.PureOps.Ideal
import Idealize.ShloMosaic.Lib.ValueIdx

noncomputable section

open scoped BigOperators

namespace Cert.Graph

open Idealize.ShloMosaic Idealize.ShloMosaic.ValueIdx

/-- A matrix of extended reals as an array over a rank-2 index. -/
abbrev A2 (n0 n1 : Nat) : Type := (⟨2, ![n0, n1]⟩ : Shape).Idx → EReal
/-- A vector of extended reals as an array over a rank-1 index. -/
abbrev A1 (n : Nat) : Type := (⟨1, ![n]⟩ : Shape).Idx → EReal

/-- Row `r` of a matrix. -/
def row {n0 n1 : Nat} (x : A2 n0 n1) (r : Fin n0) : Fin n1 → EReal := fun k => x (ix2 r k)
/-- A matrix by its two coordinates. -/
def mat {n0 n1 : Nat} (x : A2 n0 n1) : Fin n0 → Fin n1 → EReal := fun a b => x (ix2 a b)
/-- A vector by its coordinate. -/
def vec {n : Nat} (x : A1 n) : Fin n → EReal := fun k => x (ix1 k)

/-- Column `o + j` of a matrix with 384 columns: the `j`-th column of the 128-column band starting at `o`. -/
def col (o : Nat) (ho : o + 128 ≤ 384) (j : Fin 128) : Fin 384 := ⟨o + j.val, by omega⟩

/-- The literals the two programs share: 128 (the row length the mean divides by) and the normalisation's ε. -/
def c128 : EReal := Ideal.ofBits .f32 0x43000000#32
def epsLN : EReal := Ideal.ofBits .f32 0x3727C5AC#32

/-- An affine map of one row: `(x · W) j + b j`. -/
def aff {K : Nat} (x : Fin K → EReal) (w : Fin K → Fin 128 → EReal) (b : Fin 128 → EReal) : Fin 128 → EReal :=
  fun j => (∑ k : Fin K, x k * w k j) + b j

/-- `x · logistic x`. -/
def silu (x : EReal) : EReal := x * Ideal.logistic x

/-- The mean of a row of 128 entries. -/
def mean (x : Fin 128 → EReal) : EReal := Ideal.div (∑ k : Fin 128, x k) c128

/-- Layer normalisation of one row, with gain `g` and shift `bt`. -/
def lnorm (x g bt : Fin 128 → EReal) : Fin 128 → EReal :=
  fun j => (x j - mean x) * Ideal.rsqrt (mean (fun k => (x k - mean x) * (x k - mean x)) + epsLN) * g j + bt j

/-- Two rows of 128 side by side. -/
def cat2 (a b : Fin 128 → EReal) : Fin 256 → EReal :=
  fun k => if h : k.val < 128 then a ⟨k.val, h⟩ else b ⟨k.val - 128, by omega⟩
/-- Three rows of 128 side by side. -/
def cat3 (a b c : Fin 128 → EReal) : Fin 384 → EReal :=
  fun k => if h : k.val < 128 then a ⟨k.val, h⟩ else if h' : k.val < 256 then b ⟨k.val - 128, by omega⟩ else c ⟨k.val - 256, by omega⟩

/-- The message on one edge: the gate `logistic (hs + hd + (e · W + b))` times the source's message row. -/
def msgRow (e hs hd sm : Fin 128 → EReal) (w : Fin 128 → Fin 128 → EReal) (b : Fin 128 → EReal) : Fin 128 → EReal :=
  fun j => Ideal.logistic ((hs j + hd j) + aff e w b j) * sm j

/-- The residual two-layer perceptron and normalisation shared by the node and the edge update: `x` the row that is
    updated, `z` the perceptron's input row. -/
def mlpNorm {K : Nat} (x : Fin 128 → EReal) (z : Fin K → EReal) (w1 : Fin K → Fin 128 → EReal) (b1 : Fin 128 → EReal)
    (w2 : Fin 128 → Fin 128 → EReal) (b2 g bt : Fin 128 → EReal) : Fin 128 → EReal :=
  lnorm (fun j => x j + aff (fun k => silu (aff z w1 b1 k)) w2 b2 j) g bt

/-! ## The same, array by array -/

/-- A projection of every node row, the weights' band `o … o + 127` of a 384-column matrix and bias. -/
def projBand (o : Nat) (ho : o + 128 ≤ 384) (h : A2 40000 128) (w : A2 128 384) (b : A1 384) : A2 40000 128 :=
  fun i => aff (row h (i 0)) (fun k j => w (ix2 k (col o ho j))) (fun j => b (ix1 (col o ho j))) (i 1)

/-- A projection of every node row. -/
def proj (h : A2 40000 128) (w : A2 128 128) (b : A1 128) : A2 40000 128 :=
  fun i => aff (row h (i 0)) (mat w) (vec b) (i 1)

/-- The messages of all edges. -/
def msgArr (e hs hd sm : A2 640000 128) (w : A2 128 128) (b : A1 128) : A2 640000 128 :=
  fun i => msgRow (row e (i 0)) (row hs (i 0)) (row hd (i 0)) (row sm (i 0)) (mat w) (vec b) (i 1)

/-- The updated edge rows. -/
def edgeArr (e sm dm : A2 640000 128) (w1 : A2 384 128) (b1 : A1 128) (w2 : A2 128 128) (b2 g bt : A1 128) : A2 640000 128 :=
  fun i => mlpNorm (row e (i 0)) (cat3 (row e (i 0)) (row sm (i 0)) (row dm (i 0))) (mat w1) (vec b1) (mat w2) (vec b2) (vec g) (vec bt) (i 1)

/-- The updated node rows. -/
def nodeArr (h agg : A2 40000 128) (w1 : A2 256 128) (b1 : A1 128) (w2 : A2 128 128) (b2 g bt : A1 128) : A2 40000 128 :=
  fun i => mlpNorm (row h (i 0)) (cat2 (row h (i 0)) (row agg (i 0))) (mat w1) (vec b1) (mat w2) (vec b2) (vec g) (vec bt) (i 1)

end Cert.Graph

end
-- ==== Proof.KI.Val0.lean ====
/- The VALUE of REGION 0 of @main at the ideal values: each of the region's three output arrays, after the region, is
   one whole-array function of the region's input arrays — the affine projection of every node row through one
   128-column band of the concatenated [128,384] weight and [384] bias (`Cert.Graph.projBand` at column offsets 0, 128,
   256). First the body's payload at an index (the [5000,384] product plus bias, then its three column thirds); then
   the blocks the region reads as rows of the arrays; then what each point writes back as a block of the band's
   projection, the cover of the array by the eight points' blocks, and the array. -/
import proofs.«415799_j31490700214962_3_alg».proof.Proof.KI.Reg0
import proofs.«415799_j31490700214962_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Graph
open Idealize.ShloMosaic Idealize.ShloMosaic.TcCoe Idealize.ShloMosaic.ValueIdx
open Idealize.SL Idealize.SL.Sem
open Idealize.ShloMosaic.Pipeline (Dat Cfg Window)

/-! ## The product's contraction, axis by axis

The [5000,128] × [128,384] product contracts the left operand's axis 1 with the right operand's axis 0: the left
index at output `(p, q)` and contraction coordinate `k` is `(p, k)`, the right one `(k, q)`. -/

theorem lhs_proj_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhs_proj_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhs_proj_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhs_proj_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The product into the zero accumulator at `(p, q)`: row `p` of the left operand against column `q` of the right. -/
theorem proj_matmul_apply (x : Vec Ideal S5000x128 .f32) (w : Vec Ideal S128x384 .f32) (p : Fin 5000) (q : Fin 384) :
    matmul (φ₁ := .f32) (φ₂ := .f32) dot_S5000x128_S128x384_S5000x384_1_0_0_1_n_n none x w (constant (F := Ideal) S5000x384 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x384_S5000x384_1_0_0_1_n_n 128 rfl rfl).symm]
  refine Finset.sum_congr rfl fun k _ => ?_
  have hk := ValueIdx.contrEquiv1_symm_val dot_S5000x128_S128x384_S5000x384_1_0_0_1_n_n 128 rfl rfl k
  have el : dot_S5000x128_S128x384_S5000x384_1_0_0_1_n_n.lhsIdx (ix2 p q) ((ValueIdx.contrEquiv1 dot_S5000x128_S128x384_S5000x384_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S5000x128_S128x384_S5000x384_1_0_0_1_n_n.rhsIdx (ix2 p q) ((ValueIdx.contrEquiv1 dot_S5000x128_S128x384_S5000x384_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- The bias as a [1,384] row broadcast over the 5000 rows, at `(p, q)`: the bias at `q`. -/
theorem proj_bias_apply (b : Vec Ideal S384 .f32) (p : Fin 5000) (q : Fin 384) :
    broadcastTo S5000x384 (shapeCast S1x384 (shapeCast S384 b shapeCasts_S384_S384) shapeCasts_S384_S1x384) broadcasts_S1x384_S5000x384 (ix2 p q)
      = b (ix1 q) := by
  rw [shapeCast_self, broadcastTo_1b_ab_apply, shapeCast_a_1a_apply]

/-! ## The payload at an index -/

/-- The [5000,384] product plus bias at `(p, q)`. -/
theorem k0_pay1_apply (x0 : Vec Ideal S5000x128 .f32) (x1 : Vec Ideal S128x384 .f32) (x2 : Vec Ideal S384 .f32) (p : Fin 5000) (q : Fin 384) :
    k0_pay1 x0 x1 x2 (ix2 p q) = (∑ k : Fin 128, x0 (ix2 p k) * x1 (ix2 k q)) + x2 (ix1 q) := by
  unfold k0_pay1
  show addf (matmul (φ₁ := .f32) (φ₂ := .f32) dot_S5000x128_S128x384_S5000x384_1_0_0_1_n_n none x0 (shapeCast S128x384 x1 shapeCasts_S128x384_S128x384) (constant (F := Ideal) S5000x384 .f32 0x00000000#32))
      (broadcastTo S5000x384 (shapeCast S1x384 (shapeCast S384 x2 shapeCasts_S384_S384) shapeCasts_S384_S1x384) broadcasts_S1x384_S5000x384) (ix2 p q) = _
  rw [addf_apply, shapeCast_self, proj_matmul_apply, proj_bias_apply]

/-- The three stored thirds at `(p, q)`: the product plus bias at column `o + q`, `o = 0, 128, 256`. -/
theorem k0_pay2_apply (x0 : Vec Ideal S5000x128 .f32) (x1 : Vec Ideal S128x384 .f32) (x2 : Vec Ideal S384 .f32) (p : Fin 5000) (q : Fin 128) :
    k0_pay2 x0 x1 x2 (ix2 p q) = (∑ k : Fin 128, x0 (ix2 p k) * x1 (ix2 k (col 0 (by decide) q))) + x2 (ix1 (col 0 (by decide) q)) := by
  unfold k0_pay2
  show extractStridedSlice S5000x128 ![0, 0] (k0_pay1 x0 x1 x2) slices_S5000x384_o0_0_S5000x128 (ix2 p q) = _
  rw [slice2_axis1_apply 0 (k0_pay1 x0 x1 x2) slices_S5000x384_o0_0_S5000x128 p q (col 0 (by decide) q) rfl, k0_pay1_apply]
theorem k0_pay3_apply (x0 : Vec Ideal S5000x128 .f32) (x1 : Vec Ideal S128x384 .f32) (x2 : Vec Ideal S384 .f32) (p : Fin 5000) (q : Fin 128) :
    k0_pay3 x0 x1 x2 (ix2 p q) = (∑ k : Fin 128, x0 (ix2 p k) * x1 (ix2 k (col 128 (by decide) q))) + x2 (ix1 (col 128 (by decide) q)) := by
  unfold k0_pay3
  show extractStridedSlice S5000x128 ![0, 128] (k0_pay1 x0 x1 x2) slices_S5000x384_o0_128_S5000x128 (ix2 p q) = _
  rw [slice2_axis1_apply 128 (k0_pay1 x0 x1 x2) slices_S5000x384_o0_128_S5000x128 p q (col 128 (by decide) q) rfl, k0_pay1_apply]
theorem k0_pay4_apply (x0 : Vec Ideal S5000x128 .f32) (x1 : Vec Ideal S128x384 .f32) (x2 : Vec Ideal S384 .f32) (p : Fin 5000) (q : Fin 128) :
    k0_pay4 x0 x1 x2 (ix2 p q) = (∑ k : Fin 128, x0 (ix2 p k) * x1 (ix2 k (col 256 (by decide) q))) + x2 (ix1 (col 256 (by decide) q)) := by
  unfold k0_pay4
  show extractStridedSlice S5000x128 ![0, 256] (k0_pay1 x0 x1 x2) slices_S5000x384_o0_256_S5000x128 (ix2 p q) = _
  rw [slice2_axis1_apply 256 (k0_pay1 x0 x1 x2) slices_S5000x384_o0_256_S5000x128 p q (col 256 (by decide) q) rfl, k0_pay1_apply]

/-- The band's projection at row `r`, column `q`: row `r` of the features against column `o + q` of the weight, plus
    the bias there. -/
theorem projBand_apply (o : Nat) (ho : o + 128 ≤ 384) (h : A2 40000 128) (w : A2 128 384) (b : A1 384) (r : Fin 40000) (q : Fin 128) :
    projBand o ho h w b (ix2 r q) = (∑ k : Fin 128, h (ix2 r k) * w (ix2 k (col o ho q))) + b (ix1 (col o ho q)) := rfl

/-! ## The blocks the region reads

Window 0's block at point `t` is rows `5000·t … 5000·t + 4999` of the node features, all 128 columns; windows 1 and
2 are the whole weight and the whole bias at every point. -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row windows' block index is `(t, 0)`, the weight's and the
    bias's is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The node features' block at point `t`, at `(p, k)`: the array at row `5000·t + p`. -/
theorem iblk0_0_apply (c : Dev nD) (t : Fin cfg0.N) (p : Fin 5000) (k : Fin 128) (r : Fin 40000) (hr : r.val = 5000 * t.val + p.val) :
    (iblk0 (F := Ideal) V c 0 t : Vec Ideal S5000x128 .f32) (ix2 p k) = (V c main_arg0 : S40000x128.Idx → EReal) (ix2 r k) := by
  obtain ⟨e0, e1, -⟩ := idx_facts0 t
  unfold iblk0
  rw [View.read_apply]
  show (V c main_arg0 : S40000x128.Idx → EReal) _ = (V c main_arg0 : S40000x128.Idx → EReal) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's block at any point is the weight. -/
theorem iblk0_1_apply (c : Dev nD) (t : Fin cfg0.N) (k : Fin 128) (q : Fin 384) :
    (iblk0 (F := Ideal) V c 1 t : Vec Ideal S128x384 .f32) (ix2 k q) = (V c main_v0 : S128x384.Idx → EReal) (ix2 k q) := by
  obtain ⟨-, -, e0, e1, -⟩ := idx_facts0 t
  unfold iblk0
  rw [View.read_apply]
  show (V c main_v0 : S128x384.Idx → EReal) _ = (V c main_v0 : S128x384.Idx → EReal) _
  congr 1
  funext a
  apply Fin.ext
  match a with
  | ⟨0, _⟩ => show win0_1.index t (0 : Fin 2) * 128 + 1 * k.val = k.val; rw [e0]; omega
  | ⟨1, _⟩ => show win0_1.index t (1 : Fin 2) * 384 + 1 * q.val = q.val; rw [e1]; omega

/-- The bias's block at any point is the bias. -/
theorem iblk0_2_apply (c : Dev nD) (t : Fin cfg0.N) (q : Fin 384) :
    (iblk0 (F := Ideal) V c 2 t : Vec Ideal S384 .f32) (ix1 q) = (V c main_v1 : S384.Idx → EReal) (ix1 q) := by
  obtain ⟨-, -, -, -, e0, -⟩ := idx_facts0 t
  unfold iblk0
  rw [View.read_apply]
  show (V c main_v1 : S384.Idx → EReal) _ = (V c main_v1 : S384.Idx → EReal) _
  congr 1
  funext a
  apply Fin.ext
  match a with
  | ⟨0, _⟩ => show win0_2.index t (0 : Fin 1) * 384 + 1 * q.val = q.val; rw [e0]; omega

/-! ## Output window 3: columns 0 … 127 of the projection -/

/-- WHAT POINT `t` WRITES BACK is block `t` of the band's projection of the region's input arrays. -/
theorem flushed0_3_eq (c : Dev nD) (t : Fin cfg0.N) :
    (dat0 (F := Ideal) V c).flushed 3 t = ((cfg0.win 3).blk t).view.read (Elt Ideal) (projBand 0 (by decide) (V c main_arg0) (V c main_v0) (V c main_v1)) := by
  show (cfg0.win 3).cut (grid0.coords t) ((dat0 (F := Ideal) V c).after 3 t) = _
  rw [after0_3]
  unfold out0_3
  rw [View.canon_unit_zero hz2]
  simp only [View.ld_unit_zero (S := S5000x128) hz2, View.ld_unit_zero (S := S128x384) hz2, View.ld_unit_zero (S := S384) hz1]
  obtain ⟨-, -, -, -, -, e0, e1, -⟩ := idx_facts0 t
  funext j
  obtain ⟨p, q, rfl⟩ : ∃ (p : Fin 5000) (q : Fin 128), j = ix2 p q := ⟨j 0, j 1, eq_ix2 j⟩
  have hlt : 5000 * t.val + p.val < 40000 := by
    have h1 : t.val < 8 := lt_of_lt_of_eq t.isLt N_0
    have h2 := p.isLt
    omega
  have hemb : ((cfg0.win 3).blk t).view.emb (ix2 p q) = ix2 (⟨5000 * t.val + p.val, hlt⟩ : Fin 40000) q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  show k0_pay2 (iblk0 (F := Ideal) V c 0 t) (iblk0 (F := Ideal) V c 1 t) (iblk0 (F := Ideal) V c 2 t) (ix2 p q)
    = projBand 0 (by decide) (V c main_arg0) (V c main_v0) (V c main_v1) (((cfg0.win 3).blk t).view.emb (ix2 p q))
  rw [k0_pay2_apply, hemb]
  rw [projBand_apply]
  refine congrArg₂ (· + ·) (Finset.sum_congr rfl fun k _ => ?_) (iblk0_2_apply V c t _)
  exact congrArg₂ (· * ·) (iblk0_0_apply V c t p k ⟨5000 * t.val + p.val, hlt⟩ rfl) (iblk0_1_apply V c t k _)

/-- An index of the array is in point `t`'s block iff each coordinate is in the block's range on its axis. -/
theorem mem_blk0_3 (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2_0).slice (win0_3.rect t)).set ↔ _
  rw [View.set_slice_whole, Rect.mem_set_unit]
  exact Iff.rfl

/-- Every index of the array is in the block of the point its row falls in: row `r` in point `r / 5000`'s. -/
theorem covered0_3 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 8 by omega) N_0.symm⟩, rfl⟩
  obtain ⟨-, -, -, -, -, e0, e1, -⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- THE ARRAY after the region: the band's projection of the region's input arrays. -/
theorem arr0_3 (c : Dev nD) : (dat0 (F := Ideal) V c).arrAt 3 cfg0.N = projBand 0 (by decide) (V c main_arg0) (V c main_v0) (V c main_v1) :=
  (dat0 (F := Ideal) V c).arrAt_eq_of_cover 3 _ (fun t _ => flushed0_3_eq V c t) (covered0_3)

/-! ## Output window 4: columns 128 … 255 of the projection -/

/-- WHAT POINT `t` WRITES BACK is block `t` of the band's projection of the region's input arrays. -/
theorem flushed0_4_eq (c : Dev nD) (t : Fin cfg0.N) :
    (dat0 (F := Ideal) V c).flushed 4 t = ((cfg0.win 4).blk t).view.read (Elt Ideal) (projBand 128 (by decide) (V c main_arg0) (V c main_v0) (V c main_v1)) := by
  show (cfg0.win 4).cut (grid0.coords t) ((dat0 (F := Ideal) V c).after 4 t) = _
  rw [after0_4]
  unfold out0_4
  rw [View.canon_unit_zero hz2]
  simp only [View.ld_unit_zero (S := S5000x128) hz2, View.ld_unit_zero (S := S128x384) hz2, View.ld_unit_zero (S := S384) hz1]
  obtain ⟨-, -, -, -, -, -, -, e0, e1, -⟩ := idx_facts0 t
  funext j
  obtain ⟨p, q, rfl⟩ : ∃ (p : Fin 5000) (q : Fin 128), j = ix2 p q := ⟨j 0, j 1, eq_ix2 j⟩
  have hlt : 5000 * t.val + p.val < 40000 := by
    have h1 : t.val < 8 := lt_of_lt_of_eq t.isLt N_0
    have h2 := p.isLt
    omega
  have hemb : ((cfg0.win 4).blk t).view.emb (ix2 p q) = ix2 (⟨5000 * t.val + p.val, hlt⟩ : Fin 40000) q := by
    funext a
    apply Fin.ext
    match a with
    | ⟨0, _⟩ => show win0_4.index t (0 : Fin 2) * 5000 + 1 * p.val = 5000 * t.val + p.val; rw [e0]; omega
    | ⟨1, _⟩ => show win0_4.index t (1 : Fin 2) * 128 + 1 * q.val = q.val; rw [e1]; omega
  show k0_pay3 (iblk0 (F := Ideal) V c 0 t) (iblk0 (F := Ideal) V c 1 t) (iblk0 (F := Ideal) V c 2 t) (ix2 p q)
    = projBand 128 (by decide) (V c main_arg0) (V c main_v0) (V c main_v1) (((cfg0.win 4).blk t).view.emb (ix2 p q))
  rw [k0_pay3_apply, hemb]
  rw [projBand_apply]
  refine congrArg₂ (· + ·) (Finset.sum_congr rfl fun k _ => ?_) (iblk0_2_apply V c t _)
  exact congrArg₂ (· * ·) (iblk0_0_apply V c t p k ⟨5000 * t.val + p.val, hlt⟩ rfl) (iblk0_1_apply V c t k _)

/-- An index of the array is in point `t`'s block iff each coordinate is in the block's range on its axis. -/
theorem mem_blk0_4 (t : Fin cfg0.N) (i : S40000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2_1).slice (win0_4.rect t)).set ↔ _
  rw [View.set_slice_whole, Rect.mem_set_unit]
  exact Iff.rfl

/-- Every index of the array is in the block of the point its row falls in: row `r` in point `r / 5000`'s. -/
theorem covered0_4 (i : S40000x128.Idx) : ∃ t : Fin cfg0.N, (cfg0.win 4).flush t = true ∧ i ∈ ((cfg0.win 4).blk t).view.set := by
  have hi0 : (i 0).val < 40000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 8 by omega) N_0.symm⟩, rfl⟩
  obtain ⟨-, -, -, -, -, -, -, e0, e1, -⟩ := idx_facts0 t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-- THE ARRAY after the region: the band's projection of the region's input arrays. -/
theorem arr0_4 (c : Dev nD) : (dat0 (F := Ideal) V c).arrAt 4 cfg0.N = projBand 128 (by decide) (V c main_arg0) (V c main_v0) (V c main_v1) :=
  (dat0 (F := Ideal) V c).arrAt_eq_of_cover 4 _ (fun t _ => flushed0_4_eq V c t) (covered0_4)

/-! ## Output window 5: columns 256 … 383 of the projection -/

/-- WHAT POINT `t` WRITES BACK is block `t` of the band's projection of the region's input arrays. -/
theorem flushed0_5_eq (c : Dev nD) (t : Fin cfg0.N) :
    (dat0 (F := Ideal) V c).flushed 5 t = ((cfg0.win 5).blk t).view.read (Elt Ideal) (projBand 256 (by decide) (V c main_arg0) (V c main_v0) (V c main_v1)) := by
  show (cfg0.win 5).cut (grid0.coords t) ((dat0 (F := Ideal) V c).after 5 t) = _
  rw [after0_5]
  unfold out0_5
  rw [View.canon_unit_zero hz2]
  simp only [View.ld_unit_zero (S := S5000x128) hz2, View.ld_unit_zero (S := S128x384) hz2, View.ld_unit_zero (S := S384) hz1]
  obtain ⟨-, -, -, -, -, -, -, -, -, e0, e1⟩ := idx_facts0 t
  funext j
  obtain ⟨p, q, rfl⟩ : ∃ (p : Fin 5000) (q : Fin 128), j = ix2 p q := ⟨j 0, j 1, eq_ix2 j⟩
  have hlt : 5000 * t.val + p.val < 40000 := by
    have h1 : t.val < 8 := lt_of_lt_of_eq t.isLt N_0
    have h2 := p.isLt
    omega
  have hemb : ((cfg0.win 5).blk t).view.emb (ix2 p q) = ix2 (⟨5000 * t.val + p.val, hlt⟩ : Fin 40000) q := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  show k0_pay4 (iblk0 (F := Ideal) V c 0 t) (iblk0 (F := Ideal) V c 1 t) (iblk0 (F := Ideal) V c 2 t) (ix2 p q)
    = projBand 256 (by decide) (V c main_arg0) (V c main_v0) (V c main_v1) (((cfg0.win 5).blk t).view.emb (ix2 p q))
  rw [k0_pay4_apply, hemb]
  rw [projBand_apply]
  refine congrArg₂ (· + ·) (Finset.sum_congr rfl fun k _ => ?_) (iblk0_2_apply V c t _)
  exact congrArg₂ (· * ·) (iblk0_0_apply V c t p k ⟨5000 * t.val + p.val, hlt⟩ rfl) (iblk0_1_apply V c t k _)

/-- An index of the array is in point `t`'s block iff each coordinate is in the block's range on its axis. -/
theorem mem_blk0_5 (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2_2).slice (win0_5.rect t)).set ↔ _
  rw [View.set_slice_whole, Rect.mem_set_unit]
  exact Iff.rfl

/-- Every index of the array is in the block of the point its row falls in: row `r` in point `r / 5000`'s. -/
theorem covered0_5 (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 8 by omega) N_0.symm⟩, rfl⟩
  obtain ⟨-, -, -, -, -, -, -, -, -, e0, e1⟩ := idx_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- THE ARRAY after the region: the band's projection of the region's input arrays. -/
theorem arr0_5 (c : Dev nD) : (dat0 (F := Ideal) V c).arrAt 5 cfg0.N = projBand 256 (by decide) (V c main_arg0) (V c main_v0) (V c main_v1) :=
  (dat0 (F := Ideal) V c).arrAt_eq_of_cover 5 _ (fun t _ => flushed0_5_eq V c t) (covered0_5)

/-- info: 'Cert.KernelIdeal.Hand.arr0_3' depends on axioms: [propext, Classical.choice, Quot.sound] -/
#guard_msgs in #print axioms arr0_3
/-- info: 'Cert.KernelIdeal.Hand.arr0_4' depends on axioms: [propext, Classical.choice, Quot.sound] -/
#guard_msgs in #print axioms arr0_4
/-- info: 'Cert.KernelIdeal.Hand.arr0_5' depends on axioms: [propext, Classical.choice, Quot.sound] -/
#guard_msgs in #print axioms arr0_5

end Cert.KernelIdeal.Hand

end
-- ==== Proof.KI.Val1m.lean ====
/- The VALUE of REGION 1 of @main at the ideal values, for its second output array (the gated message): after the
   region it is one whole-array function of the region's input arrays — on every edge the logistic gate of the two
   gathered gate projections plus the affine map of the edge row, times the gathered source message row
   (`Cert.Graph.msgArr`). First the body's payload at an index (the [5000,128] product plus bias, the gate, the
   product with the message block); then the blocks the region reads as rows of the arrays; then what each point
   writes back as a block of that function, the cover of the array by the 128 points' blocks, and the array. -/
import proofs.«415799_j31490700214962_3_alg».proof.Proof.KI.Reg1
import proofs.«415799_j31490700214962_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Graph
open Idealize.ShloMosaic Idealize.ShloMosaic.TcCoe Idealize.ShloMosaic.ValueIdx
open Idealize.SL Idealize.SL.Sem
open Idealize.ShloMosaic.Pipeline (Dat Cfg Window)

namespace Msg

/-! ## The product's contraction, axis by axis

The [5000,128] × [128,128] product contracts the left operand's axis 1 with the right operand's axis 0: the left
index at output `(p, q)` and contraction coordinate `k` is `(p, k)`, the right one `(k, q)`. -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator at `(p, q)`: row `p` of the left operand against column `q` of the right. -/
theorem matmul_at (x : Vec Ideal S5000x128 .f32) (w : Vec Ideal S128x128 .f32) (p : Fin 5000) (q : Fin 128) :
    matmul (φ₁ := .f32) (φ₂ := .f32) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias as a [1,128] row broadcast over the 5000 rows, at `(p, q)`: the bias at `q`. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-! ## The payload at an index -/

/-- The stored block at `(p, q)`: the logistic gate of the two gate blocks plus the product plus bias, times the
    message block. -/
theorem pay_at (v0 v1 v3 v5 : Vec Ideal S5000x128 .f32) (v9 : Vec Ideal S128x128 .f32) (v11 : Vec Ideal S128 .f32)
    (p : Fin 5000) (q : Fin 128) :
    k1_pay3 v0 v1 v3 v5 v9 v11 (ix2 p q)
      = Ideal.logistic ((v1 (ix2 p q) + v3 (ix2 p q)) + ((∑ k : Fin 128, v0 (ix2 p k) * v9 (ix2 k q)) + v11 (ix1 q))) * v5 (ix2 p q) := by
  unfold k1_pay3 k1_pay2
  show mulf (logistic (addf (addf (shapeCast S5000x128 v1 shapeCasts_S5000x128_S5000x128) (shapeCast S5000x128 v3 shapeCasts_S5000x128_S5000x128))
      (addf (matmul (φ₁ := .f32) (φ₂ := .f32) dot_S5000x128_S128x128_S5000x128_1_0_0_1_n_n none v0 v9 (constant (F := Ideal) S5000x128 .f32 0x00000000#32))
        (broadcastTo S5000x128 (shapeCast S1x128 v11 shapeCasts_S128_S1x128) broadcasts_S1x128_S5000x128))))
      (shapeCast S5000x128 v5 shapeCasts_S5000x128_S5000x128) (ix2 p q) = _
  rw [mulf_apply]
  show Ideal.logistic (addf (addf (shapeCast S5000x128 v1 shapeCasts_S5000x128_S5000x128) (shapeCast S5000x128 v3 shapeCasts_S5000x128_S5000x128))
      (addf (matmul (φ₁ := .f32) (φ₂ := .f32) dot_S5000x128_S128x128_S5000x128_1_0_0_1_n_n none v0 v9 (constant (F := Ideal) S5000x128 .f32 0x00000000#32))
        (broadcastTo S5000x128 (shapeCast S1x128 v11 shapeCasts_S128_S1x128) broadcasts_S1x128_S5000x128)) (ix2 p q))
      * shapeCast S5000x128 v5 shapeCasts_S5000x128_S5000x128 (ix2 p q) = _
  rw [addf_apply, addf_apply, addf_apply, shapeCast_self, shapeCast_self, shapeCast_self, matmul_at, bias_at]

/-- The message function at row `r`, column `q`. -/
theorem msgArr_at (e hs hd sm : A2 640000 128) (w : A2 128 128) (b : A1 128) (r : Fin 640000) (q : Fin 128) :
    msgArr e hs hd sm w b (ix2 r q)
      = Ideal.logistic ((hs (ix2 r q) + hd (ix2 r q)) + ((∑ k : Fin 128, e (ix2 r k) * w (ix2 k q)) + b (ix1 q))) * sm (ix2 r q) := rfl

/-! ## The blocks the region reads

Windows 0 to 3's blocks at point `t` are rows `5000·t … 5000·t + 4999` of the edge features, the two gathered gate
projections and the gathered source message projection, all 128 columns; windows 5 and 6 are the whole gate weight and
the whole gate bias at every point; window 14's block is the same rows of the output. -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row window's block index is `(t, 0)`, the weight's and the
    bias's is zero. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = t.val ∧ win1_3.index t (1 : Fin 2) = 0 :=
  (by decide +kernel : ∀ t : Fin grid1.N, _)
theorem idx_14 : ∀ t : Fin cfg1.N, win1_14.index t (0 : Fin 2) = t.val ∧ win1_14.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 1) = 0 :=
  (by decide +kernel : ∀ t : Fin grid1.N, _)

variable (V : (c : Dev nD) → (b : Ref sig .tc) → Buf (Elt Ideal) ((c : Thread nD τ).loc b))

/-- The edge features' block at point `t`, at `(p, k)`: the array at row `5000·t + p`. -/
theorem iblk_0_at (c : Dev nD) (t : Fin cfg1.N) (p : Fin 5000) (k : Fin 128) (r : Fin 640000) (hr : r.val = 5000 * t.val + p.val) :
    (iblk1 (F := Ideal) V c 0 t : Vec Ideal S5000x128 .f32) (ix2 p k) = (V c main_arg1 : S640000x128.Idx → EReal) (ix2 r k) := by
  obtain ⟨e0, e1⟩ := idx_0 t
  unfold iblk1
  rw [View.read_apply]
  show (V c main_arg1 : S640000x128.Idx → EReal) _ = (V c main_arg1 : S640000x128.Idx → EReal) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The gathered source gate projection' block at point `t`, at `(p, k)`: the array at row `5000·t + p`. -/
theorem iblk_1_at (c : Dev nD) (t : Fin cfg1.N) (p : Fin 5000) (k : Fin 128) (r : Fin 640000) (hr : r.val = 5000 * t.val + p.val) :
    (iblk1 (F := Ideal) V c 1 t : Vec Ideal S5000x128 .f32) (ix2 p k) = (V c main_v3 : S640000x128.Idx → EReal) (ix2 r k) := by
  obtain ⟨e0, e1⟩ := idx_1 t
  unfold iblk1
  rw [View.read_apply]
  show (V c main_v3 : S640000x128.Idx → EReal) _ = (V c main_v3 : S640000x128.Idx → EReal) _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The gathered destination gate projection' block at point `t`, at `(p, k)`: the array at row `5000·t + p`. -/
theorem iblk_2_at (c : Dev nD) (t : Fin cfg1.N) (p : Fin 5000) (k : Fin 128) (r : Fin 640000) (hr : r.val = 5000 * t.val + p.val) :
    (iblk1 (F := Ideal) V c 2 t : Vec Ideal S5000x128 .f32) (ix2 p k) = (V c main_v4 : S640000x128.Idx → EReal) (ix2 r k) := by
  obtain ⟨e0, e1⟩ := idx_2 t
  unfold iblk1
  rw [View.read_apply]
  show (V c main_v4 : S640000x128.Idx → EReal) _ = (V c main_v4 : S640000x128.Idx → EReal) _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- The gathered source message projection' block at point `t`, at `(p, k)`: the array at row `5000·t + p`. -/
theorem iblk_3_at (c : Dev nD) (t : Fin cfg1.N) (p : Fin 5000) (k : Fin 128) (r : Fin 640000) (hr : r.val = 5000 * t.val + p.val) :
    (iblk1 (F := Ideal) V c 3 t : Vec Ideal S5000x128 .f32) (ix2 p k) = (V c main_v5 : S640000x128.Idx → EReal) (ix2 r k) := by
  obtain ⟨e0, e1⟩ := idx_3 t
  unfold iblk1
  rw [View.read_apply]
  show (V c main_v5 : S640000x128.Idx → EReal) _ = (V c main_v5 : S640000x128.Idx → EReal) _
  congr 1
  funext a
  apply Fin.ext
  match a with
  | ⟨0, _⟩ => show win1_3.index t (0 : Fin 2) * 5000 + 1 * p.val = r.val; rw [e0, hr]; omega
  | ⟨1, _⟩ => show win1_3.index t (1 : Fin 2) * 128 + 1 * k.val = k.val; rw [e1]; omega

/-- The gate weight's block at any point is the gate weight. -/
theorem iblk_5_at (c : Dev nD) (t : Fin cfg1.N) (k : Fin 128) (q : Fin 128) :
    (iblk1 (F := Ideal) V c 5 t : Vec Ideal S128x128 .f32) (ix2 k q) = (V c main_arg8 : S128x128.Idx → EReal) (ix2 k q) := by
  obtain ⟨e0, e1⟩ := idx_5 t
  unfold iblk1
  rw [View.read_apply]
  show (V c main_arg8 : S128x128.Idx → EReal) _ = (V c main_arg8 : S128x128.Idx → EReal) _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The gate bias's block at any point is the gate bias. -/
theorem iblk_6_at (c : Dev nD) (t : Fin cfg1.N) (q : Fin 128) :
    (iblk1 (F := Ideal) V c 6 t : Vec Ideal S128 .f32) (ix1 q) = (V c main_arg9 : S128.Idx → EReal) (ix1 q) := by
  have e0 := idx_6 t
  unfold iblk1
  rw [View.read_apply]
  show (V c main_arg9 : S128.Idx → EReal) _ = (V c main_arg9 : S128.Idx → EReal) _
  congr 1
  funext a
  apply Fin.ext
  match a with
  | ⟨0, _⟩ => show win1_6.index t (0 : Fin 1) * 128 + 1 * q.val = q.val; rw [e0]; omega

/-! ## Output window 14: the gated message -/

/-- WHAT POINT `t` WRITES BACK is block `t` of the message function of the region's input arrays. -/
theorem flushed_eq (c : Dev nD) (t : Fin cfg1.N) :
    (dat1 (F := Ideal) V c).flushed 14 t = ((cfg1.win 14).blk t).view.read (Elt Ideal)
      (msgArr (V c main_arg1) (V c main_v3) (V c main_v4) (V c main_v5) (V c main_arg8) (V c main_arg9)) := by
  show (cfg1.win 14).cut (grid1.coords t) ((dat1 (F := Ideal) V c).after 14 t) = _
  rw [after1_14]
  unfold out1_14
  rw [View.canon_unit_zero hz2]
  simp only [View.ld_unit_zero (S := S5000x128) hz2, View.ld_unit_zero (S := S128x128) hz2, View.ld_unit_zero (S := S128) hz1]
  obtain ⟨e0, e1⟩ := idx_14 t
  funext j
  obtain ⟨p, q, rfl⟩ : ∃ (p : Fin 5000) (q : Fin 128), j = ix2 p q := ⟨j 0, j 1, eq_ix2 j⟩
  have hlt : 5000 * t.val + p.val < 640000 := by
    have h1 : t.val < 128 := lt_of_lt_of_eq t.isLt N_1
    have h2 := p.isLt
    omega
  have hemb : ((cfg1.win 14).blk t).view.emb (ix2 p q) = ix2 (⟨5000 * t.val + p.val, hlt⟩ : Fin 640000) q := by
    funext a
    apply Fin.ext
    match a with
    | ⟨0, _⟩ => show win1_14.index t (0 : Fin 2) * 5000 + 1 * p.val = 5000 * t.val + p.val; rw [e0]; omega
    | ⟨1, _⟩ => show win1_14.index t (1 : Fin 2) * 128 + 1 * q.val = q.val; rw [e1]; omega
  show k1_pay3 (iblk1 (F := Ideal) V c 0 t) (iblk1 (F := Ideal) V c 1 t) (iblk1 (F := Ideal) V c 2 t) (iblk1 (F := Ideal) V c 3 t)
      (iblk1 (F := Ideal) V c 5 t) (iblk1 (F := Ideal) V c 6 t) (ix2 p q)
    = msgArr (V c main_arg1) (V c main_v3) (V c main_v4) (V c main_v5) (V c main_arg8) (V c main_arg9)
        (((cfg1.win 14).blk t).view.emb (ix2 p q))
  rw [pay_at, hemb, msgArr_at]
  refine congrArg₂ (· * ·) (congrArg Ideal.logistic (congrArg₂ (· + ·)
      (congrArg₂ (· + ·) (iblk_1_at V c t p q ⟨5000 * t.val + p.val, hlt⟩ rfl) (iblk_2_at V c t p q ⟨5000 * t.val + p.val, hlt⟩ rfl))
      (congrArg₂ (· + ·) (Finset.sum_congr rfl fun k _ => ?_) (iblk_6_at V c t q))))
    (iblk_3_at V c t p q ⟨5000 * t.val + p.val, hlt⟩ rfl)
  exact congrArg₂ (· * ·) (iblk_0_at V c t p k ⟨5000 * t.val + p.val, hlt⟩ rfl) (iblk_5_at V c t k q)

/-- An index of the array is in point `t`'s block iff each coordinate is in the block's range on its axis. -/
theorem mem_blk (t : Fin cfg1.N) (i : S640000x128.Idx) :
    i ∈ ((cfg1.win 14).blk t).view.set ↔ ∀ a : Fin 2, win1_14.index t a * S5000x128.size a ≤ (i a).val ∧ (i a).val < win1_14.index t a * S5000x128.size a + S5000x128.size a := by
  show i ∈ ((View.whole main_v7_1).slice (win1_14.rect t)).set ↔ _
  rw [View.set_slice_whole, Rect.mem_set_unit]
  exact Iff.rfl

/-- Every index of the array is in the block of the point its row falls in: row `r` in point `r / 5000`'s. -/
theorem covered (i : S640000x128.Idx) : ∃ t : Fin cfg1.N, (cfg1.win 14).flush t = true ∧ i ∈ ((cfg1.win 14).blk t).view.set := by
  have hi0 : (i 0).val < 640000 := (i 0).isLt
  have hi1 : (i 1).val < 128 := (i 1).isLt
  obtain ⟨t, ht⟩ : ∃ t : Fin cfg1.N, t.val = (i 0).val / 5000 :=
    ⟨⟨(i 0).val / 5000, lt_of_lt_of_eq (show (i 0).val / 5000 < 128 by omega) N_1.symm⟩, rfl⟩
  obtain ⟨e0, e1⟩ := idx_14 t
  refine ⟨t, flush1_14 t, ?_⟩
  rw [mem_blk]
  intro a
  match a with
  | ⟨0, _⟩ => show win1_14.index t (0 : Fin 2) * 5000 ≤ (i 0).val ∧ (i 0).val < win1_14.index t (0 : Fin 2) * 5000 + 5000; rw [e0, ht]; omega
  | ⟨1, _⟩ => show win1_14.index t (1 : Fin 2) * 128 ≤ (i 1).val ∧ (i 1).val < win1_14.index t (1 : Fin 2) * 128 + 128; rw [e1]; omega

end Msg

/-- THE ARRAY after the region: the message function of the region's input arrays. -/
theorem arr1_14 (V : (c : Dev nD) → (b : Ref sig .tc) → Buf (Elt Ideal) ((c : Thread nD τ).loc b)) (c : Dev nD) :
    (dat1 (F := Ideal) V c).arrAt 14 cfg1.N
      = msgArr (V c main_arg1) (V c main_v3) (V c main_v4) (V c main_v5) (V c main_arg8) (V c main_arg9) :=
  (dat1 (F := Ideal) V c).arrAt_eq_of_cover 14 _ (fun t _ => Msg.flushed_eq V c t) (Msg.covered)

/-- info: 'Cert.KernelIdeal.Hand.arr1_14' depends on axioms: [propext, Classical.choice, Quot.sound] -/
#guard_msgs in #print axioms arr1_14

end Cert.KernelIdeal.Hand

end
-- ==== Proof.KI.Val1e.lean ====
/- The VALUE of REGION 1's first output at the ideal values: the array of updated edge rows after the region is one
   whole-array function of the region's input arrays — for every edge row, the residual two-layer perceptron (with the
   `x · logistic x` nonlinearity) of the row joined with its two gathered message rows, added to the row and
   normalised over its 128 entries with a gain and a shift (`Cert.Graph.edgeArr`). First the body's payload at an
   index (the two products, the three rows side by side, the lane sums, the row and column broadcasts); then the blocks
   the region reads as rows of the arrays; then what each point writes back as a block of `edgeArr`, the cover of the
   array by the 128 points' blocks, and the array. -/
import proofs.«415799_j31490700214962_3_alg».proof.Proof.KI.Reg1
import proofs.«415799_j31490700214962_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Graph
open Idealize.ShloMosaic Idealize.ShloMosaic.TcCoe Idealize.ShloMosaic.ValueIdx
open Idealize.SL Idealize.SL.Sem
open Idealize.ShloMosaic.Pipeline (Dat Cfg Window)

namespace Edge

/-! ## The two products' contractions, axis by axis

Both contract the left operand's axis 1 with the right operand's axis 0: the left index at output `(p, q)` and
contraction coordinate `k` is `(p, k)`, the right one `(k, q)`. -/

theorem lhs_mlp1_0 (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
theorem lhs_mlp1_1 (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q
theorem rhs_mlp1_0 (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q
theorem rhs_mlp1_1 (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- The first layer's product into the zero accumulator at `(p, q)`: row `p` of the 384-wide input against column `q` of the weight. -/
theorem mlp1_matmul_apply (x : FVec Ideal S5000x384 .f32) (w : FVec Ideal S384x128 .f32) (p : Fin 5000) (q : Fin 128) :
    matmul (φ₁ := .f32) (φ₂ := .f32) dot_S5000x384_S384x128_S5000x128_1_0_0_1_n_n none x w (constant (F := Ideal) S5000x128 .f32 0x00000000#32) (ix2 p q)
      = ∑ k : Fin 384, x (ix2 p k) * w (ix2 k q) := by
  simp only [matmul]
  rw [Ideal.matmul_constant_zero_apply, ← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx (ix2 p q) ((ValueIdx.contrEquiv1 dot_S5000x384_S384x128_S5000x128_1_0_0_1_n_n 384 rfl rfl).symm k) = ix2 p k := funext fun a => Fin.ext (by
    match a with
    | ⟨0, _⟩ => exact lhs_mlp1_0 _ _
    | ⟨1, _⟩ => exact (lhs_mlp1_1 _ _).trans hk)
  have er : dot_S5000x384_S384x128_S5000x128_1_0_0_1_n_n.rhsIdx (ix2 p q) ((ValueIdx.contrEquiv1 dot_S5000x384_S384x128_S5000x128_1_0_0_1_n_n 384 rfl rfl).symm k) = ix2 k q := funext fun a => Fin.ext (by
    match a with
    | ⟨0, _⟩ => exact (rhs_mlp1_0 _ _).trans hk
    | ⟨1, _⟩ => exact rhs_mlp1_1 _ _)
  rw [el, er]

theorem lhs_mlp2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mlp2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mlp2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mlp2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second layer's product into the zero accumulator at `(p, q)`. -/
theorem mlp2_matmul_apply (x : FVec Ideal S5000x128 .f32) (w : FVec Ideal S128x128 .f32) (p : Fin 5000) (q : Fin 128) :
    matmul (φ₁ := .f32) (φ₂ := .f32) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mlp2_0 _ _
    | ⟨1, _⟩ => exact (lhs_mlp2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mlp2_0 _ _).trans hk
    | ⟨1, _⟩ => exact rhs_mlp2_1 _ _)
  rw [el, er]

/-! ## Layout operations at an index -/

section Layout
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 128-vector as a `[1,128]` row broadcast over the 5000 rows, at `(p, q)`: the vector at `q`. -/
theorem rowvec_apply (b : (⟨1, ![128]⟩ : Shape).Idx → α) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- Three `[5000,128]` arrays joined along the columns, at `(p, m)`: the three rows `p` side by side. -/
theorem concat3_apply (a b d : S5000x128.Idx → EReal) (p : Fin 5000) (m : Fin 384) :
    concatenate S5000x384 1 [⟨S5000x128, a⟩, ⟨S5000x128, b⟩, ⟨S5000x128, d⟩] concatenates_S5000x128_S5000x128_S5000x128_S5000x384_d1 (ix2 p m)
      = cat3 (fun k => a (ix2 p k)) (fun k => b (ix2 p k)) (fun k => d (ix2 p k)) m := by
  unfold cat3
  by_cases h1 : m.val < 128
  · rw [dif_pos h1]
    exact concatenate_apply_piece 1 _ _ (ix2 p m) 0 (by show (0 : ℕ) < 3; omega) S5000x128 a rfl rfl 0 rfl (ix2 p ⟨m.val, h1⟩)
      (fun ax => match ax with | ⟨0, _⟩ => fun _ => rfl | ⟨1, _⟩ => fun hb => absurd rfl hb) (by show 0 + m.val = m.val; omega)
  · rw [dif_neg h1]
    by_cases h2 : m.val < 256
    · rw [dif_pos h2]
      exact concatenate_apply_piece 1 _ _ (ix2 p m) 1 (by show (1 : ℕ) < 3; omega) S5000x128 b rfl rfl 128 rfl (ix2 p ⟨m.val - 128, by omega⟩)
        (fun ax => match ax with | ⟨0, _⟩ => fun _ => rfl | ⟨1, _⟩ => fun hb => absurd rfl hb) (by show 128 + (m.val - 128) = m.val; omega)
    · rw [dif_neg h2]
      exact concatenate_apply_piece 1 _ _ (ix2 p m) 2 (by show (2 : ℕ) < 3; omega) S5000x128 d rfl rfl 256 rfl (ix2 p ⟨m.val - 256, by omega⟩)
        (fun ax => match ax with | ⟨0, _⟩ => fun _ => rfl | ⟨1, _⟩ => fun hb => absurd rfl hb) (by show 256 + (m.val - 256) = m.val; omega)

end Layout

/-- The sum over the 128 lanes of row `p`. -/
theorem lane_sum_apply (x : FVec Ideal S5000x128 .f32) (hφ : FKind.Formats .f32) (hacc : (0x00000000#32 : BitVec 32) = 0x00000000#32) (p : Fin 5000) :
    multiReduction .add [1] S5000 x 0x00000000#32 reduces_S5000x128_S5000 hφ hacc (ix1 p) = ∑ k : Fin 128, x (ix2 p k) := by
  refine (Ideal.multiReduction_add_single x 0x00000000#32 reduces_S5000x128_S5000 hφ hacc (ix1 p)).trans ?_
  refine Finset.sum_congr rfl fun k _ => congrArg x ?_
  funext ax
  apply Fin.ext
  match ax with
  | ⟨0, _⟩ => rfl
  | ⟨1, _⟩ => rfl

/-- The logistic function and the reciprocal square root act element by element. -/
theorem logistic_apply {s : Shape} (v : FVec Ideal s .f32) (i : s.Idx) : logistic v i = Ideal.logistic (v i) := rfl
theorem rsqrt_apply {s : Shape} (v : FVec Ideal s .f32) (i : s.Idx) : rsqrt v i = Ideal.rsqrt (v i) := rfl

/-! ## The payload at an index -/

/-- The second layer's product at `(p, q)`: over the hidden row `x · logistic x` of the first layer's affine map of the
    three rows side by side. -/
theorem k1_pay4_apply (x0 x3 x4 : Vec Ideal S5000x128 .f32) (x7 : Vec Ideal S384x128 .f32) (x8 : Vec Ideal S128 .f32)
    (x9 : Vec Ideal S128x128 .f32) (p : Fin 5000) (q : Fin 128) :
    k1_pay4 x0 x3 x4 x7 x8 x9 (ix2 p q)
      = ∑ k : Fin 128, silu (aff (cat3 (fun j => x0 (ix2 p j)) (fun j => x3 (ix2 p j)) (fun j => x4 (ix2 p j)))
          (fun a b => x7 (ix2 a b)) (fun j => x8 (ix1 j)) k) * x9 (ix2 k q) := by
  unfold k1_pay4 k1_pay2
  simp only [shapeCast_self]
  rw [mlp2_matmul_apply]
  refine Finset.sum_congr rfl fun k _ => ?_
  rw [mulf_apply, logistic_apply, addf_apply, mlp1_matmul_apply, rowvec_apply]
  simp only [concat3_apply]
  simp only [shapeCast_self]
  rfl

/-- The second layer's bias at `(p, q)`. -/
theorem k1_pay5_apply (x10 : Vec Ideal S128 .f32) (p : Fin 5000) (q : Fin 128) : k1_pay5 x10 (ix2 p q) = x10 (ix1 q) := by
  unfold k1_pay5
  exact rowvec_apply x10 p q

/-- The stored value at `(p, q)`: the layer normalisation of row `p` of `x + (y + z)`, with gain and shift. -/
theorem k1_pay1_apply (x y z : FVec Ideal S5000x128 .f32) (g bt : Vec Ideal S128 .f32) (p : Fin 5000) (q : Fin 128) :
    k1_pay1 x y z g bt (ix2 p q)
      = lnorm (fun j => x (ix2 p j) + (y (ix2 p j) + z (ix2 p j))) (fun j => g (ix1 j)) (fun j => bt (ix1 j)) q := by
  unfold k1_pay1
  simp only [addf_apply, subf_apply, mulf_apply, divf_apply, broadcast_apply, rowvec_apply, broadcastTo_a1_ab_apply,
    shapeCast_a_a1_apply, rsqrt_apply]
  rw [lane_sum_apply, lane_sum_apply]
  simp only [addf_apply, subf_apply, mulf_apply, divf_apply, broadcast_apply, broadcastTo_a1_ab_apply, shapeCast_a_a1_apply]
  rw [lane_sum_apply]
  simp only [addf_apply]
  rfl

/-- The whole body's stored value at `(p, q)`: the residual perceptron and normalisation of row `p`. -/
theorem edge_pay_apply (x0 x3 x4 : Vec Ideal S5000x128 .f32) (x7 : Vec Ideal S384x128 .f32) (x8 : Vec Ideal S128 .f32)
    (x9 : Vec Ideal S128x128 .f32) (x10 x11 x12 : Vec Ideal S128 .f32) (p : Fin 5000) (q : Fin 128) :
    k1_pay1 x0 (k1_pay4 x0 x3 x4 x7 x8 x9) (k1_pay5 x10) x11 x12 (ix2 p q)
      = mlpNorm (fun j => x0 (ix2 p j)) (cat3 (fun j => x0 (ix2 p j)) (fun j => x3 (ix2 p j)) (fun j => x4 (ix2 p j)))
          (fun a b => x7 (ix2 a b)) (fun j => x8 (ix1 j)) (fun a b => x9 (ix2 a b)) (fun j => x10 (ix1 j))
          (fun j => x11 (ix1 j)) (fun j => x12 (ix1 j)) q := by
  rw [k1_pay1_apply]
  unfold mlpNorm
  refine congrArg (fun f => lnorm f (fun j => x11 (ix1 j)) (fun j => x12 (ix1 j)) q) (funext fun j => ?_)
  rw [k1_pay4_apply, k1_pay5_apply]
  rfl

/-! ## The blocks the region reads

The row windows' block at point `t` is rows `5000·t … 5000·t + 4999` of their arrays, all 128 columns; the weights,
biases, gain and shift are whole at every point. The printed index maps, decided over the grid: -/

theorem hz2 : (![0, 0] : Fin 2 → Nat) = fun _ => 0 := funext fun a => by fin_cases a <;> rfl
theorem hz1 : (![0] : Fin 1 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 1) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 1) = 0 :=
  (by decide +kernel : ∀ t : Fin grid1.N, _)
theorem idx1_11 : ∀ t : Fin cfg1.N, win1_11.index t (0 : Fin 1) = 0 :=
  (by decide +kernel : ∀ t : Fin grid1.N, _)
theorem idx1_12 : ∀ t : Fin cfg1.N, win1_12.index t (0 : Fin 1) = 0 :=
  (by decide +kernel : ∀ t : Fin grid1.N, _)
theorem idx1_13 : ∀ t : Fin cfg1.N, win1_13.index t (0 : Fin 2) = t.val ∧ win1_13.index t (1 : Fin 2) = 0 :=
  (by decide +kernel : ∀ t : Fin grid1.N, _)

variable (V : (c : Dev nD) → (b : Ref sig .tc) → Buf (Elt Ideal) ((c : Thread nD τ).loc b))

/-! Row `p` of a row window's block at point `t` is row `5000·t + p` of its array. -/

theorem iblk1_0_row (c : Dev nD) (t : Fin cfg1.N) (p : Fin 5000) (r : Fin 640000) (hr : r.val = 5000 * t.val + p.val) :
    (fun j : Fin 128 => (iblk1 (F := Ideal) V c 0 t : Vec Ideal S5000x128 .f32) (ix2 p j)) = row (V c main_arg1 : A2 640000 128) r := by
  obtain ⟨e0, e1⟩ := idx1_0 t
  funext j
  unfold iblk1 row
  rw [View.read_apply]
  show (V c main_arg1 : S640000x128.Idx → EReal) _ = (V c main_arg1 : S640000x128.Idx → EReal) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

theorem iblk1_3_row (c : Dev nD) (t : Fin cfg1.N) (p : Fin 5000) (r : Fin 640000) (hr : r.val = 5000 * t.val + p.val) :
    (fun j : Fin 128 => (iblk1 (F := Ideal) V c 3 t : Vec Ideal S5000x128 .f32) (ix2 p j)) = row (V c main_v5 : A2 640000 128) r := by
  obtain ⟨e0, e1⟩ := idx1_3 t
  funext j
  unfold iblk1 row
  rw [View.read_apply]
  show (V c main_v5 : S640000x128.Idx → EReal) _ = (V c main_v5 : S640000x128.Idx → EReal) _
  congr 1
  funext a
  apply Fin.ext
  match a with
  | ⟨0, _⟩ => show win1_3.index t (0 : Fin 2) * 5000 + 1 * p.val = r.val; rw [e0, hr]; omega
  | ⟨1, _⟩ => show win1_3.index t (1 : Fin 2) * 128 + 1 * j.val = j.val; rw [e1]; omega

theorem iblk1_4_row (c : Dev nD) (t : Fin cfg1.N) (p : Fin 5000) (r : Fin 640000) (hr : r.val = 5000 * t.val + p.val) :
    (fun j : Fin 128 => (iblk1 (F := Ideal) V c 4 t : Vec Ideal S5000x128 .f32) (ix2 p j)) = row (V c main_v6 : A2 640000 128) r := by
  obtain ⟨e0, e1⟩ := idx1_4 t
  funext j
  unfold iblk1 row
  rw [View.read_apply]
  show (V c main_v6 : S640000x128.Idx → EReal) _ = (V c main_v6 : S640000x128.Idx → EReal) _
  congr 1
  funext a
  apply Fin.ext
  match a with
  | ⟨0, _⟩ => show win1_4.index t (0 : Fin 2) * 5000 + 1 * p.val = r.val; rw [e0, hr]; omega
  | ⟨1, _⟩ => show win1_4.index t (1 : Fin 2) * 128 + 1 * j.val = j.val; rw [e1]; omega

/-! The weights', biases', gain's and shift's blocks at any point are the arrays. -/

theorem iblk1_7_mat (c : Dev nD) (t : Fin cfg1.N) :
    (fun (a : Fin 384) (b : Fin 128) => (iblk1 (F := Ideal) V c 7 t : Vec Ideal S384x128 .f32) (ix2 a b)) = mat (V c main_arg16 : A2 384 128) := by
  obtain ⟨e0, e1⟩ := idx1_7 t
  funext a b
  unfold iblk1 mat
  rw [View.read_apply]
  show (V c main_arg16 : S384x128.Idx → EReal) _ = (V c main_arg16 : S384x128.Idx → EReal) _
  congr 1
  funext ax
  apply Fin.ext
  match ax with
  | ⟨0, _⟩ => show win1_7.index t (0 : Fin 2) * 384 + 1 * a.val = a.val; rw [e0]; omega
  | ⟨1, _⟩ => show win1_7.index t (1 : Fin 2) * 128 + 1 * b.val = b.val; rw [e1]; omega

theorem iblk1_8_vec (c : Dev nD) (t : Fin cfg1.N) :
    (fun j : Fin 128 => (iblk1 (F := Ideal) V c 8 t : Vec Ideal S128 .f32) (ix1 j)) = vec (V c main_arg17 : A1 128) := by
  have e0 := idx1_8 t
  funext j
  unfold iblk1 vec
  rw [View.read_apply]
  show (V c main_arg17 : S128.Idx → EReal) _ = (V c main_arg17 : S128.Idx → EReal) _
  congr 1
  funext ax
  apply Fin.ext
  match ax with
  | ⟨0, _⟩ => show win1_8.index t (0 : Fin 1) * 128 + 1 * j.val = j.val; rw [e0]; omega

theorem iblk1_9_mat (c : Dev nD) (t : Fin cfg1.N) :
    (fun (a : Fin 128) (b : Fin 128) => (iblk1 (F := Ideal) V c 9 t : Vec Ideal S128x128 .f32) (ix2 a b)) = mat (V c main_arg18 : A2 128 128) := by
  obtain ⟨e0, e1⟩ := idx1_9 t
  funext a b
  unfold iblk1 mat
  rw [View.read_apply]
  show (V c main_arg18 : S128x128.Idx → EReal) _ = (V c main_arg18 : S128x128.Idx → EReal) _
  congr 1
  funext ax
  apply Fin.ext
  match ax with
  | ⟨0, _⟩ => show win1_9.index t (0 : Fin 2) * 128 + 1 * a.val = a.val; rw [e0]; omega
  | ⟨1, _⟩ => show win1_9.index t (1 : Fin 2) * 128 + 1 * b.val = b.val; rw [e1]; omega

theorem iblk1_10_vec (c : Dev nD) (t : Fin cfg1.N) :
    (fun j : Fin 128 => (iblk1 (F := Ideal) V c 10 t : Vec Ideal S128 .f32) (ix1 j)) = vec (V c main_arg19 : A1 128) := by
  have e0 := idx1_10 t
  funext j
  unfold iblk1 vec
  rw [View.read_apply]
  show (V c main_arg19 : S128.Idx → EReal) _ = (V c main_arg19 : S128.Idx → EReal) _
  congr 1
  funext ax
  apply Fin.ext
  match ax with
  | ⟨0, _⟩ => show win1_10.index t (0 : Fin 1) * 128 + 1 * j.val = j.val; rw [e0]; omega

theorem iblk1_11_vec (c : Dev nD) (t : Fin cfg1.N) :
    (fun j : Fin 128 => (iblk1 (F := Ideal) V c 11 t : Vec Ideal S128 .f32) (ix1 j)) = vec (V c main_arg22 : A1 128) := by
  have e0 := idx1_11 t
  funext j
  unfold iblk1 vec
  rw [View.read_apply]
  show (V c main_arg22 : S128.Idx → EReal) _ = (V c main_arg22 : S128.Idx → EReal) _
  congr 1
  funext ax
  apply Fin.ext
  match ax with
  | ⟨0, _⟩ => show win1_11.index t (0 : Fin 1) * 128 + 1 * j.val = j.val; rw [e0]; omega

theorem iblk1_12_vec (c : Dev nD) (t : Fin cfg1.N) :
    (fun j : Fin 128 => (iblk1 (F := Ideal) V c 12 t : Vec Ideal S128 .f32) (ix1 j)) = vec (V c main_arg23 : A1 128) := by
  have e0 := idx1_12 t
  funext j
  unfold iblk1 vec
  rw [View.read_apply]
  show (V c main_arg23 : S128.Idx → EReal) _ = (V c main_arg23 : S128.Idx → EReal) _
  congr 1
  funext ax
  apply Fin.ext
  match ax with
  | ⟨0, _⟩ => show win1_12.index t (0 : Fin 1) * 128 + 1 * j.val = j.val; rw [e0]; omega

/-! ## Output window 13: the updated edge rows -/

/-- The updated edge rows at row `r`, column `q`. -/
theorem edgeArr_apply (e sm dm : A2 640000 128) (w1 : A2 384 128) (b1 : A1 128) (w2 : A2 128 128) (b2 g bt : A1 128)
    (r : Fin 640000) (q : Fin 128) :
    edgeArr e sm dm w1 b1 w2 b2 g bt (ix2 r q)
      = mlpNorm (row e r) (cat3 (row e r) (row sm r) (row dm r)) (mat w1) (vec b1) (mat w2) (vec b2) (vec g) (vec bt) q := rfl

/-- WHAT POINT `t` WRITES BACK is block `t` of the updated edge rows of the region's input arrays. -/
theorem flushed1_13_eq (c : Dev nD) (t : Fin cfg1.N) :
    (dat1 (F := Ideal) V c).flushed 13 t = ((cfg1.win 13).blk t).view.read (Elt Ideal)
      (edgeArr (V c main_arg1) (V c main_v5) (V c main_v6) (V c main_arg16) (V c main_arg17) (V c main_arg18) (V c main_arg19) (V c main_arg22) (V c main_arg23)) := by
  show (cfg1.win 13).cut (grid1.coords t) ((dat1 (F := Ideal) V c).after 13 t) = _
  rw [after1_13]
  unfold out1_13
  rw [View.canon_unit_zero hz2]
  simp only [View.ld_unit_zero (S := S5000x128) hz2, View.ld_unit_zero (S := S384x128) hz2, View.ld_unit_zero (S := S128x128) hz2,
    View.ld_unit_zero (S := S128) hz1]
  obtain ⟨e0, e1⟩ := idx1_13 t
  funext j
  obtain ⟨p, q, rfl⟩ : ∃ (p : Fin 5000) (q : Fin 128), j = ix2 p q := ⟨j 0, j 1, eq_ix2 j⟩
  have hlt : 5000 * t.val + p.val < 640000 := by
    have h1 : t.val < 128 := lt_of_lt_of_eq t.isLt N_1
    have h2 := p.isLt
    omega
  have hemb : ((cfg1.win 13).blk t).view.emb (ix2 p q) = ix2 (⟨5000 * t.val + p.val, hlt⟩ : Fin 640000) q := by
    funext a
    apply Fin.ext
    match a with
    | ⟨0, _⟩ => show win1_13.index t (0 : Fin 2) * 5000 + 1 * p.val = 5000 * t.val + p.val; rw [e0]; omega
    | ⟨1, _⟩ => show win1_13.index t (1 : Fin 2) * 128 + 1 * q.val = q.val; rw [e1]; omega
  show k1_pay1 (iblk1 (F := Ideal) V c 0 t)
      (k1_pay4 (iblk1 (F := Ideal) V c 0 t) (iblk1 (F := Ideal) V c 3 t) (iblk1 (F := Ideal) V c 4 t) (iblk1 (F := Ideal) V c 7 t)
        (iblk1 (F := Ideal) V c 8 t) (iblk1 (F := Ideal) V c 9 t))
      (k1_pay5 (iblk1 (F := Ideal) V c 10 t)) (iblk1 (F := Ideal) V c 11 t) (iblk1 (F := Ideal) V c 12 t) (ix2 p q)
    = edgeArr (V c main_arg1) (V c main_v5) (V c main_v6) (V c main_arg16) (V c main_arg17) (V c main_arg18) (V c main_arg19)
        (V c main_arg22) (V c main_arg23) (((cfg1.win 13).blk t).view.emb (ix2 p q))
  rw [edge_pay_apply, hemb, edgeArr_apply,
    iblk1_0_row V c t p ⟨5000 * t.val + p.val, hlt⟩ rfl, iblk1_3_row V c t p ⟨5000 * t.val + p.val, hlt⟩ rfl,
    iblk1_4_row V c t p ⟨5000 * t.val + p.val, hlt⟩ rfl, iblk1_7_mat V c t, iblk1_8_vec V c t, iblk1_9_mat V c t,
    iblk1_10_vec V c t, iblk1_11_vec V c t, iblk1_12_vec V c t]

/-- An index of the array is in point `t`'s block iff each coordinate is in the block's range on its axis. -/
theorem mem_blk1_13 (t : Fin cfg1.N) (i : S640000x128.Idx) :
    i ∈ ((cfg1.win 13).blk t).view.set ↔ ∀ a : Fin 2, win1_13.index t a * S5000x128.size a ≤ (i a).val ∧ (i a).val < win1_13.index t a * S5000x128.size a + S5000x128.size a := by
  show i ∈ ((View.whole main_v7_0).slice (win1_13.rect t)).set ↔ _
  rw [View.set_slice_whole, Rect.mem_set_unit]
  exact Iff.rfl

/-- Every index of the array is in the block of the point its row falls in: row `r` in point `r / 5000`'s. -/
theorem covered1_13 (i : S640000x128.Idx) : ∃ t : Fin cfg1.N, (cfg1.win 13).flush t = true ∧ i ∈ ((cfg1.win 13).blk t).view.set := by
  have hi0 : (i 0).val < 640000 := (i 0).isLt
  have hi1 : (i 1).val < 128 := (i 1).isLt
  obtain ⟨t, ht⟩ : ∃ t : Fin cfg1.N, t.val = (i 0).val / 5000 :=
    ⟨⟨(i 0).val / 5000, lt_of_lt_of_eq (show (i 0).val / 5000 < 128 by omega) N_1.symm⟩, rfl⟩
  obtain ⟨e0, e1⟩ := idx1_13 t
  refine ⟨t, flush1_13 t, ?_⟩
  rw [mem_blk1_13]
  intro a
  match a with
  | ⟨0, _⟩ => show win1_13.index t (0 : Fin 2) * 5000 ≤ (i 0).val ∧ (i 0).val < win1_13.index t (0 : Fin 2) * 5000 + 5000; rw [e0, ht]; omega
  | ⟨1, _⟩ => show win1_13.index t (1 : Fin 2) * 128 ≤ (i 1).val ∧ (i 1).val < win1_13.index t (1 : Fin 2) * 128 + 128; rw [e1]; omega

end Edge

open Edge in
/-- THE ARRAY after the region: the updated edge rows of the region's input arrays. -/
theorem arr1_13 (V : (c : Dev nD) → (b : Ref sig .tc) → Buf (Elt Ideal) ((c : Thread nD τ).loc b)) (c : Dev nD) :
    (dat1 (F := Ideal) V c).arrAt 13 cfg1.N
      = edgeArr (V c main_arg1) (V c main_v5) (V c main_v6) (V c main_arg16) (V c main_arg17) (V c main_arg18) (V c main_arg19) (V c main_arg22) (V c main_arg23) :=
  (dat1 (F := Ideal) V c).arrAt_eq_of_cover 13 _ (fun t _ => flushed1_13_eq V c t) (covered1_13)

/-- info: 'Cert.KernelIdeal.Hand.arr1_13' depends on axioms: [propext, Classical.choice, Quot.sound] -/
#guard_msgs in #print axioms arr1_13

end Cert.KernelIdeal.Hand

end
-- ==== Proof.KI.Val2.lean ====
/- The value of region 2 of @main (the node update) on the extended reals: the output array after the region is
   `Cert.Graph.nodeArr` of the region's input arrays. First the body's payload at an index, one small lemma per
   operation that is not pointwise (the side-by-side join of the two row blocks, the two matrix products, the bias
   rows, the lane sums kept as a column, a column spread over the lanes); then each input block read where the output
   block's rectangle says; then the blocks of the eight grid points tile the array. -/
import proofs.«415799_j31490700214962_3_alg».proof.Proof.KI.Reg2
import proofs.«415799_j31490700214962_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Graph
open Idealize.ShloMosaic Idealize.ShloMosaic.TcCoe Idealize.ShloMosaic.ValueIdx Idealize.SL.Sem
open Idealize.ShloMosaic.Pipeline (Dat)
open scoped BigOperators

/-! ## The operations that are not pointwise, read at an index -/

/-- A vector of 128 entries as one row, spread over the 5000 rows: at `(p, q)` its entry `q`. -/
theorem rowSpread_apply {α : Type} (v : S128.Idx → α) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 (0 : Fin 1) q)

/-- A vector of 5000 entries kept as a column: at `(p, u)` its entry `p`. -/
theorem asColumn_apply {α : Type} (v : S5000.Idx → α) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    omega)

/-- A column spread over the 128 lanes: at `(p, q)` the column's entry `p`. -/
theorem colSpread_apply {α : Type} (v : S5000x1.Idx → α) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- The sum over the 128 lanes of a row block, at row `p`. -/
theorem laneSum_apply (v : FVec Ideal S5000x128 .f32) (hφ : FKind.Formats .f32)
    (hacc : (0x00000000#32 : BitVec 32) = 0x00000000#32) (p : Fin 5000) :
    multiReduction (F := Ideal) .add [1] S5000 v 0x00000000#32 reduces_S5000x128_S5000 hφ hacc (ix1 p)
      = ∑ k : Fin 128, v (ix2 p k) :=
  (Ideal.multiReduction_add_single v 0x00000000#32 reduces_S5000x128_S5000 hφ hacc (ix1 p)).trans
    (Finset.sum_congr rfl fun k _ => congrArg v (funext fun a => match a with
      | ⟨0, _⟩ => rfl
      | ⟨1, _⟩ => rfl))

/-- Two row blocks side by side, at `(p, k)`: the two rows `p` side by side, at `k`. -/
theorem sideBySide_apply (x0 x1 : FVec Ideal S5000x128 .f32) (p : Fin 5000) (k : Fin 256) :
    concatenate S5000x256 1 [⟨S5000x128, x0⟩, ⟨S5000x128, shapeCast S5000x128 x1 shapeCasts_S5000x128_S5000x128⟩]
        concatenates_S5000x128_S5000x128_S5000x256_d1 (ix2 p k)
      = cat2 (row x0 p) (row x1 p) k := by
  rw [shapeCast_self]
  unfold cat2
  split
  · next h =>
    exact concatenate_pair_apply_left (1 : Fin S5000x256.rank) x0 x1 concatenates_S5000x128_S5000x128_S5000x256_d1 (ix2 p k) rfl
      (ix2 p ⟨k.val, h⟩) (fun b => match b with
        | ⟨0, _⟩ => rfl
        | ⟨1, _⟩ => rfl)
  · next h =>
    exact concatenate_pair_apply_right (1 : Fin S5000x256.rank) x0 x1 concatenates_S5000x128_S5000x128_S5000x256_d1 (ix2 p k) rfl rfl
      (ix2 p ⟨k.val - 128, by omega⟩) (fun b hb => match b, hb with
        | ⟨0, _⟩, _ => rfl
        | ⟨1, _⟩, hb => absurd rfl hb)
      (by show (k.val - 128) + 128 = k.val; omega)

/-! ### The two matrix products -/

theorem lhs_mm1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mm1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mm1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mm1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product (256 terms), into the zero accumulator, at `(p, j)`. -/
theorem mm1_apply (a : FVec Ideal S5000x256 .f32) (w : FVec Ideal S256x128 .f32) (p : Fin 5000) (j : Fin 128) :
    matmul dot_S5000x256_S256x128_S5000x128_1_0_0_1_n_n none a w (constant S5000x128 .f32 0x00000000#32) (ix2 p j)
      = ∑ k : Fin 256, a (ix2 p k) * w (ix2 k j) := by
  refine (Ideal.matmul_constant_zero_apply dot_S5000x256_S256x128_S5000x128_1_0_0_1_n_n none a w (ix2 p j)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p j) ((ValueIdx.contrEquiv1 dot_S5000x256_S256x128_S5000x128_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S5000x256_S256x128_S5000x128_1_0_0_1_n_n.rhsIdx (ix2 p j) ((ValueIdx.contrEquiv1 dot_S5000x256_S256x128_S5000x128_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product (128 terms), into the zero accumulator, at `(p, j)`. -/
theorem mm2_apply (a : FVec Ideal S5000x128 .f32) (w : FVec Ideal S128x128 .f32) (p : Fin 5000) (j : Fin 128) :
    matmul dot_S5000x128_S128x128_S5000x128_1_0_0_1_n_n none a w (constant S5000x128 .f32 0x00000000#32) (ix2 p j)
      = ∑ k : Fin 128, a (ix2 p k) * w (ix2 k j) := by
  refine (Ideal.matmul_constant_zero_apply dot_S5000x128_S128x128_S5000x128_1_0_0_1_n_n none a w (ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_mm2_0 _ _).trans hk
    | ⟨1, _⟩ => exact rhs_mm2_1 _ _)
  rw [el, er]

/-! ## The payload, stage by stage -/

/-- The perceptron's first layer on `[h | agg]`, before the nonlinearity. -/
def hid1Blk (x0 x1 : FVec Ideal S5000x128 .f32) (x2 : FVec Ideal S256x128 .f32) (x3 : FVec Ideal S128 .f32) : FVec Ideal S5000x128 .f32 :=
  addf (matmul dot_S5000x256_S256x128_S5000x128_1_0_0_1_n_n none (concatenate S5000x256 1 [⟨S5000x128, x0⟩, ⟨S5000x128, shapeCast S5000x128 x1 shapeCasts_S5000x128_S5000x128⟩] concatenates_S5000x128_S5000x128_S5000x256_d1) x2 (constant S5000x128 .f32 0x00000000#32))
    (broadcastTo S5000x128 (shapeCast S1x128 x3 shapeCasts_S128_S1x128) broadcasts_S1x128_S5000x128)

/-- The residual row block: the node rows plus the two-layer perceptron of `[h | agg]`. -/
def resBlk (x0 x1 : FVec Ideal S5000x128 .f32) (x2 : FVec Ideal S256x128 .f32) (x3 : FVec Ideal S128 .f32)
    (x4 : FVec Ideal S128x128 .f32) (x5 : FVec Ideal S128 .f32) : FVec Ideal S5000x128 .f32 :=
  addf x0 (addf (matmul dot_S5000x128_S128x128_S5000x128_1_0_0_1_n_n none (mulf (hid1Blk x0 x1 x2 x3) (logistic (hid1Blk x0 x1 x2 x3))) x4 (constant S5000x128 .f32 0x00000000#32))
    (broadcastTo S5000x128 (shapeCast S1x128 x5 shapeCasts_S128_S1x128) broadcasts_S1x128_S5000x128))

/-- The mean over the lanes of a row block, kept as a column. -/
def meanCol (y : FVec Ideal S5000x128 .f32) : FVec Ideal S5000x1 .f32 :=
  divf (shapeCast S5000x1 (multiReduction (F := Ideal) .add [1] S5000 y 0x00000000#32 reduces_S5000x128_S5000 (.inl rfl) rfl) shapeCasts_S5000_S5000x1)
    (broadcast S5000x1 (Scalar.ofBits (F := Ideal) .f32 0x43000000#32))

/-- A row block less its rows' means. -/
def cenBlk (y : FVec Ideal S5000x128 .f32) : FVec Ideal S5000x128 .f32 :=
  subf y (broadcastTo S5000x128 (meanCol y) broadcasts_S5000x1_S5000x128)

/-- The normalised block, scaled: what the part returns, as a tree over the residual block. -/
def normBlk (y : FVec Ideal S5000x128 .f32) (x6 : FVec Ideal S128 .f32) : FVec Ideal S5000x128 .f32 :=
  mulf (mulf (cenBlk y) (broadcastTo S5000x128
      (rsqrt (addf (meanCol (mulf (cenBlk y) (cenBlk y))) (broadcast S5000x1 (Scalar.ofBits (F := Ideal) .f32 0x3727C5AC#32))))
      broadcasts_S5000x1_S5000x128))
    (broadcastTo S5000x128 (shapeCast S1x128 x6 shapeCasts_S128_S1x128) broadcasts_S1x128_S5000x128)

/-- The part's payload is those stages. -/
theorem k2_pay2_eq (x0 x1 : FVec Ideal S5000x128 .f32) (x2 : FVec Ideal S256x128 .f32) (x3 : FVec Ideal S128 .f32)
    (x4 : FVec Ideal S128x128 .f32) (x5 : FVec Ideal S128 .f32) (x6 : FVec Ideal S128 .f32) :
    k2_pay2 x0 x1 x2 x3 x4 x5 x6 = normBlk (resBlk x0 x1 x2 x3 x4 x5) x6 := rfl

/-- The first layer at `(p, k)`. -/
theorem hid1Blk_apply (x0 x1 : FVec Ideal S5000x128 .f32) (x2 : FVec Ideal S256x128 .f32) (x3 : FVec Ideal S128 .f32) (p : Fin 5000) (k : Fin 128) :
    hid1Blk x0 x1 x2 x3 (ix2 p k) = aff (cat2 (row x0 p) (row x1 p)) (mat x2) (vec x3) k := by
  show matmul dot_S5000x256_S256x128_S5000x128_1_0_0_1_n_n none (concatenate S5000x256 1 [⟨S5000x128, x0⟩, ⟨S5000x128, shapeCast S5000x128 x1 shapeCasts_S5000x128_S5000x128⟩] concatenates_S5000x128_S5000x128_S5000x256_d1) x2 (constant S5000x128 .f32 0x00000000#32) (ix2 p k)
      + broadcastTo S5000x128 (shapeCast S1x128 x3 shapeCasts_S128_S1x128) broadcasts_S1x128_S5000x128 (ix2 p k)
    = (∑ k' : Fin 256, cat2 (row x0 p) (row x1 p) k' * x2 (ix2 k' k)) + x3 (ix1 k)
  rw [mm1_apply, rowSpread_apply]
  refine congrArg (· + x3 (ix1 k)) (Finset.sum_congr rfl fun k' _ => ?_)
  rw [sideBySide_apply]

/-- The residual block at `(p, q)`. -/
theorem resBlk_apply (x0 x1 : FVec Ideal S5000x128 .f32) (x2 : FVec Ideal S256x128 .f32) (x3 : FVec Ideal S128 .f32)
    (x4 : FVec Ideal S128x128 .f32) (x5 : FVec Ideal S128 .f32) (p : Fin 5000) (q : Fin 128) :
    resBlk x0 x1 x2 x3 x4 x5 (ix2 p q)
      = row x0 p q + aff (fun k => silu (aff (cat2 (row x0 p) (row x1 p)) (mat x2) (vec x3) k)) (mat x4) (vec x5) q := by
  show x0 (ix2 p q) + (matmul dot_S5000x128_S128x128_S5000x128_1_0_0_1_n_n none (mulf (hid1Blk x0 x1 x2 x3) (logistic (hid1Blk x0 x1 x2 x3))) x4 (constant S5000x128 .f32 0x00000000#32) (ix2 p q)
      + broadcastTo S5000x128 (shapeCast S1x128 x5 shapeCasts_S128_S1x128) broadcasts_S1x128_S5000x128 (ix2 p q))
    = x0 (ix2 p q) + ((∑ k : Fin 128, silu (aff (cat2 (row x0 p) (row x1 p)) (mat x2) (vec x3) k) * x4 (ix2 k q)) + x5 (ix1 q))
  rw [mm2_apply, rowSpread_apply]
  refine congrArg (x0 (ix2 p q) + ·) (congrArg (· + x5 (ix1 q)) (Finset.sum_congr rfl fun k _ => ?_))
  show hid1Blk x0 x1 x2 x3 (ix2 p k) * Ideal.logistic (hid1Blk x0 x1 x2 x3 (ix2 p k)) * x4 (ix2 k q) = _
  rw [hid1Blk_apply]
  rfl

/-- The mean column at row `p`. -/
theorem meanCol_apply (y : FVec Ideal S5000x128 .f32) (p : Fin 5000) (u : Fin 1) :
    meanCol y (ix2 p u) = mean (fun k => y (ix2 p k)) := by
  show Ideal.div (shapeCast S5000x1 (multiReduction (F := Ideal) .add [1] S5000 y 0x00000000#32 reduces_S5000x128_S5000 (.inl rfl) rfl) shapeCasts_S5000_S5000x1 (ix2 p u))
      (Ideal.ofBits .f32 0x43000000#32) = Ideal.div (∑ k : Fin 128, y (ix2 p k)) c128
  rw [asColumn_apply, laneSum_apply]
  rfl

/-- The centred block at `(p, q)`. -/
theorem cenBlk_apply (y : FVec Ideal S5000x128 .f32) (p : Fin 5000) (q : Fin 128) :
    cenBlk y (ix2 p q) = y (ix2 p q) - mean (fun k => y (ix2 p k)) := by
  show y (ix2 p q) - broadcastTo S5000x128 (meanCol y) broadcasts_S5000x1_S5000x128 (ix2 p q) = _
  rw [colSpread_apply, meanCol_apply]

/-- The normalised, scaled block at `(p, q)`. -/
theorem normBlk_apply (y : FVec Ideal S5000x128 .f32) (x6 : FVec Ideal S128 .f32) (p : Fin 5000) (q : Fin 128) :
    normBlk y x6 (ix2 p q)
      = (y (ix2 p q) - mean (fun k => y (ix2 p k)))
          * Ideal.rsqrt (mean (fun k => (y (ix2 p k) - mean (fun k => y (ix2 p k))) * (y (ix2 p k) - mean (fun k => y (ix2 p k)))) + epsLN)
          * x6 (ix1 q) := by
  show cenBlk y (ix2 p q)
      * broadcastTo S5000x128 (rsqrt (addf (meanCol (mulf (cenBlk y) (cenBlk y))) (broadcast S5000x1 (Scalar.ofBits (F := Ideal) .f32 0x3727C5AC#32))))
          broadcasts_S5000x1_S5000x128 (ix2 p q)
      * broadcastTo S5000x128 (shapeCast S1x128 x6 shapeCasts_S128_S1x128) broadcasts_S1x128_S5000x128 (ix2 p q) = _
  rw [rowSpread_apply, colSpread_apply, cenBlk_apply]
  show _ * Ideal.rsqrt (meanCol (mulf (cenBlk y) (cenBlk y)) (ix2 p (0 : Fin 1)) + epsLN) * _ = _
  rw [meanCol_apply]
  have hsq : (fun k : Fin 128 => mulf (cenBlk y) (cenBlk y) (ix2 p k))
      = fun k => (y (ix2 p k) - mean (fun k => y (ix2 p k))) * (y (ix2 p k) - mean (fun k => y (ix2 p k))) :=
    funext fun k => by
      show cenBlk y (ix2 p k) * cenBlk y (ix2 p k) = _
      rw [cenBlk_apply]
  rw [hsq]

/-- THE PAYLOAD AT AN INDEX: the stored block at `(p, q)` is the updated node row `p` at `q`. -/
theorem pay2_apply (x0 x1 : FVec Ideal S5000x128 .f32) (x2 : FVec Ideal S256x128 .f32) (x3 : FVec Ideal S128 .f32)
    (x4 : FVec Ideal S128x128 .f32) (x5 : FVec Ideal S128 .f32) (x6 : FVec Ideal S128 .f32) (x7 : FVec Ideal S128 .f32) (p : Fin 5000) (q : Fin 128) :
    k2_pay1 (F := Ideal) (k2_pay2 (F := Ideal) x0 x1 x2 x3 x4 x5 x6) x7 (ix2 p q)
      = mlpNorm (row x0 p) (cat2 (row x0 p) (row x1 p)) (mat x2) (vec x3) (mat x4) (vec x5) (vec x6) (vec x7) q := by
  rw [k2_pay2_eq]
  show normBlk (resBlk x0 x1 x2 x3 x4 x5) x6 (ix2 p q)
      + broadcastTo S5000x128 (shapeCast S1x128 x7 shapeCasts_S128_S1x128) broadcasts_S1x128_S5000x128 (ix2 p q) = _
  rw [rowSpread_apply, normBlk_apply]
  simp only [resBlk_apply]
  rfl

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the two row-block inputs move with the output block down the rows, all
    three at lane block 0; the weights and biases stay at block 0; the output's row block index is at most 7. -/
theorem blockIdx2 : ∀ t : Fin cfg2.N, win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_8.index t (1 : Fin 2) = 0 ∧ win2_8.index t (0 : Fin 2) ≤ 7
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0 ∧ win2_6.index t (0 : Fin 1) = 0 ∧ win2_7.index t (0 : Fin 1) = 0 :=
  (by decide +kernel : ∀ t : Fin grid2.N, _)

/-- Every row block of the array is some point's. -/
theorem blockOnto2 : ∀ q0 : Fin 8, ∃ t : Fin cfg2.N, win2_8.index t = ![q0.val, 0] :=
  (by decide +kernel : ∀ q0 : Fin 8, ∃ t : Fin grid2.N, win2_8.index t = ![q0.val, 0])

/-- Row `p` of input block 0 at point `t` is the array's row under the output block's row `p`. -/
theorem rowBlk2_0 (V : (c : Dev nD) → (b : Ref sig .tc) → Buf (Elt Ideal) ((c : Thread nD τ).loc b)) (c : Dev nD) (t : Fin cfg2.N) (p : Fin 5000) (q : Fin 128) :
    row (iblk2 V c 0 t) p = row (V c main_arg0) ((((cfg2.win 8).blk t).view.emb (ix2 p q)) 0) := by
  obtain ⟨e00, e01, e10, e11, e81, e80, e20, e21, e30, e40, e41, e50, e60, e70⟩ := blockIdx2 t
  funext k
  show V c main_arg0 (((cfg2.win 0).blk t).view.emb (ix2 p k)) = V c main_arg0 (ix2 ((((cfg2.win 8).blk t).view.emb (ix2 p q)) 0) k)
  refine congrArg (V c main_arg0) (funext fun a => Fin.ext ?_)
  match a with
  | ⟨0, _⟩ => show win2_0.index t (0 : Fin 2) * 5000 + 1 * p.val = win2_8.index t (0 : Fin 2) * 5000 + 1 * p.val; omega
  | ⟨1, _⟩ => show win2_0.index t (1 : Fin 2) * 128 + 1 * k.val = k.val; omega

/-- Row `p` of input block 1 at point `t` is the array's row under the output block's row `p`. -/
theorem rowBlk2_1 (V : (c : Dev nD) → (b : Ref sig .tc) → Buf (Elt Ideal) ((c : Thread nD τ).loc b)) (c : Dev nD) (t : Fin cfg2.N) (p : Fin 5000) (q : Fin 128) :
    row (iblk2 V c 1 t) p = row (V c main_v10) ((((cfg2.win 8).blk t).view.emb (ix2 p q)) 0) := by
  obtain ⟨e00, e01, e10, e11, e81, e80, e20, e21, e30, e40, e41, e50, e60, e70⟩ := blockIdx2 t
  funext k
  show V c main_v10 (((cfg2.win 1).blk t).view.emb (ix2 p k)) = V c main_v10 (ix2 ((((cfg2.win 8).blk t).view.emb (ix2 p q)) 0) k)
  refine congrArg (V c main_v10) (funext fun a => Fin.ext ?_)
  match a with
  | ⟨0, _⟩ => show win2_1.index t (0 : Fin 2) * 5000 + 1 * p.val = win2_8.index t (0 : Fin 2) * 5000 + 1 * p.val; omega
  | ⟨1, _⟩ => show win2_1.index t (1 : Fin 2) * 128 + 1 * k.val = k.val; omega

/-- Input block 2 at any point is the whole array. -/
theorem matBlk2_2 (V : (c : Dev nD) → (b : Ref sig .tc) → Buf (Elt Ideal) ((c : Thread nD τ).loc b)) (c : Dev nD) (t : Fin cfg2.N) : mat (iblk2 V c 2 t) = mat (V c main_arg12) := by
  obtain ⟨e00, e01, e10, e11, e81, e80, e20, e21, e30, e40, e41, e50, e60, e70⟩ := blockIdx2 t
  funext a b
  show V c main_arg12 (((cfg2.win 2).blk t).view.emb (ix2 a b)) = V c main_arg12 (ix2 a b)
  refine congrArg (V c main_arg12) (funext fun ax => Fin.ext ?_)
  match ax with
  | ⟨0, _⟩ => show win2_2.index t (0 : Fin 2) * 256 + 1 * a.val = a.val; omega
  | ⟨1, _⟩ => show win2_2.index t (1 : Fin 2) * 128 + 1 * b.val = b.val; omega

/-- Input block 3 at any point is the whole array. -/
theorem vecBlk2_3 (V : (c : Dev nD) → (b : Ref sig .tc) → Buf (Elt Ideal) ((c : Thread nD τ).loc b)) (c : Dev nD) (t : Fin cfg2.N) : vec (iblk2 V c 3 t) = vec (V c main_arg13) := by
  obtain ⟨e00, e01, e10, e11, e81, e80, e20, e21, e30, e40, e41, e50, e60, e70⟩ := blockIdx2 t
  funext a
  show V c main_arg13 (((cfg2.win 3).blk t).view.emb (ix1 a)) = V c main_arg13 (ix1 a)
  refine congrArg (V c main_arg13) (funext fun ax => Fin.ext ?_)
  match ax with
  | ⟨0, _⟩ => show win2_3.index t (0 : Fin 1) * 128 + 1 * a.val = a.val; omega

/-- Input block 4 at any point is the whole array. -/
theorem matBlk2_4 (V : (c : Dev nD) → (b : Ref sig .tc) → Buf (Elt Ideal) ((c : Thread nD τ).loc b)) (c : Dev nD) (t : Fin cfg2.N) : mat (iblk2 V c 4 t) = mat (V c main_arg14) := by
  obtain ⟨e00, e01, e10, e11, e81, e80, e20, e21, e30, e40, e41, e50, e60, e70⟩ := blockIdx2 t
  funext a b
  show V c main_arg14 (((cfg2.win 4).blk t).view.emb (ix2 a b)) = V c main_arg14 (ix2 a b)
  refine congrArg (V c main_arg14) (funext fun ax => Fin.ext ?_)
  match ax with
  | ⟨0, _⟩ => show win2_4.index t (0 : Fin 2) * 128 + 1 * a.val = a.val; omega
  | ⟨1, _⟩ => show win2_4.index t (1 : Fin 2) * 128 + 1 * b.val = b.val; omega

/-- Input block 5 at any point is the whole array. -/
theorem vecBlk2_5 (V : (c : Dev nD) → (b : Ref sig .tc) → Buf (Elt Ideal) ((c : Thread nD τ).loc b)) (c : Dev nD) (t : Fin cfg2.N) : vec (iblk2 V c 5 t) = vec (V c main_arg15) := by
  obtain ⟨e00, e01, e10, e11, e81, e80, e20, e21, e30, e40, e41, e50, e60, e70⟩ := blockIdx2 t
  funext a
  show V c main_arg15 (((cfg2.win 5).blk t).view.emb (ix1 a)) = V c main_arg15 (ix1 a)
  refine congrArg (V c main_arg15) (funext fun ax => Fin.ext ?_)
  match ax with
  | ⟨0, _⟩ => show win2_5.index t (0 : Fin 1) * 128 + 1 * a.val = a.val; omega

/-- Input block 6 at any point is the whole array. -/
theorem vecBlk2_6 (V : (c : Dev nD) → (b : Ref sig .tc) → Buf (Elt Ideal) ((c : Thread nD τ).loc b)) (c : Dev nD) (t : Fin cfg2.N) : vec (iblk2 V c 6 t) = vec (V c main_arg20) := by
  obtain ⟨e00, e01, e10, e11, e81, e80, e20, e21, e30, e40, e41, e50, e60, e70⟩ := blockIdx2 t
  funext a
  show V c main_arg20 (((cfg2.win 6).blk t).view.emb (ix1 a)) = V c main_arg20 (ix1 a)
  refine congrArg (V c main_arg20) (funext fun ax => Fin.ext ?_)
  match ax with
  | ⟨0, _⟩ => show win2_6.index t (0 : Fin 1) * 128 + 1 * a.val = a.val; omega

/-- Input block 7 at any point is the whole array. -/
theorem vecBlk2_7 (V : (c : Dev nD) → (b : Ref sig .tc) → Buf (Elt Ideal) ((c : Thread nD τ).loc b)) (c : Dev nD) (t : Fin cfg2.N) : vec (iblk2 V c 7 t) = vec (V c main_arg21) := by
  obtain ⟨e00, e01, e10, e11, e81, e80, e20, e21, e30, e40, e41, e50, e60, e70⟩ := blockIdx2 t
  funext a
  show V c main_arg21 (((cfg2.win 7).blk t).view.emb (ix1 a)) = V c main_arg21 (ix1 a)
  refine congrArg (V c main_arg21) (funext fun ax => Fin.ext ?_)
  match ax with
  | ⟨0, _⟩ => show win2_7.index t (0 : Fin 1) * 128 + 1 * a.val = a.val; omega

/-- The lane under the output block's lane `q` is `q`. -/
theorem laneBlk2_8 (t : Fin cfg2.N) (p : Fin 5000) (q : Fin 128) : (((cfg2.win 8).blk t).view.emb (ix2 p q)) 1 = q := by
  obtain ⟨e00, e01, e10, e11, e81, e80, e20, e21, e30, e40, e41, e50, e60, e70⟩ := blockIdx2 t
  exact Fin.ext (by show win2_8.index t (1 : Fin 2) * 128 + 1 * q.val = q.val; omega)

/-- WHAT POINT `t` WRITES BACK is block `t` of the updated node rows of the arrays as the region finds them. -/
theorem flushed2_8_eq (V : (c : Dev nD) → (b : Ref sig .tc) → Buf (Elt Ideal) ((c : Thread nD τ).loc b)) (c : Dev nD) (t : Fin cfg2.N) :
    (dat2 (F := Ideal) V c).flushed 8 t = ((cfg2.win 8).blk t).view.read (Elt Ideal)
      (nodeArr (V c main_arg0) (V c main_v10) (V c main_arg12) (V c main_arg13) (V c main_arg14) (V c main_arg15) (V c main_arg20) (V c main_arg21)) := by
  show (cfg2.win 8).cut (grid2.coords t) ((dat2 (F := Ideal) V c).after 8 t) = _
  rw [after2_8]
  unfold out2_8
  rw [View.canon_unit_zero zero2]
  simp only [View.ld_unit_zero (S := S5000x128) zero2, View.ld_unit_zero (S := S256x128) zero2, View.ld_unit_zero (S := S128x128) zero2,
    View.ld_unit_zero (S := S128) zero1]
  funext j
  obtain ⟨p, q, rfl⟩ : ∃ (p : Fin 5000) (q : Fin 128), j = ix2 p q := ⟨j 0, j 1, eq_ix2 j⟩
  show k2_pay1 (k2_pay2 (iblk2 V c 0 t) (iblk2 V c 1 t) (iblk2 V c 2 t) (iblk2 V c 3 t) (iblk2 V c 4 t) (iblk2 V c 5 t) (iblk2 V c 6 t)) (iblk2 V c 7 t) (ix2 p q)
    = (nodeArr (V c main_arg0) (V c main_v10) (V c main_arg12) (V c main_arg13) (V c main_arg14) (V c main_arg15) (V c main_arg20) (V c main_arg21)) (((cfg2.win 8).blk t).view.emb (ix2 p q))
  rw [pay2_apply]
  rw [rowBlk2_0 V c t p q, rowBlk2_1 V c t p q, matBlk2_2, vecBlk2_3, matBlk2_4, vecBlk2_5, vecBlk2_6, vecBlk2_7]
  exact (congrArg (mlpNorm _ _ _ _ _ _ _ _) (laneBlk2_8 t p q)).symm

/-- An index of the array is in point `t`'s block iff each coordinate is in the block's range on its axis. -/
theorem mem_blk2_8 (t : Fin cfg2.N) (i : S40000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v11).slice (win2_8.rect t)).set ↔ _
  rw [View.set_slice_whole, Rect.mem_set_unit]
  exact Iff.rfl

/-- The eight row blocks tile the array. -/
theorem covered2_8 (i : S40000x128.Idx) : ∃ t : Fin cfg2.N, (cfg2.win 8).flush t = true ∧ i ∈ ((cfg2.win 8).blk t).view.set := by
  have hi0 : (i 0).val < 40000 := (i 0).isLt
  have hi1 : (i 1).val < 128 := (i 1).isLt
  obtain ⟨t, ht⟩ := blockOnto2 ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk2_8]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

/-- THE ARRAY after the region: the updated node rows. -/
theorem arr2_8 (V : (c : Dev nD) → (b : Ref sig .tc) → Buf (Elt Ideal) ((c : Thread nD τ).loc b)) (c : Dev nD) :
    (dat2 (F := Ideal) V c).arrAt 8 cfg2.N
      = nodeArr (V c main_arg0) (V c main_v10) (V c main_arg12) (V c main_arg13) (V c main_arg14) (V c main_arg15) (V c main_arg20) (V c main_arg21) :=
  (dat2 (F := Ideal) V c).arrAt_eq_of_cover 8 _ (fun t _ => flushed2_8_eq V c t) covered2_8

end Cert.KernelIdeal.Hand

end
-- ==== Proof.KI.Band.lean ====
/-
  A band of 128 columns of three weight matrices set side by side is one of the three matrices, and likewise for
  three bias vectors set end to end: so the fused projection of a node row through the 384-column matrix, read on
  the band starting at column 0, 128 or 256, is the projection through the first, second or third matrix alone.
-/
import proofs.«415799_j31490700214962_3_alg».proof.KernelIdeal
import proofs.«415799_j31490700214962_3_alg».proof.Proof.Spec
import Idealize.ShloMosaic.Lib.Pipeline.Value

noncomputable section

namespace Cert.KernelIdeal.Hand

open Idealize.ShloMosaic Idealize.ShloMosaic.ValueIdx Cert.KernelIdeal Cert.Graph

variable [Cert.KernelIdeal.Facts]
open Cert.KernelIdeal.Facts₀

/-- Entry `(k, o + j)` of three 128-column matrices side by side is entry `(k, j)` of the matrix the band starts in. -/
theorem wcat_apply (w0 w1 w2 : A2 128 128) (n : Fin 3) (k j : Fin 128) :
    concatenate S128x384 1 [⟨S128x128, w0⟩, ⟨S128x128, w1⟩, ⟨S128x128, w2⟩] concatenates_S128x128_S128x128_S128x128_S128x384_d1
        (ix2 k (⟨128 * n.val + j.val, by omega⟩ : Fin 384))
      = (match n with | 0 => w0 | 1 => w1 | 2 => w2) (ix2 k j) := by
  match n with
  | 0 =>
    refine concatenate_apply_piece (α := EReal) 1 [⟨S128x128, w0⟩, ⟨S128x128, w1⟩, ⟨S128x128, w2⟩] concatenates_S128x128_S128x128_S128x128_S128x384_d1 _ 0 ?_ S128x128 w0 rfl rfl 0 rfl (ix2 k j) ?_ ?_
    · simp
    · intro b hb
      match b with
      | ⟨0, _⟩ => rfl
      | ⟨1, _⟩ => exact absurd rfl hb
    · show 0 + j.val = 128 * 0 + j.val
      omega
  | 1 =>
    refine concatenate_apply_piece (α := EReal) 1 [⟨S128x128, w0⟩, ⟨S128x128, w1⟩, ⟨S128x128, w2⟩] concatenates_S128x128_S128x128_S128x128_S128x384_d1 _ 1 ?_ S128x128 w1 rfl rfl 128 rfl (ix2 k j) ?_ ?_
    · simp
    · intro b hb
      match b with
      | ⟨0, _⟩ => rfl
      | ⟨1, _⟩ => exact absurd rfl hb
    · show 128 + j.val = 128 * 1 + j.val
      omega
  | 2 =>
    refine concatenate_apply_piece (α := EReal) 1 [⟨S128x128, w0⟩, ⟨S128x128, w1⟩, ⟨S128x128, w2⟩] concatenates_S128x128_S128x128_S128x128_S128x384_d1 _ 2 ?_ S128x128 w2 rfl rfl 256 rfl (ix2 k j) ?_ ?_
    · simp
    · intro b hb
      match b with
      | ⟨0, _⟩ => rfl
      | ⟨1, _⟩ => exact absurd rfl hb
    · show 256 + j.val = 128 * 2 + j.val
      omega

/-- Entry `o + j` of three 128-entry vectors end to end is entry `j` of the vector the band starts in. -/
theorem bcat_apply (b0 b1 b2 : A1 128) (n : Fin 3) (j : Fin 128) :
    concatenate S384 0 [⟨S128, b0⟩, ⟨S128, b1⟩, ⟨S128, b2⟩] concatenates_S128_S128_S128_S384_d0
        (ix1 (⟨128 * n.val + j.val, by omega⟩ : Fin 384))
      = (match n with | 0 => b0 | 1 => b1 | 2 => b2) (ix1 j) := by
  match n with
  | 0 =>
    refine concatenate_apply_piece (α := EReal) 0 [⟨S128, b0⟩, ⟨S128, b1⟩, ⟨S128, b2⟩] concatenates_S128_S128_S128_S384_d0 _ 0 ?_ S128 b0 rfl rfl 0 rfl (ix1 j) ?_ ?_
    · simp
    · intro b hb
      match b with
      | ⟨0, _⟩ => exact absurd rfl hb
    · show 0 + j.val = 128 * 0 + j.val
      omega
  | 1 =>
    refine concatenate_apply_piece (α := EReal) 0 [⟨S128, b0⟩, ⟨S128, b1⟩, ⟨S128, b2⟩] concatenates_S128_S128_S128_S384_d0 _ 1 ?_ S128 b1 rfl rfl 128 rfl (ix1 j) ?_ ?_
    · simp
    · intro b hb
      match b with
      | ⟨0, _⟩ => exact absurd rfl hb
    · show 128 + j.val = 128 * 1 + j.val
      omega
  | 2 =>
    refine concatenate_apply_piece (α := EReal) 0 [⟨S128, b0⟩, ⟨S128, b1⟩, ⟨S128, b2⟩] concatenates_S128_S128_S128_S384_d0 _ 2 ?_ S128 b2 rfl rfl 256 rfl (ix1 j) ?_ ?_
    · simp
    · intro b hb
      match b with
      | ⟨0, _⟩ => exact absurd rfl hb
    · show 256 + j.val = 128 * 2 + j.val
      omega

/-- The fused projection read on band `n` is the projection through the `n`-th matrix and bias alone. -/
theorem projBand_cat (n : Fin 3) (h : A2 40000 128) (w0 w1 w2 : A2 128 128) (b0 b1 b2 : A1 128) :
    projBand (128 * n.val) (by omega) h
        (concatenate S128x384 1 [⟨S128x128, w0⟩, ⟨S128x128, w1⟩, ⟨S128x128, w2⟩] concatenates_S128x128_S128x128_S128x128_S128x384_d1)
        (concatenate S384 0 [⟨S128, b0⟩, ⟨S128, b1⟩, ⟨S128, b2⟩] concatenates_S128_S128_S128_S384_d0)
      = proj h (match n with | 0 => w0 | 1 => w1 | 2 => w2) (match n with | 0 => b0 | 1 => b1 | 2 => b2) := by
  funext i
  exact congrArg₂ (· + ·)
    (Finset.sum_congr rfl fun k _ => congrArg (row h (i 0) k * ·) (wcat_apply w0 w1 w2 n k (i 1)))
    (bcat_apply b0 b1 b2 n (i 1))

end Cert.KernelIdeal.Hand

end
-- ==== Proof.KI.Form.lean ====
/-
  The two results of the layer as functions of the input arrays, with the row fetches and the summation of the messages
  into their destination nodes kept as the host operations they are: what both programs are shown to compute.
-/
import proofs.«415799_j31490700214962_3_alg».proof.Proof.KI.Take
import proofs.«415799_j31490700214962_3_alg».proof.Proof.Spec

noncomputable section

namespace Cert.KernelIdeal.Hand

open Idealize.ShloMosaic Cert.KernelIdeal Cert.Graph

variable [Cert.KernelIdeal.Facts]
open Cert.KernelIdeal.Facts₀ Cert.KernelIdeal.Facts

/-- The plain fetch of a table's rows at the moved indices. -/
def fetch (x : FVec Ideal S40000x128 .f32) (idx : IVec S640000 32) : FVec Ideal S640000x128 .f32 :=
  Host.gather gather_S40000x128_S640000x1_S640000x128_1_0_n_n_0_1_1128 x (takeIdx idx)

/-- Edge rows summed into their destination nodes, from the zero array. -/
def aggOf (dst : IVec S640000 32) (msg : FVec Ideal S640000x128 .f32) : FVec Ideal S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst) msg

/-- The messages of all edges. -/
def msgForm (h : A2 40000 128) (e : A2 640000 128) (src dst : IVec S640000 32)
    (w_src : A2 128 128) (b_src : A1 128) (w_dst : A2 128 128) (b_dst : A1 128) (w_eg : A2 128 128) (b_eg : A1 128)
    (w_msg : A2 128 128) (b_msg : A1 128) : A2 640000 128 :=
  msgArr e (fetch (proj h w_src b_src) src) (fetch (proj h w_dst b_dst) dst) (fetch (proj h w_msg b_msg) src) w_eg b_eg

/-- The updated node rows. -/
def nodeForm (h : A2 40000 128) (e : A2 640000 128) (src dst : IVec S640000 32)
    (w_src : A2 128 128) (b_src : A1 128) (w_dst : A2 128 128) (b_dst : A1 128) (w_eg : A2 128 128) (b_eg : A1 128)
    (w_msg : A2 128 128) (b_msg : A1 128) (w_n1 : A2 256 128) (b_n1 : A1 128) (w_n2 : A2 128 128) (b_n2 g_n bt_n : A1 128) :
    A2 40000 128 :=
  nodeArr h (aggOf dst (msgForm h e src dst w_src b_src w_dst b_dst w_eg b_eg w_msg b_msg)) w_n1 b_n1 w_n2 b_n2 g_n bt_n

/-- The updated edge rows. -/
def edgeForm (h : A2 40000 128) (e : A2 640000 128) (src dst : IVec S640000 32) (w_msg : A2 128 128) (b_msg : A1 128)
    (w_e1 : A2 384 128) (b_e1 : A1 128) (w_e2 : A2 128 128) (b_e2 g_e bt_e : A1 128) : A2 640000 128 :=
  edgeArr e (fetch (proj h w_msg b_msg) src) (fetch (proj h w_msg b_msg) dst) w_e1 b_e1 w_e2 b_e2 g_e bt_e

end Cert.KernelIdeal.Hand

end
-- ==== Proof.KI.Final.lean ====
/-
  The kernel program's two results as functions of the launch arrays.

  Walking the run backwards from the last kernel call: the updated node rows are the node update of `h` and of the
  messages summed into their destinations; the messages and the updated edge rows are the edge functions of `e` and of
  the rows the four guarded reads fetched from the three projections of `h`; the projections are the bands of the fused
  projection, that is the three projections of the reference; and, the indices being node numbers, each guarded read
  is the plain fetch. Nothing here opens a fetch or the summation into destinations.
-/
import proofs.«415799_j31490700214962_3_alg».proof.Proof.KI.Chain
import proofs.«415799_j31490700214962_3_alg».proof.Proof.KI.Val0
import proofs.«415799_j31490700214962_3_alg».proof.Proof.KI.Val1m
import proofs.«415799_j31490700214962_3_alg».proof.Proof.KI.Val1e
import proofs.«415799_j31490700214962_3_alg».proof.Proof.KI.Val2
import proofs.«415799_j31490700214962_3_alg».proof.Proof.KI.Band
import proofs.«415799_j31490700214962_3_alg».proof.Proof.KI.Form

noncomputable section

namespace Cert.KernelIdeal.Hand

open Cert.KernelIdeal Cert.KernelIdeal.Gen Cert.Graph
open Idealize.ShloMosaic Idealize.ShloMosaic.TcCoe Idealize.SL.Sem

variable (m : (ℓ : Loc nD τ sig) → Buf (Elt Ideal) ℓ) (ρ : Dev nD → PrngReg)

/-- An argument array as launched. -/
abbrev arg (c : Dev nD) (a : Ref sig .tc) : Buf (Elt Ideal) ((c : Thread nD τ).loc a) := m ((c : Thread nD τ).loc a)

/-- The index inputs hold node numbers (what the precondition gives). -/
def InRange (c : Dev nD) : Prop :=
  (∀ k : S640000.Idx, IntOp.cmpi .sge (arg m c main_arg2 k) 0#32 = 1#1 ∧ IntOp.cmpi .slt (arg m c main_arg2 k) 40000#32 = 1#1)
  ∧ (∀ k : S640000.Idx, IntOp.cmpi .sge (arg m c main_arg3 k) 0#32 = 1#1 ∧ IntOp.cmpi .slt (arg m c main_arg3 k) 40000#32 = 1#1)

/-- The source projection of every node row, as the first kernel call leaves it. -/
theorem hs_eq (c : Dev nD) :
    W2 m ρ c (Proc.devRef .tc main_v2_0) = proj (arg m c main_arg0) (arg m c main_arg4) (arg m c main_arg5) := by
  rw [W2_v2_0, arr0_3 (Ve1 m ρ) c, Ve1_arg m ρ c main_arg0 (by decide), Ve1_v0, Ve1_v1]
  exact projBand_cat 0 _ _ _ _ _ _ _

/-- The destination projection. -/
theorem hd_eq (c : Dev nD) :
    W2 m ρ c (Proc.devRef .tc main_v2_1) = proj (arg m c main_arg0) (arg m c main_arg6) (arg m c main_arg7) := by
  rw [W2_v2_1, arr0_4 (Ve1 m ρ) c, Ve1_arg m ρ c main_arg0 (by decide), Ve1_v0, Ve1_v1]
  exact projBand_cat 1 _ _ _ _ _ _ _

/-- The message projection. -/
theorem ms_eq (c : Dev nD) :
    W2 m ρ c (Proc.devRef .tc main_v2_2) = proj (arg m c main_arg0) (arg m c main_arg10) (arg m c main_arg11) := by
  rw [W2_v2_2, arr0_5 (Ve1 m ρ) c, Ve1_arg m ρ c main_arg0 (by decide), Ve1_v0, Ve1_v1]
  exact projBand_cat 2 _ _ _ _ _ _ _

/-- The messages of all edges, as the second kernel call leaves them. -/
theorem msg_eq (c : Dev nD) (hr : InRange m c) :
    W7 m ρ c (Proc.devRef .tc main_v7_1)
      = msgForm (arg m c main_arg0) (arg m c main_arg1) (arg m c main_arg2) (arg m c main_arg3) (arg m c main_arg4) (arg m c main_arg5)
          (arg m c main_arg6) (arg m c main_arg7) (arg m c main_arg8) (arg m c main_arg9) (arg m c main_arg10) (arg m c main_arg11) := by
  rw [W7_v7_1, arr1_14 (Ve6 m ρ) c, Ve6_arg m ρ c main_arg1 (by decide), Ve6_arg m ρ c main_arg8 (by decide),
    Ve6_arg m ρ c main_arg9 (by decide), Ve6_v3, Ve6_v4, Ve6_v5, hs_eq, hd_eq, ms_eq,
    takeFn_eq_gather _ _ hr.1, takeFn_eq_gather _ _ hr.2, takeFn_eq_gather _ _ hr.1]
  unfold msgForm fetch
  rfl

/-- The second result: the updated edge rows. -/
theorem out1_eq (c : Dev nD) (hr : InRange m c) :
    W9 m ρ c (Proc.devRef .tc main_v7_0)
      = edgeForm (arg m c main_arg0) (arg m c main_arg1) (arg m c main_arg2) (arg m c main_arg3) (arg m c main_arg10) (arg m c main_arg11)
          (arg m c main_arg16) (arg m c main_arg17) (arg m c main_arg18) (arg m c main_arg19) (arg m c main_arg22) (arg m c main_arg23) := by
  rw [W9_out1, arr1_13 (Ve6 m ρ) c, Ve6_arg m ρ c main_arg1 (by decide), Ve6_arg m ρ c main_arg16 (by decide),
    Ve6_arg m ρ c main_arg17 (by decide), Ve6_arg m ρ c main_arg18 (by decide), Ve6_arg m ρ c main_arg19 (by decide),
    Ve6_arg m ρ c main_arg22 (by decide), Ve6_arg m ρ c main_arg23 (by decide), Ve6_v5, Ve6_v6, ms_eq,
    takeFn_eq_gather _ _ hr.1, takeFn_eq_gather _ _ hr.2]
  unfold edgeForm fetch
  rfl

/-- The first result: the updated node rows. -/
theorem out0_eq (c : Dev nD) (hr : InRange m c) :
    W9 m ρ c (Proc.devRef .tc main_v11)
      = nodeForm (arg m c main_arg0) (arg m c main_arg1) (arg m c main_arg2) (arg m c main_arg3) (arg m c main_arg4) (arg m c main_arg5)
          (arg m c main_arg6) (arg m c main_arg7) (arg m c main_arg8) (arg m c main_arg9) (arg m c main_arg10) (arg m c main_arg11)
          (arg m c main_arg12) (arg m c main_arg13) (arg m c main_arg14) (arg m c main_arg15) (arg m c main_arg20) (arg m c main_arg21) := by
  rw [W9_out0, arr2_8 (Ve8 m ρ) c, Ve8_arg m ρ c main_arg0 (by decide), Ve8_arg m ρ c main_arg12 (by decide),
    Ve8_arg m ρ c main_arg13 (by decide), Ve8_arg m ρ c main_arg14 (by decide), Ve8_arg m ρ c main_arg15 (by decide),
    Ve8_arg m ρ c main_arg20 (by decide), Ve8_arg m ρ c main_arg21 (by decide), Ve8_v10, msg_eq m ρ c hr]
  unfold nodeForm aggOf
  rfl

end Cert.KernelIdeal.Hand

end
-- ==== Proof.Ref.Val.lean ====
/-
  The reference side, read at an index on the extended reals.

  Each stage of the reference layer — the three affine projections of the node rows, the gated message on an edge, the
  residual two-layer perceptron with layer normalisation on a node row and on an edge row — is, entry by entry, the row
  function of the specification: an affine map is a finite sum plus a bias, the logistic function is 1 / (1 + exp (−x)),
  a mean is a finite sum divided by 128, and a concatenation of rows reads the piece its column falls in. The gathers and
  the scatter-add stay opaque arrays: only their entries are mentioned.
-/
import proofs.«415799_j31490700214962_3_alg».proof.Proof.Gen.ReferenceIdeal.Read
import proofs.«415799_j31490700214962_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Graph
open Idealize.ShloMosaic Idealize.ShloMosaic.ValueIdx

set_option quotPrecheck false
local notation "Nd" => (⟨S40000x128, .f32⟩ : BufTy).Contents (Elt Ideal)
local notation "Ed" => (⟨S640000x128, .f32⟩ : BufTy).Contents (Elt Ideal)
local notation "Ix" => (⟨S640000, .i32⟩ : BufTy).Contents (Elt Ideal)
local notation "W1" => (⟨S128x128, .f32⟩ : BufTy).Contents (Elt Ideal)
local notation "W2" => (⟨S256x128, .f32⟩ : BufTy).Contents (Elt Ideal)
local notation "W3" => (⟨S384x128, .f32⟩ : BufTy).Contents (Elt Ideal)
local notation "V1" => (⟨S128, .f32⟩ : BufTy).Contents (Elt Ideal)

/-- The word of `1.0` denotes the extended real `1`. -/
theorem ofBits_one : Ideal.ofBits .f32 0x3F800000#32 = 1 := by
  simp [Ideal.ofBits, Ideal.ieee, -EReal.coe_mul]; norm_num

/-- The logistic function as the reference spells it, with the word of `1.0` for both ones. -/
theorem logistic_spelled (x : EReal) :
    Ideal.div (Ideal.ofBits .f32 0x3F800000#32) (Ideal.ofBits .f32 0x3F800000#32 + Ideal.exp (-x)) = Ideal.logistic x := by
  rw [ofBits_one]; rfl

/-- Two node arrays side by side, read at row `r` and column `k`: the row of the piece the column falls in. -/
theorem cat2_at (a b : Nd) (r : Fin 40000) (k : Fin 256) :
    concatenate S40000x256 1 [⟨S40000x128, a⟩, ⟨S40000x128, b⟩] concatenates_S40000x128_S40000x128_S40000x256_d1 (ix2 r k)
      = cat2 (row a r) (row b r) k := by
  unfold cat2
  by_cases h : k.val < 128
  · rw [dif_pos h]
    exact concatenate_pair_apply_left (1 : Fin S40000x256.rank) a b _ (ix2 r k) rfl (ix2 r ⟨k.val, h⟩)
      (fun c => by match c with | ⟨0, _⟩ => rfl | ⟨1, _⟩ => rfl)
  · rw [dif_neg h]
    exact concatenate_pair_apply_right (1 : Fin S40000x256.rank) a b _ (ix2 r k) rfl rfl (ix2 r ⟨k.val - 128, by omega⟩)
      (fun c hc => by match c with | ⟨0, _⟩ => rfl | ⟨1, _⟩ => exact absurd rfl hc)
      (by show k.val - 128 + 128 = k.val; omega)

/-- Three edge arrays side by side, read at row `r` and column `k`: the row of the piece the column falls in. -/
theorem cat3_at (a b c : Ed) (r : Fin 640000) (k : Fin 384) :
    concatenate S640000x384 1 [⟨S640000x128, a⟩, ⟨S640000x128, b⟩, ⟨S640000x128, c⟩]
        concatenates_S640000x128_S640000x128_S640000x128_S640000x384_d1 (ix2 r k)
      = cat3 (row a r) (row b r) (row c r) k := by
  unfold cat3
  by_cases h : k.val < 128
  · rw [dif_pos h]
    exact concatenate_apply_piece (1 : Fin S640000x384.rank) _ _ (ix2 r k) 0 (by simp) S640000x128 a rfl rfl 0 rfl
      (ix2 r ⟨k.val, h⟩)
      (fun d hd => by match d with | ⟨0, _⟩ => rfl | ⟨1, _⟩ => exact absurd rfl hd)
      (by show 0 + k.val = k.val; omega)
  · rw [dif_neg h]
    by_cases h' : k.val < 256
    · rw [dif_pos h']
      exact concatenate_apply_piece (1 : Fin S640000x384.rank) _ _ (ix2 r k) 1 (by simp) S640000x128 b rfl rfl 128 rfl
        (ix2 r ⟨k.val - 128, by omega⟩)
        (fun d hd => by match d with | ⟨0, _⟩ => rfl | ⟨1, _⟩ => exact absurd rfl hd)
        (by show 128 + (k.val - 128) = k.val; omega)
    · rw [dif_neg h']
      exact concatenate_apply_piece (1 : Fin S640000x384.rank) _ _ (ix2 r k) 2 (by simp) S640000x128 c rfl rfl 256 rfl
        (ix2 r ⟨k.val - 256, by have := k.isLt; omega⟩)
        (fun d hd => by match d with | ⟨0, _⟩ => rfl | ⟨1, _⟩ => exact absurd rfl hd)
        (by show 256 + (k.val - 256) = k.val; omega)

/-- The source projection of the node rows is the affine map of each row. -/
theorem proj_src (x0 : Nd) (x4 : W1) (x5 : V1) : val_main_v3 (F := Ideal) x0 x4 x5 = proj x0 x4 x5 := by
  funext i
  obtain ⟨r, j, rfl⟩ : ∃ (r : Fin 40000) (j : Fin 128), i = ix2 r j := ⟨i 0, i 1, eq_ix2 i⟩
  have el : ∀ k : Fin 128, lidx_main_v0 (ix2 r j) k = ix2 r k := fun k => funext fun a => Fin.ext (by match a with | ⟨0, _⟩ => rfl | ⟨1, _⟩ => rfl)
  have er : ∀ k : Fin 128, ridx_main_v0 (ix2 r j) k = ix2 k j := fun k => funext fun a => Fin.ext (by match a with | ⟨0, _⟩ => rfl | ⟨1, _⟩ => rfl)
  have eb : idx_main_v1 (idx_main_v2 (ix2 r j)) = ix1 j := funext fun a => Fin.ext (by match a with | ⟨0, _⟩ => rfl)
  rw [val_main_v3_apply, val_main_v0_apply, val_main_v2_apply, val_main_v1_apply]
  simp only [el, er, eb, Ideal.addf_def]
  rfl

/-- The destination projection of the node rows is the affine map of each row. -/
theorem proj_dst (x0 : Nd) (x6 : W1) (x7 : V1) : val_main_v7 (F := Ideal) x0 x6 x7 = proj x0 x6 x7 := by
  funext i
  obtain ⟨r, j, rfl⟩ : ∃ (r : Fin 40000) (j : Fin 128), i = ix2 r j := ⟨i 0, i 1, eq_ix2 i⟩
  have el : ∀ k : Fin 128, lidx_main_v4 (ix2 r j) k = ix2 r k := fun k => funext fun a => Fin.ext (by match a with | ⟨0, _⟩ => rfl | ⟨1, _⟩ => rfl)
  have er : ∀ k : Fin 128, ridx_main_v4 (ix2 r j) k = ix2 k j := fun k => funext fun a => Fin.ext (by match a with | ⟨0, _⟩ => rfl | ⟨1, _⟩ => rfl)
  have eb : idx_main_v5 (idx_main_v6 (ix2 r j)) = ix1 j := funext fun a => Fin.ext (by match a with | ⟨0, _⟩ => rfl)
  rw [val_main_v7_apply, val_main_v4_apply, val_main_v6_apply, val_main_v5_apply]
  simp only [el, er, eb, Ideal.addf_def]
  rfl

/-- The message projection of the node rows is the affine map of each row. -/
theorem proj_msg (x0 : Nd) (x10 : W1) (x11 : V1) : val_main_v11 (F := Ideal) x0 x10 x11 = proj x0 x10 x11 := by
  funext i
  obtain ⟨r, j, rfl⟩ : ∃ (r : Fin 40000) (j : Fin 128), i = ix2 r j := ⟨i 0, i 1, eq_ix2 i⟩
  have el : ∀ k : Fin 128, lidx_main_v8 (ix2 r j) k = ix2 r k := fun k => funext fun a => Fin.ext (by match a with | ⟨0, _⟩ => rfl | ⟨1, _⟩ => rfl)
  have er : ∀ k : Fin 128, ridx_main_v8 (ix2 r j) k = ix2 k j := fun k => funext fun a => Fin.ext (by match a with | ⟨0, _⟩ => rfl | ⟨1, _⟩ => rfl)
  have eb : idx_main_v9 (idx_main_v10 (ix2 r j)) = ix1 j := funext fun a => Fin.ext (by match a with | ⟨0, _⟩ => rfl)
  rw [val_main_v11_apply, val_main_v8_apply, val_main_v10_apply, val_main_v9_apply]
  simp only [el, er, eb, Ideal.addf_def]
  rfl

/-- The message on an edge: the logistic gate of the two gathered projections plus the edge's affine map, times the
    gathered message row. -/
theorem msg_eq (x0 : Nd) (x1 : Ed) (x2 x3 : Ix) (x4 : W1) (x5 : V1) (x6 : W1) (x7 : V1) (x8 : W1) (x9 : V1) (x10 : W1) (x11 : V1) :
    val_main_v45 (F := Ideal) x0 x1 x2 x3 x4 x5 x6 x7 x8 x9 x10 x11
      = msgArr x1 (val_main_v18 (F := Ideal) x0 x2 x4 x5) (val_main_v25 (F := Ideal) x0 x3 x6 x7) (val_main_v38 (F := Ideal) x0 x2 x10 x11) x8 x9 := by
  funext i
  obtain ⟨r, j, rfl⟩ : ∃ (r : Fin 640000) (j : Fin 128), i = ix2 r j := ⟨i 0, i 1, eq_ix2 i⟩
  have el : ∀ k : Fin 128, lidx_main_v27 (ix2 r j) k = ix2 r k := fun k => funext fun a => Fin.ext (by match a with | ⟨0, _⟩ => rfl | ⟨1, _⟩ => rfl)
  have er : ∀ k : Fin 128, ridx_main_v27 (ix2 r j) k = ix2 k j := fun k => funext fun a => Fin.ext (by match a with | ⟨0, _⟩ => rfl | ⟨1, _⟩ => rfl)
  have eb : idx_main_v28 (idx_main_v29 (ix2 r j)) = ix1 j := funext fun a => Fin.ext (by match a with | ⟨0, _⟩ => rfl)
  rw [val_main_v45_apply, val_main_v44_apply, val_main_v43_apply, val_main_cst_5_apply, val_main_v42_apply, val_main_v41_apply,
    val_main_cst_apply, val_main_v40_apply, val_main_v39_apply, val_main_v31_apply, val_main_v26_apply, val_main_v30_apply,
    val_main_v27_apply, val_main_v29_apply, val_main_v28_apply]
  simp only [el, er, eb, Ideal.addf_def, Ideal.mulf_def, Ideal.hostDivf_def, Ideal.hostUnary_exp_def, Ideal.hostNegf_def,
    Ideal.negf_def, Ideal.ofBits_def, logistic_spelled]
  rfl

section Node
variable (x0 : Nd) (x1 : Ed) (x2 x3 : Ix) (x4 : W1) (x5 : V1) (x6 : W1) (x7 : V1) (x8 : W1) (x9 : V1) (x10 : W1) (x11 : V1)
  (x12 : W2) (x13 : V1) (x14 : W1) (x15 : V1) (x20 x21 : V1)

/-- The concatenated row at an entry: the piece its column falls in. -/
theorem node_cat_at (r : Fin 40000) (k : Fin 256) :
    val_main_v49 (F := Ideal) x0 x1 x2 x3 x4 x5 x6 x7 x8 x9 x10 x11 (ix2 r k) = cat2 (row x0 r) (row (val_main_v48 (F := Ideal) x0 x1 x2 x3 x4 x5 x6 x7 x8 x9 x10 x11) r) k := by
  unfold val_main_v49
  exact cat2_at x0 _ r k

/-- The first perceptron layer at an entry: the affine map of the concatenated row. -/
theorem node_pre_at (r : Fin 40000) (j : Fin 128) :
    val_main_v53 (F := Ideal) x0 x1 x2 x3 x4 x5 x6 x7 x8 x9 x10 x11 x12 x13 (ix2 r j) = aff (cat2 (row x0 r) (row (val_main_v48 (F := Ideal) x0 x1 x2 x3 x4 x5 x6 x7 x8 x9 x10 x11) r)) (mat x12) (vec x13) j := by
  have el : ∀ k : Fin 256, lidx_main_v50 (ix2 r j) k = ix2 r k := fun k => funext fun a => Fin.ext (by match a with | ⟨0, _⟩ => rfl | ⟨1, _⟩ => rfl)
  have er : ∀ k : Fin 256, ridx_main_v50 (ix2 r j) k = ix2 k j := fun k => funext fun a => Fin.ext (by match a with | ⟨0, _⟩ => rfl | ⟨1, _⟩ => rfl)
  have eb : idx_main_v51 (idx_main_v52 (ix2 r j)) = ix1 j := funext fun a => Fin.ext (by match a with | ⟨0, _⟩ => rfl)
  rw [val_main_v53_apply, val_main_v50_apply, val_main_v52_apply, val_main_v51_apply]
  simp only [el, er, eb, Ideal.addf_def, node_cat_at]
  rfl

/-- The nonlinearity at an entry: `x · logistic x` of the first layer's entry. -/
theorem node_act_at (i : S40000x128.Idx) :
    val_main_v54 (F := Ideal) x0 x1 x2 x3 x4 x5 x6 x7 x8 x9 x10 x11 x12 x13 i = silu (val_main_v53 (F := Ideal) x0 x1 x2 x3 x4 x5 x6 x7 x8 x9 x10 x11 x12 x13 i) := by
  rw [val_main_v54_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.addf_def, Ideal.mulf_def, Ideal.hostDivf_def, Ideal.hostUnary_exp_def, Ideal.hostNegf_def,
    Ideal.negf_def, Ideal.ofBits_def, logistic_spelled]
  rfl

/-- The residual sum at an entry: the row's entry plus the second affine map of the activated row. -/
theorem node_res_at (r : Fin 40000) (j : Fin 128) :
    val_main_v59 (F := Ideal) x0 x1 x2 x3 x4 x5 x6 x7 x8 x9 x10 x11 x12 x13 x14 x15 (ix2 r j)
      = row x0 r j + aff (fun k => silu (aff (cat2 (row x0 r) (row (val_main_v48 (F := Ideal) x0 x1 x2 x3 x4 x5 x6 x7 x8 x9 x10 x11) r)) (mat x12) (vec x13) k)) (mat x14) (vec x15) j := by
  have el : ∀ k : Fin 128, lidx_main_v55 (ix2 r j) k = ix2 r k := fun k => funext fun a => Fin.ext (by match a with | ⟨0, _⟩ => rfl | ⟨1, _⟩ => rfl)
  have er : ∀ k : Fin 128, ridx_main_v55 (ix2 r j) k = ix2 k j := fun k => funext fun a => Fin.ext (by match a with | ⟨0, _⟩ => rfl | ⟨1, _⟩ => rfl)
  have eb : idx_main_v56 (idx_main_v57 (ix2 r j)) = ix1 j := funext fun a => Fin.ext (by match a with | ⟨0, _⟩ => rfl)
  rw [val_main_v59_apply, val_main_v58_apply, val_main_v55_apply, val_main_v57_apply, val_main_v56_apply]
  simp only [el, er, eb, Ideal.addf_def, node_act_at, node_pre_at]
  rfl

/-- The row mean of the residual sum. -/
theorem node_mean_at (r : Fin 40000) :
    val_main_v63 (F := Ideal) x0 x1 x2 x3 x4 x5 x6 x7 x8 x9 x10 x11 x12 x13 x14 x15 (ix2 r (0 : Fin 1)) = mean (fun k => val_main_v59 (F := Ideal) x0 x1 x2 x3 x4 x5 x6 x7 x8 x9 x10 x11 x12 x13 x14 x15 (ix2 r k)) := by
  have e : ∀ k : Fin 128, idx_main_v60 (idx_main_v61 (ix2 r (0 : Fin 1))) k = ix2 r k := fun k => funext fun a => Fin.ext (by match a with | ⟨0, _⟩ => rfl | ⟨1, _⟩ => rfl)
  rw [val_main_v63_apply, val_main_v61_apply, val_main_v60_apply, val_main_cst_7_apply,
    val_main_v62_apply, val_main_cst_8_apply]
  simp only [e, Ideal.hostDivf_def, Ideal.ofBits_def, Ideal.ofBits_zero_f32, zero_add]
  rfl

/-- The row mean of the squared deviations of the residual sum. -/
theorem node_var_at (r : Fin 40000) :
    val_main_v70 (F := Ideal) x0 x1 x2 x3 x4 x5 x6 x7 x8 x9 x10 x11 x12 x13 x14 x15 (ix2 r (0 : Fin 1))
      = mean (fun k => (val_main_v59 (F := Ideal) x0 x1 x2 x3 x4 x5 x6 x7 x8 x9 x10 x11 x12 x13 x14 x15 (ix2 r k) - mean (fun k' => val_main_v59 (F := Ideal) x0 x1 x2 x3 x4 x5 x6 x7 x8 x9 x10 x11 x12 x13 x14 x15 (ix2 r k')))
          * (val_main_v59 (F := Ideal) x0 x1 x2 x3 x4 x5 x6 x7 x8 x9 x10 x11 x12 x13 x14 x15 (ix2 r k) - mean (fun k' => val_main_v59 (F := Ideal) x0 x1 x2 x3 x4 x5 x6 x7 x8 x9 x10 x11 x12 x13 x14 x15 (ix2 r k')))) := by
  have e : ∀ k : Fin 128, idx_main_v67 (idx_main_v68 (ix2 r (0 : Fin 1))) k = ix2 r k := fun k => funext fun a => Fin.ext (by match a with | ⟨0, _⟩ => rfl | ⟨1, _⟩ => rfl)
  have em : ∀ k : Fin 128, idx_main_v64 (ix2 r k) = ix2 r (0 : Fin 1) := fun k => funext fun a => Fin.ext (by match a with | ⟨0, _⟩ => rfl | ⟨1, _⟩ => rfl)
  rw [val_main_v70_apply, val_main_v68_apply, val_main_v67_apply, val_main_cst_9_apply,
    val_main_v69_apply, val_main_cst_10_apply]
  simp only [e, val_main_v66_apply, val_main_v65_apply, val_main_v64_apply, em, node_mean_at,
    Ideal.hostDivf_def, Ideal.mulf_def, Ideal.subf_def, Ideal.ofBits_def, Ideal.ofBits_zero_f32, zero_add]
  rfl

/-- The normalised row at an entry, in terms of the residual sum's row. -/
theorem node_norm_at (r : Fin 40000) (j : Fin 128) :
    val_main_v83 (F := Ideal) x0 x1 x2 x3 x4 x5 x6 x7 x8 x9 x10 x11 x12 x13 x14 x15 x20 x21 (ix2 r j)
      = lnorm (fun k => val_main_v59 (F := Ideal) x0 x1 x2 x3 x4 x5 x6 x7 x8 x9 x10 x11 x12 x13 x14 x15 (ix2 r k)) (vec x20) (vec x21) j := by
  have em : idx_main_v71 (ix2 r j) = ix2 r (0 : Fin 1) := funext fun a => Fin.ext (by match a with | ⟨0, _⟩ => rfl | ⟨1, _⟩ => rfl)
  have es : idx_main_v76 (ix2 r j) = ix2 r (0 : Fin 1) := funext fun a => Fin.ext (by match a with | ⟨0, _⟩ => rfl | ⟨1, _⟩ => rfl)
  have eg : idx_main_v78 (idx_main_v79 (ix2 r j)) = ix1 j := funext fun a => Fin.ext (by match a with | ⟨0, _⟩ => rfl)
  have et : idx_main_v81 (idx_main_v82 (ix2 r j)) = ix1 j := funext fun a => Fin.ext (by match a with | ⟨0, _⟩ => rfl)
  rw [val_main_v83_apply, val_main_v80_apply, val_main_v77_apply, val_main_v72_apply, val_main_v71_apply,
    val_main_v76_apply, val_main_v75_apply, val_main_v74_apply, val_main_v73_apply, val_main_cst_11_apply,
    val_main_v79_apply, val_main_v78_apply, val_main_v82_apply, val_main_v81_apply]
  simp only [em, es, eg, et, node_mean_at, node_var_at, Ideal.addf_def, Ideal.mulf_def, Ideal.subf_def,
    Ideal.hostUnary_rsqrt_def, Ideal.ofBits_def]
  rfl

/-- The updated node rows: the residual perceptron on `[h n, agg n]`, normalised. -/
theorem node_eq :
    val_main_v83 (F := Ideal) x0 x1 x2 x3 x4 x5 x6 x7 x8 x9 x10 x11 x12 x13 x14 x15 x20 x21
      = nodeArr x0 (val_main_v48 (F := Ideal) x0 x1 x2 x3 x4 x5 x6 x7 x8 x9 x10 x11) x12 x13 x14 x15 x20 x21 := by
  funext i
  obtain ⟨r, j, rfl⟩ : ∃ (r : Fin 40000) (j : Fin 128), i = ix2 r j := ⟨i 0, i 1, eq_ix2 i⟩
  rw [node_norm_at]
  simp only [node_res_at]
  rfl

end Node

section Edge
variable (x0 : Nd) (x1 : Ed) (x2 x3 : Ix) (x10 : W1) (x11 : V1) (x16 : W3) (x17 : V1) (x18 : W1) (x19 : V1) (x22 x23 : V1)

/-- The concatenated row at an entry: the piece its column falls in. -/
theorem edge_cat_at (r : Fin 640000) (k : Fin 384) :
    val_main_v91 (F := Ideal) x0 x1 x2 x3 x10 x11 (ix2 r k) = cat3 (row x1 r) (row (val_main_v38 (F := Ideal) x0 x2 x10 x11) r) (row (val_main_v90 (F := Ideal) x0 x3 x10 x11) r) k := by
  unfold val_main_v91
  exact cat3_at x1 _ _ r k

/-- The first perceptron layer at an entry: the affine map of the concatenated row. -/
theorem edge_pre_at (r : Fin 640000) (j : Fin 128) :
    val_main_v95 (F := Ideal) x0 x1 x2 x3 x10 x11 x16 x17 (ix2 r j) = aff (cat3 (row x1 r) (row (val_main_v38 (F := Ideal) x0 x2 x10 x11) r) (row (val_main_v90 (F := Ideal) x0 x3 x10 x11) r)) (mat x16) (vec x17) j := by
  have el : ∀ k : Fin 384, lidx_main_v92 (ix2 r j) k = ix2 r k := fun k => funext fun a => Fin.ext (by match a with | ⟨0, _⟩ => rfl | ⟨1, _⟩ => rfl)
  have er : ∀ k : Fin 384, ridx_main_v92 (ix2 r j) k = ix2 k j := fun k => funext fun a => Fin.ext (by match a with | ⟨0, _⟩ => rfl | ⟨1, _⟩ => rfl)
  have eb : idx_main_v93 (idx_main_v94 (ix2 r j)) = ix1 j := funext fun a => Fin.ext (by match a with | ⟨0, _⟩ => rfl)
  rw [val_main_v95_apply, val_main_v92_apply, val_main_v94_apply, val_main_v93_apply]
  simp only [el, er, eb, Ideal.addf_def, edge_cat_at]
  rfl

/-- The nonlinearity at an entry: `x · logistic x` of the first layer's entry. -/
theorem edge_act_at (i : S640000x128.Idx) :
    val_main_v96 (F := Ideal) x0 x1 x2 x3 x10 x11 x16 x17 i = silu (val_main_v95 (F := Ideal) x0 x1 x2 x3 x10 x11 x16 x17 i) := by
  rw [val_main_v96_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.addf_def, Ideal.mulf_def, Ideal.hostDivf_def, Ideal.hostUnary_exp_def, Ideal.hostNegf_def,
    Ideal.negf_def, Ideal.ofBits_def, logistic_spelled]
  rfl

/-- The residual sum at an entry: the row's entry plus the second affine map of the activated row. -/
theorem edge_res_at (r : Fin 640000) (j : Fin 128) :
    val_main_v101 (F := Ideal) x0 x1 x2 x3 x10 x11 x16 x17 x18 x19 (ix2 r j)
      = row x1 r j + aff (fun k => silu (aff (cat3 (row x1 r) (row (val_main_v38 (F := Ideal) x0 x2 x10 x11) r) (row (val_main_v90 (F := Ideal) x0 x3 x10 x11) r)) (mat x16) (vec x17) k)) (mat x18) (vec x19) j := by
  have el : ∀ k : Fin 128, lidx_main_v97 (ix2 r j) k = ix2 r k := fun k => funext fun a => Fin.ext (by match a with | ⟨0, _⟩ => rfl | ⟨1, _⟩ => rfl)
  have er : ∀ k : Fin 128, ridx_main_v97 (ix2 r j) k = ix2 k j := fun k => funext fun a => Fin.ext (by match a with | ⟨0, _⟩ => rfl | ⟨1, _⟩ => rfl)
  have eb : idx_main_v98 (idx_main_v99 (ix2 r j)) = ix1 j := funext fun a => Fin.ext (by match a with | ⟨0, _⟩ => rfl)
  rw [val_main_v101_apply, val_main_v100_apply, val_main_v97_apply, val_main_v99_apply, val_main_v98_apply]
  simp only [el, er, eb, Ideal.addf_def, edge_act_at, edge_pre_at]
  rfl

/-- The row mean of the residual sum. -/
theorem edge_mean_at (r : Fin 640000) :
    val_main_v105 (F := Ideal) x0 x1 x2 x3 x10 x11 x16 x17 x18 x19 (ix2 r (0 : Fin 1)) = mean (fun k => val_main_v101 (F := Ideal) x0 x1 x2 x3 x10 x11 x16 x17 x18 x19 (ix2 r k)) := by
  have e : ∀ k : Fin 128, idx_main_v102 (idx_main_v103 (ix2 r (0 : Fin 1))) k = ix2 r k := fun k => funext fun a => Fin.ext (by match a with | ⟨0, _⟩ => rfl | ⟨1, _⟩ => rfl)
  rw [val_main_v105_apply, val_main_v103_apply, val_main_v102_apply, val_main_cst_14_apply,
    val_main_v104_apply, val_main_cst_15_apply]
  simp only [e, Ideal.hostDivf_def, Ideal.ofBits_def, Ideal.ofBits_zero_f32, zero_add]
  rfl

/-- The row mean of the squared deviations of the residual sum. -/
theorem edge_var_at (r : Fin 640000) :
    val_main_v112 (F := Ideal) x0 x1 x2 x3 x10 x11 x16 x17 x18 x19 (ix2 r (0 : Fin 1))
      = mean (fun k => (val_main_v101 (F := Ideal) x0 x1 x2 x3 x10 x11 x16 x17 x18 x19 (ix2 r k) - mean (fun k' => val_main_v101 (F := Ideal) x0 x1 x2 x3 x10 x11 x16 x17 x18 x19 (ix2 r k')))
          * (val_main_v101 (F := Ideal) x0 x1 x2 x3 x10 x11 x16 x17 x18 x19 (ix2 r k) - mean (fun k' => val_main_v101 (F := Ideal) x0 x1 x2 x3 x10 x11 x16 x17 x18 x19 (ix2 r k')))) := by
  have e : ∀ k : Fin 128, idx_main_v109 (idx_main_v110 (ix2 r (0 : Fin 1))) k = ix2 r k := fun k => funext fun a => Fin.ext (by match a with | ⟨0, _⟩ => rfl | ⟨1, _⟩ => rfl)
  have em : ∀ k : Fin 128, idx_main_v106 (ix2 r k) = ix2 r (0 : Fin 1) := fun k => funext fun a => Fin.ext (by match a with | ⟨0, _⟩ => rfl | ⟨1, _⟩ => rfl)
  rw [val_main_v112_apply, val_main_v110_apply, val_main_v109_apply, val_main_cst_16_apply,
    val_main_v111_apply, val_main_cst_17_apply]
  simp only [e, val_main_v108_apply, val_main_v107_apply, val_main_v106_apply, em, edge_mean_at,
    Ideal.hostDivf_def, Ideal.mulf_def, Ideal.subf_def, Ideal.ofBits_def, Ideal.ofBits_zero_f32, zero_add]
  rfl

/-- The normalised row at an entry, in terms of the residual sum's row. -/
theorem edge_norm_at (r : Fin 640000) (j : Fin 128) :
    val_main_v125 (F := Ideal) x0 x1 x2 x3 x10 x11 x16 x17 x18 x19 x22 x23 (ix2 r j)
      = lnorm (fun k => val_main_v101 (F := Ideal) x0 x1 x2 x3 x10 x11 x16 x17 x18 x19 (ix2 r k)) (vec x22) (vec x23) j := by
  have em : idx_main_v113 (ix2 r j) = ix2 r (0 : Fin 1) := funext fun a => Fin.ext (by match a with | ⟨0, _⟩ => rfl | ⟨1, _⟩ => rfl)
  have es : idx_main_v118 (ix2 r j) = ix2 r (0 : Fin 1) := funext fun a => Fin.ext (by match a with | ⟨0, _⟩ => rfl | ⟨1, _⟩ => rfl)
  have eg : idx_main_v120 (idx_main_v121 (ix2 r j)) = ix1 j := funext fun a => Fin.ext (by match a with | ⟨0, _⟩ => rfl)
  have et : idx_main_v123 (idx_main_v124 (ix2 r j)) = ix1 j := funext fun a => Fin.ext (by match a with | ⟨0, _⟩ => rfl)
  rw [val_main_v125_apply, val_main_v122_apply, val_main_v119_apply, val_main_v114_apply, val_main_v113_apply,
    val_main_v118_apply, val_main_v117_apply, val_main_v116_apply, val_main_v115_apply, val_main_cst_18_apply,
    val_main_v121_apply, val_main_v120_apply, val_main_v124_apply, val_main_v123_apply]
  simp only [em, es, eg, et, edge_mean_at, edge_var_at, Ideal.addf_def, Ideal.mulf_def, Ideal.subf_def,
    Ideal.hostUnary_rsqrt_def, Ideal.ofBits_def]
  rfl

/-- The updated edge rows: the residual perceptron on `[e k, msg (src k), msg (dst k)]`, normalised. -/
theorem edge_eq :
    val_main_v125 (F := Ideal) x0 x1 x2 x3 x10 x11 x16 x17 x18 x19 x22 x23
      = edgeArr x1 (val_main_v38 (F := Ideal) x0 x2 x10 x11) (val_main_v90 (F := Ideal) x0 x3 x10 x11) x16 x17 x18 x19 x22 x23 := by
  funext i
  obtain ⟨r, j, rfl⟩ : ∃ (r : Fin 640000) (j : Fin 128), i = ix2 r j := ⟨i 0, i 1, eq_ix2 i⟩
  rw [edge_norm_at]
  simp only [edge_res_at]
  rfl

end Edge

end Cert.ReferenceIdeal.RefValue

end
-- ==== Proof.Ref.Final.lean ====
/-
  The reference's two results as functions of the input arrays, with the row fetches and the summation of the messages
  into their destination nodes kept as the host operations they are.

  The reference program and the kernel's program each spell the fetch's and the summation's dimension numbers, the
  shapes and the broadcasts of the index column for themselves; the two spellings are the same data, so a fetch, the
  moved index column and the summation from the zero array written over one are those written over the other. With the
  stages read at an index (the affine projections, the gated message, the two residual perceptrons with their
  normalisation) the reference's node result is `nodeForm` and its edge result is `edgeForm` of the arguments.
-/
import proofs.«415799_j31490700214962_3_alg».proof.Proof.Ref.Val
import proofs.«415799_j31490700214962_3_alg».proof.Proof.KI.Form

noncomputable section

namespace Cert.ReferenceIdeal.RefValue

open Cert.ReferenceIdeal Cert.ReferenceIdeal.Read Cert.Graph
open Idealize.ShloMosaic Idealize.ShloMosaic.TcCoe Idealize.SL.Sem

variable [Cert.ReferenceIdeal.Facts] [Cert.KernelIdeal.Facts]

set_option quotPrecheck false
local notation "Nd" => (⟨S40000x128, .f32⟩ : BufTy).Contents (Elt Ideal)
local notation "Ed" => (⟨S640000x128, .f32⟩ : BufTy).Contents (Elt Ideal)
local notation "Ix" => (⟨S640000, .i32⟩ : BufTy).Contents (Elt Ideal)
local notation "W1" => (⟨S128x128, .f32⟩ : BufTy).Contents (Elt Ideal)
local notation "W2" => (⟨S256x128, .f32⟩ : BufTy).Contents (Elt Ideal)
local notation "W3" => (⟨S384x128, .f32⟩ : BufTy).Contents (Elt Ideal)
local notation "V1" => (⟨S128, .f32⟩ : BufTy).Contents (Elt Ideal)

/-! ## The two spellings of the host operations -/

/-- A fetch at the moved source index column, as the reference spells it before its first gate fetch. -/
theorem fetch_v17 (x : Nd) (i : Ix) :
    Host.gather gather_S40000x128_S640000x1_S640000x128_1_0_n_n_0_1_1128 x (val_main_v17 (F := Ideal) i) = Cert.KernelIdeal.Hand.fetch x i := rfl
/-- A fetch at the moved destination index column. -/
theorem fetch_v24 (x : Nd) (i : Ix) :
    Host.gather gather_S40000x128_S640000x1_S640000x128_1_0_n_n_0_1_1128 x (val_main_v24 (F := Ideal) i) = Cert.KernelIdeal.Hand.fetch x i := rfl
/-- A fetch at the moved source index column, as spelt before the source message fetch. -/
theorem fetch_v37 (x : Nd) (i : Ix) :
    Host.gather gather_S40000x128_S640000x1_S640000x128_1_0_n_n_0_1_1128 x (val_main_v37 (F := Ideal) i) = Cert.KernelIdeal.Hand.fetch x i := rfl
/-- A fetch at the moved destination index column, as spelt before the destination message fetch. -/
theorem fetch_v89 (x : Nd) (i : Ix) :
    Host.gather gather_S40000x128_S640000x1_S640000x128_1_0_n_n_0_1_1128 x (val_main_v89 (F := Ideal) i) = Cert.KernelIdeal.Hand.fetch x i := rfl
/-- The summation of edge rows into their destination nodes, from the zero array. -/
theorem agg_v48 (i : Ix) (msg : Ed) :
    Host.scatterAdd scatter_S40000x128_S640000x1_S640000x128_1_0_0_1 (val_main_v46 (F := Ideal)) (val_main_v47 (F := Ideal) i) msg = Cert.KernelIdeal.Hand.aggOf i msg := rfl

/-! ## The stages over the fetches and the summation -/

section Stages
variable (x0 : Nd) (x1 : Ed) (x2 x3 : Ix) (x4 : W1) (x5 : V1) (x6 : W1) (x7 : V1) (x8 : W1) (x9 : V1) (x10 : W1) (x11 : V1)
  (x12 : W2) (x13 : V1) (x14 : W1) (x15 : V1) (x16 : W3) (x17 : V1) (x18 : W1) (x19 : V1) (x20 x21 x22 x23 : V1)

/-- The gathered source gate projection. -/
theorem v18_form : val_main_v18 (F := Ideal) x0 x2 x4 x5 = Cert.KernelIdeal.Hand.fetch (proj x0 x4 x5) x2 := by
  unfold val_main_v18; rw [proj_src]; exact fetch_v17 _ _
/-- The gathered destination gate projection. -/
theorem v25_form : val_main_v25 (F := Ideal) x0 x3 x6 x7 = Cert.KernelIdeal.Hand.fetch (proj x0 x6 x7) x3 := by
  unfold val_main_v25; rw [proj_dst]; exact fetch_v24 _ _
/-- The gathered source message projection. -/
theorem v38_form : val_main_v38 (F := Ideal) x0 x2 x10 x11 = Cert.KernelIdeal.Hand.fetch (proj x0 x10 x11) x2 := by
  unfold val_main_v38; rw [proj_msg]; exact fetch_v37 _ _
/-- The gathered destination message projection. -/
theorem v90_form : val_main_v90 (F := Ideal) x0 x3 x10 x11 = Cert.KernelIdeal.Hand.fetch (proj x0 x10 x11) x3 := by
  unfold val_main_v90; rw [proj_msg]; exact fetch_v89 _ _

/-- The messages of all edges. -/
theorem v45_form : val_main_v45 (F := Ideal) x0 x1 x2 x3 x4 x5 x6 x7 x8 x9 x10 x11 = Cert.KernelIdeal.Hand.msgForm x0 x1 x2 x3 x4 x5 x6 x7 x8 x9 x10 x11 := by
  rw [msg_eq, v18_form, v25_form, v38_form]; rfl

/-- The messages summed into their destination nodes. -/
theorem v48_form : val_main_v48 (F := Ideal) x0 x1 x2 x3 x4 x5 x6 x7 x8 x9 x10 x11 = Cert.KernelIdeal.Hand.aggOf x3 (Cert.KernelIdeal.Hand.msgForm x0 x1 x2 x3 x4 x5 x6 x7 x8 x9 x10 x11) := by
  unfold val_main_v48; rw [v45_form]; exact agg_v48 _ _

/-- The updated node rows. -/
theorem v83_form : val_main_v83 (F := Ideal) x0 x1 x2 x3 x4 x5 x6 x7 x8 x9 x10 x11 x12 x13 x14 x15 x20 x21 = Cert.KernelIdeal.Hand.nodeForm x0 x1 x2 x3 x4 x5 x6 x7 x8 x9 x10 x11 x12 x13 x14 x15 x20 x21 := by
  rw [node_eq, v48_form]; rfl

/-- The updated edge rows. -/
theorem v125_form : val_main_v125 (F := Ideal) x0 x1 x2 x3 x10 x11 x16 x17 x18 x19 x22 x23
    = Cert.KernelIdeal.Hand.edgeForm x0 x1 x2 x3 x10 x11 x16 x17 x18 x19 x22 x23 := by
  rw [edge_eq, v38_form, v90_form]; rfl

end Stages

/-! ## The reference's results -/

section Results
variable (m : (ℓ : Loc nD τ sig) → Buf (Elt Ideal) ℓ) (c : Dev nD)

local notation "A" a => m ((c.tc : Thread nD τ).loc a)

/-- The reference's node result is `nodeForm` of its arguments. -/
theorem ref_out0 : Cert.ReferenceIdeal.Value.res_main_v83 m c
    = Cert.KernelIdeal.Hand.nodeForm (A main_arg0) (A main_arg1) (A main_arg2) (A main_arg3) (A main_arg4) (A main_arg5) (A main_arg6) (A main_arg7) (A main_arg8) (A main_arg9) (A main_arg10) (A main_arg11) (A main_arg12) (A main_arg13) (A main_arg14) (A main_arg15) (A main_arg20) (A main_arg21) := by
  rw [val_main_v83_eq]
  exact v83_form _ _ _ _ _ _ _ _ _ _ _ _ _ _ _ _ _ _

/-- The reference's edge result is `edgeForm` of its arguments. -/
theorem ref_out1 : Cert.ReferenceIdeal.Value.res_main_v125 m c
    = Cert.KernelIdeal.Hand.edgeForm (A main_arg0) (A main_arg1) (A main_arg2) (A main_arg3) (A main_arg10) (A main_arg11) (A main_arg16) (A main_arg17) (A main_arg18) (A main_arg19) (A main_arg22) (A main_arg23) := by
  rw [val_main_v125_eq]
  exact v125_form _ _ _ _ _ _ _ _ _ _ _ _

end Results

/-- info: 'Cert.ReferenceIdeal.RefValue.ref_out0' depends on axioms: [propext, Classical.choice, Quot.sound] -/
#guard_msgs in #print axioms ref_out0
/-- info: 'Cert.ReferenceIdeal.RefValue.ref_out1' depends on axioms: [propext, Classical.choice, Quot.sound] -/
#guard_msgs in #print axioms ref_out1

end Cert.ReferenceIdeal.RefValue

end
-- ==== Proof.Pre.lean ====
/-
  The precondition, read back at the two index inputs: every source index and every destination index is a node number,
  `0 ≤ · < 40000` as a signed 32-bit word. (The rest of the precondition, the finiteness of the float inputs, is not
  needed by this certificate: the two programs agree on the extended reals operation by operation.)
-/
import proofs.«415799_j31490700214962_3_alg».proof.Defs
import Idealize.ShloMosaic.Lib.ReduceAll
import Idealize.ShloMosaic.Lib.ValueIdx

set_option maxRecDepth 8192

noncomputable section

namespace Cert.Proof.PreIdx

open Idealize.ShloMosaic Idealize.ShloMosaic.ValueIdx Idealize.SL.Sem

instance : Subsingleton Cert.Pre_finite_inputs.S_.Idx := ⟨fun _ _ => funext fun d => d.elim0⟩

variable [hP : Cert.Pre_finite_inputs.Facts] [hK : Cert.KernelIdeal.Facts]

/-- Under the precondition both index inputs hold node numbers. -/
theorem idx_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ k : Cert.KernelIdeal.S640000.Idx,
        IntOp.cmpi .sge (m ((c.tc : Thread Cert.KernelIdeal.nD Cert.KernelIdeal.τ).loc Cert.KernelIdeal.main_arg2) k) 0#32 = 1#1
        ∧ IntOp.cmpi .slt (m ((c.tc : Thread Cert.KernelIdeal.nD Cert.KernelIdeal.τ).loc Cert.KernelIdeal.main_arg2) k) 40000#32 = 1#1)
    ∧ (∀ k : Cert.KernelIdeal.S640000.Idx,
        IntOp.cmpi .sge (m ((c.tc : Thread Cert.KernelIdeal.nD Cert.KernelIdeal.τ).loc Cert.KernelIdeal.main_arg3) k) 0#32 = 1#1
        ∧ IntOp.cmpi .slt (m ((c.tc : Thread Cert.KernelIdeal.nD Cert.KernelIdeal.τ).loc Cert.KernelIdeal.main_arg3) k) 40000#32 = 1#1) := by
  have h1 := congrFun (h c) ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7] at h1
  obtain ⟨h2, hd1⟩ := IntOp.andi_eq_one.mp h1
  obtain ⟨h3, hd0⟩ := IntOp.andi_eq_one.mp h2
  obtain ⟨h4, hs1⟩ := IntOp.andi_eq_one.mp h3
  obtain ⟨-, hs0⟩ := IntOp.andi_eq_one.mp h4
  exact ⟨fun k => ⟨Host.reduce_andi_all _ _ _ _ _ hs0 k, Host.reduce_andi_all _ _ _ _ _ hs1 k⟩,
    fun k => ⟨Host.reduce_andi_all _ _ _ _ _ hd0 k, Host.reduce_andi_all _ _ _ _ _ hd1 k⟩⟩

end Cert.Proof.PreIdx

end
-- ==== Proof.lean ====
/-
  The certificate of an edge-gated graph convolution layer written as three Pallas kernels (a fused node projection, an
  edge kernel, a node update) with guarded row reads and a summation of messages into their destination nodes between
  them, against its plain reference.

  Frames. Each of the two kernel programs is a chain of nine segments (host lines and the three kernel calls); every
  kernel body loads whole blocks, computes, and stores whole blocks, so each call's frame half is one run of its body,
  and the launch theorem for several calls gives the run of the whole program with every buffer at a named fold of the
  launch memory. The reference is a line of host operations and its run is read back operation by operation.

  Values. On the extended reals the two programs apply the same operations in the same order, row by row
  (`Cert.Graph`): the fused projection's three bands are the reference's three projections; the edge and node kernels'
  blocks are rows of the whole arrays; sums over lanes, matrix products and the logistic function read the same on both
  sides. The only place where the programs differ is the row read `table[idx]`: the kernel's replaces a row whose index
  is out of range by a fill pattern where the reference's clamps the index. The precondition therefore asks, besides the
  finiteness of the float inputs, that both index inputs hold node numbers `0 ≤ · < 40000`; then the guarded read is the
  plain fetch and the two programs agree. The fetches and the summation into destinations are never opened: both
  programs apply them to equal arrays.
-/
import proofs.«415799_j31490700214962_3_alg».proof.Defs
import proofs.«415799_j31490700214962_3_alg».proof.Proof.Gen.Kernel
import proofs.«415799_j31490700214962_3_alg».proof.Proof.Gen.KernelIdeal
import proofs.«415799_j31490700214962_3_alg».proof.Proof.Gen.ReferenceIdeal
import proofs.«415799_j31490700214962_3_alg».proof.Proof.Gen.Pre_finite_inputs
import proofs.«415799_j31490700214962_3_alg».proof.Proof.Gen.ReferenceIdeal.Run
import proofs.«415799_j31490700214962_3_alg».proof.Proof.Gen.ReferenceIdeal.Read
import proofs.«415799_j31490700214962_3_alg».proof.Proof.K.Run
import proofs.«415799_j31490700214962_3_alg».proof.Proof.KI.Final
import proofs.«415799_j31490700214962_3_alg».proof.Proof.Ref.Final
import proofs.«415799_j31490700214962_3_alg».proof.Proof.Pre

set_option maxRecDepth 16384

noncomputable section

namespace Cert.Proof

open Idealize.ShloMosaic Idealize.ShloMosaic.TcCoe Idealize.SL.Sem

/-- The word-level program runs to the end and leaves its arguments as launched. -/
theorem frame_k : Cert.frame_Kernel := fun m ρ _ =>
  (θ_run (Cert.Kernel.defs (F := Bits)) _ _).mono (fun r h c => ⟨
    (h c _ (Cert.Kernel.Hand.mem_uc Cert.Kernel.main_arg0 (by decide))).trans (Cert.Kernel.Hand.W9_arg m ρ c Cert.Kernel.main_arg0 (by decide)),
    (h c _ (Cert.Kernel.Hand.mem_uc Cert.Kernel.main_arg1 (by decide))).trans (Cert.Kernel.Hand.W9_arg m ρ c Cert.Kernel.main_arg1 (by decide)),
    (h c _ (Cert.Kernel.Hand.mem_uc Cert.Kernel.main_arg2 (by decide))).trans (Cert.Kernel.Hand.W9_arg m ρ c Cert.Kernel.main_arg2 (by decide)),
    (h c _ (Cert.Kernel.Hand.mem_uc Cert.Kernel.main_arg3 (by decide))).trans (Cert.Kernel.Hand.W9_arg m ρ c Cert.Kernel.main_arg3 (by decide)),
    (h c _ (Cert.Kernel.Hand.mem_uc Cert.Kernel.main_arg4 (by decide))).trans (Cert.Kernel.Hand.W9_arg m ρ c Cert.Kernel.main_arg4 (by decide)),
    (h c _ (Cert.Kernel.Hand.mem_uc Cert.Kernel.main_arg5 (by decide))).trans (Cert.Kernel.Hand.W9_arg m ρ c Cert.Kernel.main_arg5 (by decide)),
    (h c _ (Cert.Kernel.Hand.mem_uc Cert.Kernel.main_arg6 (by decide))).trans (Cert.Kernel.Hand.W9_arg m ρ c Cert.Kernel.main_arg6 (by decide)),
    (h c _ (Cert.Kernel.Hand.mem_uc Cert.Kernel.main_arg7 (by decide))).trans (Cert.Kernel.Hand.W9_arg m ρ c Cert.Kernel.main_arg7 (by decide)),
    (h c _ (Cert.Kernel.Hand.mem_uc Cert.Kernel.main_arg8 (by decide))).trans (Cert.Kernel.Hand.W9_arg m ρ c Cert.Kernel.main_arg8 (by decide)),
    (h c _ (Cert.Kernel.Hand.mem_uc Cert.Kernel.main_arg9 (by decide))).trans (Cert.Kernel.Hand.W9_arg m ρ c Cert.Kernel.main_arg9 (by decide)),
    (h c _ (Cert.Kernel.Hand.mem_uc Cert.Kernel.main_arg10 (by decide))).trans (Cert.Kernel.Hand.W9_arg m ρ c Cert.Kernel.main_arg10 (by decide)),
    (h c _ (Cert.Kernel.Hand.mem_uc Cert.Kernel.main_arg11 (by decide))).trans (Cert.Kernel.Hand.W9_arg m ρ c Cert.Kernel.main_arg11 (by decide)),
    (h c _ (Cert.Kernel.Hand.mem_uc Cert.Kernel.main_arg12 (by decide))).trans (Cert.Kernel.Hand.W9_arg m ρ c Cert.Kernel.main_arg12 (by decide)),
    (h c _ (Cert.Kernel.Hand.mem_uc Cert.Kernel.main_arg13 (by decide))).trans (Cert.Kernel.Hand.W9_arg m ρ c Cert.Kernel.main_arg13 (by decide)),
    (h c _ (Cert.Kernel.Hand.mem_uc Cert.Kernel.main_arg14 (by decide))).trans (Cert.Kernel.Hand.W9_arg m ρ c Cert.Kernel.main_arg14 (by decide)),
    (h c _ (Cert.Kernel.Hand.mem_uc Cert.Kernel.main_arg15 (by decide))).trans (Cert.Kernel.Hand.W9_arg m ρ c Cert.Kernel.main_arg15 (by decide)),
    (h c _ (Cert.Kernel.Hand.mem_uc Cert.Kernel.main_arg16 (by decide))).trans (Cert.Kernel.Hand.W9_arg m ρ c Cert.Kernel.main_arg16 (by decide)),
    (h c _ (Cert.Kernel.Hand.mem_uc Cert.Kernel.main_arg17 (by decide))).trans (Cert.Kernel.Hand.W9_arg m ρ c Cert.Kernel.main_arg17 (by decide)),
    (h c _ (Cert.Kernel.Hand.mem_uc Cert.Kernel.main_arg18 (by decide))).trans (Cert.Kernel.Hand.W9_arg m ρ c Cert.Kernel.main_arg18 (by decide)),
    (h c _ (Cert.Kernel.Hand.mem_uc Cert.Kernel.main_arg19 (by decide))).trans (Cert.Kernel.Hand.W9_arg m ρ c Cert.Kernel.main_arg19 (by decide)),
    (h c _ (Cert.Kernel.Hand.mem_uc Cert.Kernel.main_arg20 (by decide))).trans (Cert.Kernel.Hand.W9_arg m ρ c Cert.Kernel.main_arg20 (by decide)),
    (h c _ (Cert.Kernel.Hand.mem_uc Cert.Kernel.main_arg21 (by decide))).trans (Cert.Kernel.Hand.W9_arg m ρ c Cert.Kernel.main_arg21 (by decide)),
    (h c _ (Cert.Kernel.Hand.mem_uc Cert.Kernel.main_arg22 (by decide))).trans (Cert.Kernel.Hand.W9_arg m ρ c Cert.Kernel.main_arg22 (by decide)),
    (h c _ (Cert.Kernel.Hand.mem_uc Cert.Kernel.main_arg23 (by decide))).trans (Cert.Kernel.Hand.W9_arg m ρ c Cert.Kernel.main_arg23 (by decide))⟩)
    (Cert.Kernel.Hand.run_all (F := Bits) m ρ)

/-- The idealized program likewise. -/
theorem frame_ki : Cert.frame_KernelIdeal := fun m ρ _ =>
  (θ_run (Cert.KernelIdeal.defs (F := Ideal)) _ _).mono (fun r h c => ⟨
    (h c _ (Cert.KernelIdeal.Hand.mem_uc Cert.KernelIdeal.main_arg0 (by decide))).trans (Cert.KernelIdeal.Hand.W9_arg m ρ c Cert.KernelIdeal.main_arg0 (by decide)),
    (h c _ (Cert.KernelIdeal.Hand.mem_uc Cert.KernelIdeal.main_arg1 (by decide))).trans (Cert.KernelIdeal.Hand.W9_arg m ρ c Cert.KernelIdeal.main_arg1 (by decide)),
    (h c _ (Cert.KernelIdeal.Hand.mem_uc Cert.KernelIdeal.main_arg2 (by decide))).trans (Cert.KernelIdeal.Hand.W9_arg m ρ c Cert.KernelIdeal.main_arg2 (by decide)),
    (h c _ (Cert.KernelIdeal.Hand.mem_uc Cert.KernelIdeal.main_arg3 (by decide))).trans (Cert.KernelIdeal.Hand.W9_arg m ρ c Cert.KernelIdeal.main_arg3 (by decide)),
    (h c _ (Cert.KernelIdeal.Hand.mem_uc Cert.KernelIdeal.main_arg4 (by decide))).trans (Cert.KernelIdeal.Hand.W9_arg m ρ c Cert.KernelIdeal.main_arg4 (by decide)),
    (h c _ (Cert.KernelIdeal.Hand.mem_uc Cert.KernelIdeal.main_arg5 (by decide))).trans (Cert.KernelIdeal.Hand.W9_arg m ρ c Cert.KernelIdeal.main_arg5 (by decide)),
    (h c _ (Cert.KernelIdeal.Hand.mem_uc Cert.KernelIdeal.main_arg6 (by decide))).trans (Cert.KernelIdeal.Hand.W9_arg m ρ c Cert.KernelIdeal.main_arg6 (by decide)),
    (h c _ (Cert.KernelIdeal.Hand.mem_uc Cert.KernelIdeal.main_arg7 (by decide))).trans (Cert.KernelIdeal.Hand.W9_arg m ρ c Cert.KernelIdeal.main_arg7 (by decide)),
    (h c _ (Cert.KernelIdeal.Hand.mem_uc Cert.KernelIdeal.main_arg8 (by decide))).trans (Cert.KernelIdeal.Hand.W9_arg m ρ c Cert.KernelIdeal.main_arg8 (by decide)),
    (h c _ (Cert.KernelIdeal.Hand.mem_uc Cert.KernelIdeal.main_arg9 (by decide))).trans (Cert.KernelIdeal.Hand.W9_arg m ρ c Cert.KernelIdeal.main_arg9 (by decide)),
    (h c _ (Cert.KernelIdeal.Hand.mem_uc Cert.KernelIdeal.main_arg10 (by decide))).trans (Cert.KernelIdeal.Hand.W9_arg m ρ c Cert.KernelIdeal.main_arg10 (by decide)),
    (h c _ (Cert.KernelIdeal.Hand.mem_uc Cert.KernelIdeal.main_arg11 (by decide))).trans (Cert.KernelIdeal.Hand.W9_arg m ρ c Cert.KernelIdeal.main_arg11 (by decide)),
    (h c _ (Cert.KernelIdeal.Hand.mem_uc Cert.KernelIdeal.main_arg12 (by decide))).trans (Cert.KernelIdeal.Hand.W9_arg m ρ c Cert.KernelIdeal.main_arg12 (by decide)),
    (h c _ (Cert.KernelIdeal.Hand.mem_uc Cert.KernelIdeal.main_arg13 (by decide))).trans (Cert.KernelIdeal.Hand.W9_arg m ρ c Cert.KernelIdeal.main_arg13 (by decide)),
    (h c _ (Cert.KernelIdeal.Hand.mem_uc Cert.KernelIdeal.main_arg14 (by decide))).trans (Cert.KernelIdeal.Hand.W9_arg m ρ c Cert.KernelIdeal.main_arg14 (by decide)),
    (h c _ (Cert.KernelIdeal.Hand.mem_uc Cert.KernelIdeal.main_arg15 (by decide))).trans (Cert.KernelIdeal.Hand.W9_arg m ρ c Cert.KernelIdeal.main_arg15 (by decide)),
    (h c _ (Cert.KernelIdeal.Hand.mem_uc Cert.KernelIdeal.main_arg16 (by decide))).trans (Cert.KernelIdeal.Hand.W9_arg m ρ c Cert.KernelIdeal.main_arg16 (by decide)),
    (h c _ (Cert.KernelIdeal.Hand.mem_uc Cert.KernelIdeal.main_arg17 (by decide))).trans (Cert.KernelIdeal.Hand.W9_arg m ρ c Cert.KernelIdeal.main_arg17 (by decide)),
    (h c _ (Cert.KernelIdeal.Hand.mem_uc Cert.KernelIdeal.main_arg18 (by decide))).trans (Cert.KernelIdeal.Hand.W9_arg m ρ c Cert.KernelIdeal.main_arg18 (by decide)),
    (h c _ (Cert.KernelIdeal.Hand.mem_uc Cert.KernelIdeal.main_arg19 (by decide))).trans (Cert.KernelIdeal.Hand.W9_arg m ρ c Cert.KernelIdeal.main_arg19 (by decide)),
    (h c _ (Cert.KernelIdeal.Hand.mem_uc Cert.KernelIdeal.main_arg20 (by decide))).trans (Cert.KernelIdeal.Hand.W9_arg m ρ c Cert.KernelIdeal.main_arg20 (by decide)),
    (h c _ (Cert.KernelIdeal.Hand.mem_uc Cert.KernelIdeal.main_arg21 (by decide))).trans (Cert.KernelIdeal.Hand.W9_arg m ρ c Cert.KernelIdeal.main_arg21 (by decide)),
    (h c _ (Cert.KernelIdeal.Hand.mem_uc Cert.KernelIdeal.main_arg22 (by decide))).trans (Cert.KernelIdeal.Hand.W9_arg m ρ c Cert.KernelIdeal.main_arg22 (by decide)),
    (h c _ (Cert.KernelIdeal.Hand.mem_uc Cert.KernelIdeal.main_arg23 (by decide))).trans (Cert.KernelIdeal.Hand.W9_arg m ρ c Cert.KernelIdeal.main_arg23 (by decide))⟩)
    (Cert.KernelIdeal.Hand.run_all (F := Ideal) m ρ)

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the node rows and the edge rows at the same functions of the arguments. -/
theorem algebraic : Cert.algebraic_KernelIdeal_ReferenceIdeal := by
  intro m ρ m' ρ' hpre hagree
  have hr : ∀ c, Cert.KernelIdeal.Hand.InRange m c := fun c => Cert.Proof.PreIdx.idx_of_pre m hpre c
  refine ⟨fun c => Cert.KernelIdeal.Hand.W9 m ρ c (Proc.devRef .tc Cert.KernelIdeal.main_v11),
    fun c => Cert.KernelIdeal.Hand.W9 m ρ c (Proc.devRef .tc Cert.KernelIdeal.main_v7_0), ?_, ?_⟩
  · exact (θ_run (Cert.KernelIdeal.defs (F := Ideal)) _ _).mono (fun r h c => ⟨
      h c _ (Cert.KernelIdeal.Hand.mem_uc Cert.KernelIdeal.main_v11 (by decide)),
      h c _ (Cert.KernelIdeal.Hand.mem_uc Cert.KernelIdeal.main_v7_0 (by decide)),
      (h c _ (Cert.KernelIdeal.Hand.mem_uc Cert.KernelIdeal.main_arg0 (by decide))).trans (Cert.KernelIdeal.Hand.W9_arg m ρ c Cert.KernelIdeal.main_arg0 (by decide)),
      (h c _ (Cert.KernelIdeal.Hand.mem_uc Cert.KernelIdeal.main_arg1 (by decide))).trans (Cert.KernelIdeal.Hand.W9_arg m ρ c Cert.KernelIdeal.main_arg1 (by decide)),
      (h c _ (Cert.KernelIdeal.Hand.mem_uc Cert.KernelIdeal.main_arg2 (by decide))).trans (Cert.KernelIdeal.Hand.W9_arg m ρ c Cert.KernelIdeal.main_arg2 (by decide)),
      (h c _ (Cert.KernelIdeal.Hand.mem_uc Cert.KernelIdeal.main_arg3 (by decide))).trans (Cert.KernelIdeal.Hand.W9_arg m ρ c Cert.KernelIdeal.main_arg3 (by decide)),
      (h c _ (Cert.KernelIdeal.Hand.mem_uc Cert.KernelIdeal.main_arg4 (by decide))).trans (Cert.KernelIdeal.Hand.W9_arg m ρ c Cert.KernelIdeal.main_arg4 (by decide)),
      (h c _ (Cert.KernelIdeal.Hand.mem_uc Cert.KernelIdeal.main_arg5 (by decide))).trans (Cert.KernelIdeal.Hand.W9_arg m ρ c Cert.KernelIdeal.main_arg5 (by decide)),
      (h c _ (Cert.KernelIdeal.Hand.mem_uc Cert.KernelIdeal.main_arg6 (by decide))).trans (Cert.KernelIdeal.Hand.W9_arg m ρ c Cert.KernelIdeal.main_arg6 (by decide)),
      (h c _ (Cert.KernelIdeal.Hand.mem_uc Cert.KernelIdeal.main_arg7 (by decide))).trans (Cert.KernelIdeal.Hand.W9_arg m ρ c Cert.KernelIdeal.main_arg7 (by decide)),
      (h c _ (Cert.KernelIdeal.Hand.mem_uc Cert.KernelIdeal.main_arg8 (by decide))).trans (Cert.KernelIdeal.Hand.W9_arg m ρ c Cert.KernelIdeal.main_arg8 (by decide)),
      (h c _ (Cert.KernelIdeal.Hand.mem_uc Cert.KernelIdeal.main_arg9 (by decide))).trans (Cert.KernelIdeal.Hand.W9_arg m ρ c Cert.KernelIdeal.main_arg9 (by decide)),
      (h c _ (Cert.KernelIdeal.Hand.mem_uc Cert.KernelIdeal.main_arg10 (by decide))).trans (Cert.KernelIdeal.Hand.W9_arg m ρ c Cert.KernelIdeal.main_arg10 (by decide)),
      (h c _ (Cert.KernelIdeal.Hand.mem_uc Cert.KernelIdeal.main_arg11 (by decide))).trans (Cert.KernelIdeal.Hand.W9_arg m ρ c Cert.KernelIdeal.main_arg11 (by decide)),
      (h c _ (Cert.KernelIdeal.Hand.mem_uc Cert.KernelIdeal.main_arg12 (by decide))).trans (Cert.KernelIdeal.Hand.W9_arg m ρ c Cert.KernelIdeal.main_arg12 (by decide)),
      (h c _ (Cert.KernelIdeal.Hand.mem_uc Cert.KernelIdeal.main_arg13 (by decide))).trans (Cert.KernelIdeal.Hand.W9_arg m ρ c Cert.KernelIdeal.main_arg13 (by decide)),
      (h c _ (Cert.KernelIdeal.Hand.mem_uc Cert.KernelIdeal.main_arg14 (by decide))).trans (Cert.KernelIdeal.Hand.W9_arg m ρ c Cert.KernelIdeal.main_arg14 (by decide)),
      (h c _ (Cert.KernelIdeal.Hand.mem_uc Cert.KernelIdeal.main_arg15 (by decide))).trans (Cert.KernelIdeal.Hand.W9_arg m ρ c Cert.KernelIdeal.main_arg15 (by decide)),
      (h c _ (Cert.KernelIdeal.Hand.mem_uc Cert.KernelIdeal.main_arg16 (by decide))).trans (Cert.KernelIdeal.Hand.W9_arg m ρ c Cert.KernelIdeal.main_arg16 (by decide)),
      (h c _ (Cert.KernelIdeal.Hand.mem_uc Cert.KernelIdeal.main_arg17 (by decide))).trans (Cert.KernelIdeal.Hand.W9_arg m ρ c Cert.KernelIdeal.main_arg17 (by decide)),
      (h c _ (Cert.KernelIdeal.Hand.mem_uc Cert.KernelIdeal.main_arg18 (by decide))).trans (Cert.KernelIdeal.Hand.W9_arg m ρ c Cert.KernelIdeal.main_arg18 (by decide)),
      (h c _ (Cert.KernelIdeal.Hand.mem_uc Cert.KernelIdeal.main_arg19 (by decide))).trans (Cert.KernelIdeal.Hand.W9_arg m ρ c Cert.KernelIdeal.main_arg19 (by decide)),
      (h c _ (Cert.KernelIdeal.Hand.mem_uc Cert.KernelIdeal.main_arg20 (by decide))).trans (Cert.KernelIdeal.Hand.W9_arg m ρ c Cert.KernelIdeal.main_arg20 (by decide)),
      (h c _ (Cert.KernelIdeal.Hand.mem_uc Cert.KernelIdeal.main_arg21 (by decide))).trans (Cert.KernelIdeal.Hand.W9_arg m ρ c Cert.KernelIdeal.main_arg21 (by decide)),
      (h c _ (Cert.KernelIdeal.Hand.mem_uc Cert.KernelIdeal.main_arg22 (by decide))).trans (Cert.KernelIdeal.Hand.W9_arg m ρ c Cert.KernelIdeal.main_arg22 (by decide)),
      (h c _ (Cert.KernelIdeal.Hand.mem_uc Cert.KernelIdeal.main_arg23 (by decide))).trans (Cert.KernelIdeal.Hand.W9_arg m ρ c Cert.KernelIdeal.main_arg23 (by decide))⟩)
      (Cert.KernelIdeal.Hand.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, -, -, -, -, h20, h21, -, -⟩ := hagree c
      have e := Cert.ReferenceIdeal.RefValue.ref_out0 m' c
      rw [h0, h1, h2, h3, h4, h5, h6, h7, h8, h9, h10, h11, h12, h13, h14, h15, h20, h21] at e
      exact e.trans (Cert.KernelIdeal.Hand.out0_eq m ρ c (hr c)).symm
    · obtain ⟨h0, h1, h2, h3, -, -, -, -, -, -, h10, h11, -, -, -, -, h16, h17, h18, h19, -, -, h22, h23⟩ := hagree c
      have e := Cert.ReferenceIdeal.RefValue.ref_out1 m' c
      rw [h0, h1, h2, h3, h10, h11, h16, h17, h18, h19, h22, h23] at e
      exact e.trans (Cert.KernelIdeal.Hand.out1_eq m ρ c (hr c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
